-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S256x128 : Shape := ⟨2, ![256, 128]⟩
abbrev S128 : Shape := ⟨1, ![128]⟩
abbrev S128x128 : Shape := ⟨2, ![128, 128]⟩
abbrev S_ : Shape := ⟨0, ![]⟩
abbrev S1x800000 : Shape := ⟨2, ![1, 800000]⟩
abbrev S800000 : Shape := ⟨1, ![800000]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  slices_S2x800000_S1x800000_0_0 : S2x800000.Slices ![0, 0] S1x800000
  shapeCasts_S1x800000_S800000 : S1x800000.ShapeCasts S800000
  bcast_S_S800000 : S_.BroadcastsInDim S800000 (![] : Fin 0 → Fin S800000.rank)
  reducesTo_S800000_S_d0 : S800000.ReducesTo [0] S_

variable [Facts]

def fn_part1 {F : FTy → Type} [FloatOps F] (main_arg1 : IVec S2x800000 32) (main_arg5 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : IVec S1x800000 32 := (extractStridedSlice S1x800000 ![0, 0] · slices_S2x800000_S1x800000_0_0) main_arg1
  let main_v25 : IVec S800000 32 := shapeCast S800000 main_v24 shapeCasts_S1x800000_S800000
  let main_c_8 : IVec S_ 32 := constantI S_ 32 0#32
  let main_v26 : IVec S800000 32 := broadcastInDim S800000 ![] bcast_S_S800000 main_c_8
  let main_v27 : IVec S800000 1 := cmpi .sge main_v25 main_v26
  let main_v28 : IVec S1x800000 32 := (extractStridedSlice S1x800000 ![0, 0] · slices_S2x800000_S1x800000_0_0) main_arg1
  let main_v29 : IVec S800000 32 := shapeCast S800000 main_v28 shapeCasts_S1x800000_S800000
  let main_c_9 : IVec S_ 32 := constantI S_ 32 50000#32
  let main_v30 : IVec S800000 32 := broadcastInDim S800000 ![] bcast_S_S800000 main_c_9
  let main_v31 : IVec S800000 1 := cmpi .slt main_v29 main_v30
  let main_v32 : IVec S800000 1 := andi main_v27 main_v31
  let main_c_10 : IVec S_ 1 := constantI S_ 1 1#1
  let main_v33 : IVec S_ 1 := (fun x v => Host.reduce IntOp.andi x v reducesTo_S800000_S_d0 h_S_) main_v32 main_c_10
  let main_v34 : IVec S_ 1 := andi main_v23 main_v33
  main_v34

def fn {F : FTy → Type} [FloatOps F] (main_arg0 : FVec F S50000x128 .f32) (main_arg1 : IVec S2x800000 32) (main_arg2 : FVec F S256x128 .f32) (main_arg3 : FVec F S128 .f32) (main_arg4 : FVec F S128x128 .f32) (main_arg5 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S256x128 .f32 := Host.absf main_arg2
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg1 main_arg5 main_v13 main_v16
-- ==== Kernel.lean ====
abbrev S50000x128 : Shape := ⟨2, ![50000, 128]⟩
abbrev S2x800000 : Shape := ⟨2, ![2, 800000]⟩
abbrev S256x128 : Shape := ⟨2, ![256, 128]⟩
abbrev S128 : Shape := ⟨1, ![128]⟩
abbrev S128x128 : Shape := ⟨2, ![128, 128]⟩
abbrev S_ : Shape := ⟨0, ![]⟩
abbrev S50176x128 : Shape := ⟨2, ![50176, 128]⟩
abbrev S128x50176 : Shape := ⟨2, ![128, 50176]⟩
abbrev S1x800000 : Shape := ⟨2, ![1, 800000]⟩
abbrev S800000 : Shape := ⟨1, ![800000]⟩
abbrev S802816 : Shape := ⟨1, ![802816]⟩
abbrev S1x802816 : Shape := ⟨2, ![1, 802816]⟩
abbrev S50176 : Shape := ⟨1, ![50176]⟩
abbrev S800000x1 : Shape := ⟨2, ![800000, 1]⟩
abbrev S1x50176 : Shape := ⟨2, ![1, 50176]⟩
abbrev S128x802816 : Shape := ⟨2, ![128, 802816]⟩
abbrev S1x8192 : Shape := ⟨2, ![1, 8192]⟩
abbrev S128x1024 : Shape := ⟨2, ![128, 1024]⟩
abbrev S128x8192 : Shape := ⟨2, ![128, 8192]⟩
abbrev S1024x1 : Shape := ⟨2, ![1024, 1]⟩
abbrev S1024x8192 : Shape := ⟨2, ![1024, 8192]⟩
abbrev S1x1024 : Shape := ⟨2, ![1, 1024]⟩
abbrev S1x128 : Shape := ⟨2, ![1, 128]⟩
abbrev S1024x128 : Shape := ⟨2, ![1024, 128]⟩

abbrev nBuf : Space → Nat
  | .hbm => 45
  | .vmem => 27
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S256x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S_, .i32⟩
  | .hbm, ⟨7, _⟩ => ⟨S_, .f32⟩
  | .hbm, ⟨8, _⟩ => ⟨S50176x128, .f32⟩
  | .hbm, ⟨9, _⟩ => ⟨S50176x128, .bf16⟩
  | .hbm, ⟨10, _⟩ => ⟨S128x50176, .bf16⟩
  | .hbm, ⟨11, _⟩ => ⟨S1x800000, .i32⟩
  | .hbm, ⟨12, _⟩ => ⟨S800000, .i32⟩
  | .hbm, ⟨13, _⟩ => ⟨S1x800000, .i32⟩
  | .hbm, ⟨14, _⟩ => ⟨S800000, .i32⟩
  | .hbm, ⟨15, _⟩ => ⟨S_, .i32⟩
  | .hbm, ⟨16, _⟩ => ⟨S_, .i32⟩
  | .hbm, ⟨17, _⟩ => ⟨S802816, .i32⟩
  | .hbm, ⟨18, _⟩ => ⟨S_, .i32⟩
  | .hbm, ⟨19, _⟩ => ⟨S_, .i32⟩
  | .hbm, ⟨20, _⟩ => ⟨S802816, .i32⟩
  | .hbm, ⟨21, _⟩ => ⟨S1x802816, .i32⟩
  | .hbm, ⟨22, _⟩ => ⟨S1x802816, .i32⟩
  | .hbm, ⟨23, _⟩ => ⟨S_, .f32⟩
  | .hbm, ⟨24, _⟩ => ⟨S800000, .f32⟩
  | .hbm, ⟨25, _⟩ => ⟨S_, .f32⟩
  | .hbm, ⟨26, _⟩ => ⟨S50176, .f32⟩
  | .hbm, ⟨27, _⟩ => ⟨S800000x1, .i32⟩
  | .hbm, ⟨28, _⟩ => ⟨S50176, .f32⟩
  | .hbm, ⟨29, _⟩ => ⟨S_, .f32⟩
  | .hbm, ⟨30, _⟩ => ⟨S50176, .f32⟩
  | .hbm, ⟨31, _⟩ => ⟨S50176, .f32⟩
  | .hbm, ⟨32, _⟩ => ⟨S_, .f32⟩
  | .hbm, ⟨33, _⟩ => ⟨S50176, .f32⟩
  | .hbm, ⟨34, _⟩ => ⟨S50176, .f32⟩
  | .hbm, ⟨35, _⟩ => ⟨S1x50176, .f32⟩
  | .hbm, ⟨36, _⟩ => ⟨S128x802816, .bf16⟩
  | .hbm, ⟨37, _⟩ => ⟨S128x50176, .f32⟩
  | .hbm, ⟨38, _⟩ => ⟨S50176x128, .f32⟩
  | .hbm, ⟨39, _⟩ => ⟨S128x128, .f32⟩
  | .hbm, ⟨40, _⟩ => ⟨S128x128, .f32⟩
  | .hbm, ⟨41, _⟩ => ⟨S1x128, .f32⟩
  | .hbm, ⟨42, _⟩ => ⟨S1x128, .f32⟩
  | .hbm, ⟨43, _⟩ => ⟨S50176x128, .f32⟩
  | .hbm, ⟨44, _⟩ => ⟨S50000x128, .f32⟩
  | .local _ .vmem, ⟨0, _⟩ => ⟨S1x8192, .i32⟩
  | .local _ .vmem, ⟨1, _⟩ => ⟨S1x8192, .i32⟩
  | .local _ .vmem, ⟨2, _⟩ => ⟨S128x1024, .bf16⟩
  | .local _ .vmem, ⟨3, _⟩ => ⟨S128x1024, .bf16⟩
  | .local _ .vmem, ⟨4, _⟩ => ⟨S128x8192, .bf16⟩
  | .local _ .vmem, ⟨5, _⟩ => ⟨S128x8192, .bf16⟩
  | .local _ .vmem, ⟨6, _⟩ => ⟨S128x8192, .f32⟩
  | .local _ .vmem, ⟨7, _⟩ => ⟨S1x8192, .i32⟩
  | .local _ .vmem, ⟨8, _⟩ => ⟨S1x8192, .i32⟩
  | .local _ .vmem, ⟨9, _⟩ => ⟨S128x8192, .bf16⟩
  | .local _ .vmem, ⟨10, _⟩ => ⟨S128x8192, .bf16⟩
  | .local _ .vmem, ⟨11, _⟩ => ⟨S1x1024, .f32⟩
  | .local _ .vmem, ⟨12, _⟩ => ⟨S1x1024, .f32⟩
  | .local _ .vmem, ⟨13, _⟩ => ⟨S128x1024, .f32⟩
  | .local _ .vmem, ⟨14, _⟩ => ⟨S128x1024, .f32⟩
  | .local _ .vmem, ⟨15, _⟩ => ⟨S128x1024, .f32⟩
  | .local _ .vmem, ⟨16, _⟩ => ⟨S1024x128, .f32⟩
  | .local _ .vmem, ⟨17, _⟩ => ⟨S1024x128, .f32⟩
  | .local _ .vmem, ⟨18, _⟩ => ⟨S1024x128, .f32⟩
  | .local _ .vmem, ⟨19, _⟩ => ⟨S1024x128, .f32⟩
  | .local _ .vmem, ⟨20, _⟩ => ⟨S128x128, .f32⟩
  | .local _ .vmem, ⟨21, _⟩ => ⟨S128x128, .f32⟩
  | .local _ .vmem, ⟨22, _⟩ => ⟨S1x128, .f32⟩
  | .local _ .vmem, ⟨23, _⟩ => ⟨S128x128, .f32⟩
  | .local _ .vmem, ⟨24, _⟩ => ⟨S1x128, .f32⟩
  | .local _ .vmem, ⟨25, _⟩ => ⟨S1024x128, .f32⟩
  | .local _ .vmem, ⟨26, _⟩ => ⟨S1024x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_call0_v0 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c_0 : Ref sig .tc := ⟨.hbm, 15, rfl⟩
abbrev main_call1_v0 : Ref sig .tc := ⟨.hbm, 16, rfl⟩
abbrev main_v7 : Ref sig .tc := ⟨.hbm, 17, rfl⟩
abbrev main_c_1 : Ref sig .tc := ⟨.hbm, 18, rfl⟩
abbrev main_call2_v0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_cst_2 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst_3 : Ref sig .tc := ⟨.hbm, 29, rfl⟩
abbrev main_v15 : Ref sig .tc := ⟨.hbm, 30, rfl⟩
abbrev main_v16 : Ref sig .tc := ⟨.hbm, 31, rfl⟩
abbrev main_cst_4 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg3_1 : Ref sig .tc := ⟨.vmem, 14, rfl⟩
abbrev cc1_scratch0 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg5_0 : Ref sig .tc := ⟨.vmem, 23, rfl⟩
abbrev cc2_stg6_0 : Ref sig .tc := ⟨.vmem, 24, rfl⟩
abbrev cc2_stg7_0 : Ref sig .tc := ⟨.vmem, 25, rfl⟩
abbrev cc2_stg7_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem3_0 : DmaSem sig := 19
abbrev cc2_sem4_0 : DmaSem sig := 20
abbrev cc2_sem5_0 : DmaSem sig := 21
abbrev cc2_sem6_0 : DmaSem sig := 22
abbrev cc2_sem7_0 : DmaSem sig := 23
abbrev cc2_sem7_1 : DmaSem sig := 24

abbrev nD : Nat := 1
abbrev τ : Topo := Topo.v7x

variable {F : FTy → Type} [FloatOps F]

abbrev grid0 : Pipeline.Grid := ⟨2, ![98, 49], ![false, false]⟩

def k0_cond2 (i : grid0.Coords) : BitVec 1 :=
  let arg1 : BitVec 32 := BitVec.ofNat 32 (i 1).val
  let c48_i32 : BitVec 32 := 48#32
  let v23 : BitVec 1 := Scalar.cmpi .eq arg1 c48_i32
  let v24 : BitVec 32 := Scalar.extui v23
  let c0_i32_8 : BitVec 32 := 0#32
  let v25 : BitVec 1 := Scalar.cmpi .ne v24 c0_i32_8
  v25

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1x8192 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S128x8192 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨2, ![49, 98], ![false, false]⟩

def k1_cond2 (i : grid1.Coords) : BitVec 1 :=
  let arg1 : BitVec 32 := BitVec.ofNat 32 (i 1).val
  let c97_i32 : BitVec 32 := 97#32
  let v23 : BitVec 1 := Scalar.cmpi .eq arg1 c97_i32
  let v24 : BitVec 32 := Scalar.extui v23
  let c0_i32_8 : BitVec 32 := 0#32
  let v25 : BitVec 1 := Scalar.cmpi .ne v24 c0_i32_8
  v25

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage1_0 : Fin 2 → Memref sig .tc .vmem S1x8192 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S128x8192 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S128x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev grid2 : Pipeline.Grid := ⟨1, ![49], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1024x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1024x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S1024x128 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

class Facts₀ : Prop where
  pads_S50000x128_S50176x128_01760_000 : S50000x128.Pads (![0, 0] : Fin 2 → Nat) ![176, 0] ![0, 0] S50176x128
  h_S_ : 0 < S_.numel
  bitsLt_bf16_f32 : FTy.bits .bf16 < FTy.bits .f32
  transposes_S50176x128_S128x50176_1_0 : S50176x128.Transposes [1, 0] S128x50176
  slices_S2x800000_S1x800000_0_0 : S2x800000.Slices ![0, 0] S1x800000
  shapeCasts_S1x800000_S800000 : S1x800000.ShapeCasts S800000
  slices_S2x800000_S1x800000_1_0 : S2x800000.Slices ![1, 0] S1x800000
  pads_S800000_S802816_028160 : S800000.Pads (![0] : Fin 1 → Nat) ![2816] ![0] S802816
  shapeCasts_S802816_S1x802816 : S802816.ShapeCasts S1x802816
  bcast_S_S800000 : S_.BroadcastsInDim S800000 (![] : Fin 0 → Fin S800000.rank)
  bcast_S_S50176 : S_.BroadcastsInDim S50176 (![] : Fin 0 → Fin S50176.rank)
  bcast_S800000_S800000x1_0 : S800000.BroadcastsInDim S800000x1 (![0] : Fin 1 → Fin S800000x1.rank)
  shapeCasts_S50176_S1x50176 : S50176.ShapeCasts S1x50176
  inb_S128x8192_S128x8192_0_0 : ∀ a, (![0, 0] : Fin 2 → Nat) a + S128x8192.size a ≤ S128x8192.size a
  h_S128x8192 : 0 < S128x8192.numel
  shapeCasts_S128x8192_S128x8192 : S128x8192.ShapeCasts S128x8192
  iota_S1024x1_d0_w32 : S1024x1.Iotas .tc 32 [0]
  inb_S1x8192_S1x8192_0_0 : ∀ a, (![0, 0] : Fin 2 → Nat) a + S1x8192.size a ≤ S1x8192.size a
  h_S1x8192 : 0 < S1x8192.numel
  shapeCasts_S1x8192_S1x8192 : S1x8192.ShapeCasts S1x8192
  broadcasts_S1024x1_S1024x8192 : S1024x1.Broadcasts S1024x8192
  broadcasts_S1x8192_S1024x8192 : S1x8192.Broadcasts S1024x8192
  natLt_1_32 : 1 < 32
  inb_S128x1024_S128x1024_0_0 : ∀ a, (![0, 0] : Fin 2 → Nat) a + S128x1024.size a ≤ S128x1024.size a
  h_S128x1024 : 0 < S128x1024.numel
  shapeCasts_S128x1024_S128x1024 : S128x1024.ShapeCasts S128x1024
  packedbf16_S128x8192_S128x8192_0_0 : (Rect.unit (s := S128x8192) ![0, 0] S128x8192.size inb_S128x8192_S128x8192_0_0).PackedRows (EltTy.packing .bf16)
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S128x1024 : S1x1024.Broadcasts S128x1024
  transposes_S128x50176_S50176x128_1_0 : S128x50176.Transposes [1, 0] S50176x128
  slices_S256x128_S128x128_0_0 : S256x128.Slices ![0, 0] S128x128
  slices_S256x128_S128x128_128_0 : S256x128.Slices ![128, 0] S128x128
  shapeCasts_S128_S1x128 : S128.ShapeCasts S1x128
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1024x128 : S1x128.Broadcasts S1024x128
  slices_S50176x128_S50000x128_0_0 : S50176x128.Slices ![0, 0] S50000x128
  scatter_S50176_S800000x1_S800000_n_0_0_1_wf : ScatterDims.WF S50176 S800000x1 S800000 [] [0] [0] 1
  dot_S128x1024_S1024x8192_S128x8192_1_0_0_1_n_n_wf : DotDims.WF S128x1024 S1024x8192 S128x8192 [1] [0] [0] [1] [] []
  dot_S128x8192_S1024x8192_S128x1024_1_1_0_0_n_n_wf : DotDims.WF S128x8192 S1024x8192 S128x1024 [1] [1] [0] [0] [] []
  dot_S1024x128_S128x128_S1024x128_1_0_0_1_n_n_wf : DotDims.WF S1024x128 S128x128 S1024x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x8192.size a ≤ S1x802816.size a
  hwx0_0 : ∀ i : grid0.Coords, EltTy.bits .i32 = 32 ∨ (Rect.block (s := S1x802816) S1x8192.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x1024.size a ≤ S128x50176.size a
  hwx0_1 : ∀ i : grid0.Coords, EltTy.bits .bf16 = 32 ∨ (Rect.block (s := S128x50176) S128x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x8192.size a ≤ S128x802816.size a
  hwx0_2 : ∀ i : grid0.Coords, EltTy.bits .bf16 = 32 ∨ (Rect.block (s := S128x802816) S128x8192.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x8192.size a ≤ S1x802816.size a
  hwx1_0 : ∀ i : grid1.Coords, EltTy.bits .i32 = 32 ∨ (Rect.block (s := S1x802816) S1x8192.size (cc1_transform_0 i) (hinb1_0 i)).WholeWords (EltTy.packing .i32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S128x8192.size a ≤ S128x802816.size a
  hwx1_1 : ∀ i : grid1.Coords, EltTy.bits .bf16 = 32 ∨ (Rect.block (s := S128x802816) S128x8192.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x50176.size a
  hwx1_2 : ∀ i : grid1.Coords, EltTy.bits .f32 = 32 ∨ (Rect.block (s := S1x50176) S1x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S128x1024.size a ≤ S128x50176.size a
  hwx1_3 : ∀ i : grid1.Coords, EltTy.bits .f32 = 32 ∨ (Rect.block (s := S128x50176) S128x1024.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x128.size a ≤ S50176x128.size a
  hwx2_0 : ∀ i : grid2.Coords, EltTy.bits .f32 = 32 ∨ (Rect.block (s := S50176x128) S1024x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x128.size a ≤ S50176x128.size a
  hwx2_1 : ∀ i : grid2.Coords, EltTy.bits .f32 = 32 ∨ (Rect.block (s := S50176x128) S1024x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x128.size a ≤ S128x128.size a
  hwx2_5 : ∀ i : grid2.Coords, EltTy.bits .f32 = 32 ∨ (Rect.block (s := S128x128) S128x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x128.size a ≤ S1x128.size a
  hwx2_6 : ∀ i : grid2.Coords, EltTy.bits .f32 = 32 ∨ (Rect.block (s := S1x128) S1x128.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S1024x128.size a ≤ S50176x128.size a
  hwx2_7 : ∀ i : grid2.Coords, EltTy.bits .f32 = 32 ∨ (Rect.block (s := S50176x128) S1024x128.size (cc2_transform_7 i) (hinb2_7 i)).WholeWords (EltTy.packing .f32)

variable [Facts₀]

def scatter_S50176_S800000x1_S800000_n_0_0_1 : ScatterDims S50176 S800000x1 S800000 where
  updateWindowDims := []
  insertedWindowDims := [0]
  scatterDimsToOperandDims := [0]
  indexVectorDim := 1
  wf := scatter_S50176_S800000x1_S800000_n_0_0_1_wf
def dot_S128x1024_S1024x8192_S128x8192_1_0_0_1_n_n : DotDims S128x1024 S1024x8192 S128x8192 where
  lhsContracting := [1]
  rhsContracting := [0]
  lhsNonContracting := [0]
  rhsNonContracting := [1]
  lhsBatch := []
  rhsBatch := []
  wf := dot_S128x1024_S1024x8192_S128x8192_1_0_0_1_n_n_wf
def dot_S128x8192_S1024x8192_S128x1024_1_1_0_0_n_n : DotDims S128x8192 S1024x8192 S128x1024 where
  lhsContracting := [1]
  rhsContracting := [1]
  lhsNonContracting := [0]
  rhsNonContracting := [0]
  lhsBatch := []
  rhsBatch := []
  wf := dot_S128x8192_S1024x8192_S128x1024_1_1_0_0_n_n_wf
def dot_S1024x128_S128x128_S1024x128_1_0_0_1_n_n : DotDims S1024x128 S128x128 S1024x128 where
  lhsContracting := [1]
  rhsContracting := [0]
  lhsNonContracting := [0]
  rhsNonContracting := [1]
  lhsBatch := []
  rhsBatch := []
  wf := dot_S1024x128_S128x128_S1024x128_1_0_0_1_n_n_wf

abbrev win0_0 : Pipeline.Window sig grid0 :=
  Pipeline.Window.ofSpec (Memref.whole main_v9) S1x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S128x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v20) S128x8192.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_v10) S1x8192.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v20) S128x8192.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v19) S1x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v21) S128x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

abbrev win2_0 : Pipeline.Window sig grid2 :=
  Pipeline.Window.ofSpec (Memref.whole main_v0) S1024x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v22) S1024x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v23) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v24) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v25) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg4) S128x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v26) S1x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v27) S1024x128.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S256x128 : Shape := ⟨2, ![256, 128]⟩
abbrev S128 : Shape := ⟨1, ![128]⟩
abbrev S128x128 : Shape := ⟨2, ![128, 128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S50000x256 : Shape := ⟨2, ![50000, 256]⟩
abbrev S1x128 : Shape := ⟨2, ![1, 128]⟩

abbrev nBuf : Space → Nat
  | .hbm => 50
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S256x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S1x800000, .i32⟩
  | .hbm, ⟨7, _⟩ => ⟨S800000, .i32⟩
  | .hbm, ⟨8, _⟩ => ⟨S1x800000, .i32⟩
  | .hbm, ⟨9, _⟩ => ⟨S800000, .i32⟩
  | .hbm, ⟨10, _⟩ => ⟨S_, .i32⟩
  | .hbm, ⟨11, _⟩ => ⟨S800000, .i32⟩
  | .hbm, ⟨12, _⟩ => ⟨S800000, .i1⟩
  | .hbm, ⟨13, _⟩ => ⟨S_, .i32⟩
  | .hbm, ⟨14, _⟩ => ⟨S800000, .i32⟩
  | .hbm, ⟨15, _⟩ => ⟨S800000, .i32⟩
  | .hbm, ⟨16, _⟩ => ⟨S800000, .i32⟩
  | .hbm, ⟨17, _⟩ => ⟨S800000x1, .i32⟩
  | .hbm, ⟨18, _⟩ => ⟨S800000x128, .f32⟩
  | .hbm, ⟨19, _⟩ => ⟨S_, .f32⟩
  | .hbm, ⟨20, _⟩ => ⟨S50000x128, .f32⟩
  | .hbm, ⟨21, _⟩ => ⟨S800000x1, .i32⟩
  | .hbm, ⟨22, _⟩ => ⟨S50000x128, .f32⟩
  | .hbm, ⟨23, _⟩ => ⟨S_, .f32⟩
  | .hbm, ⟨24, _⟩ => ⟨S800000, .f32⟩
  | .hbm, ⟨25, _⟩ => ⟨S_, .f32⟩
  | .hbm, ⟨26, _⟩ => ⟨S50000, .f32⟩
  | .hbm, ⟨27, _⟩ => ⟨S800000x1, .i32⟩
  | .hbm, ⟨28, _⟩ => ⟨S50000, .f32⟩
  | .hbm, ⟨29, _⟩ => ⟨S_, .f32⟩
  | .hbm, ⟨30, _⟩ => ⟨S50000, .f32⟩
  | .hbm, ⟨31, _⟩ => ⟨S50000, .f32⟩
  | .hbm, ⟨32, _⟩ => ⟨S50000x1, .f32⟩
  | .hbm, ⟨33, _⟩ => ⟨S50000x128, .f32⟩
  | .hbm, ⟨34, _⟩ => ⟨S50000x128, .f32⟩
  | .hbm, ⟨35, _⟩ => ⟨S50000x256, .f32⟩
  | .hbm, ⟨36, _⟩ => ⟨S50000x128, .f32⟩
  | .hbm, ⟨37, _⟩ => ⟨S1x128, .f32⟩
  | .hbm, ⟨38, _⟩ => ⟨S50000x128, .f32⟩
  | .hbm, ⟨39, _⟩ => ⟨S50000x128, .f32⟩
  | .hbm, ⟨40, _⟩ => ⟨S_, .f32⟩
  | .hbm, ⟨41, _⟩ => ⟨S50000x128, .f32⟩
  | .hbm, ⟨42, _⟩ => ⟨S50000x128, .f32⟩
  | .hbm, ⟨43, _⟩ => ⟨S50000x128, .f32⟩
  | .hbm, ⟨44, _⟩ => ⟨S1x128, .f32⟩
  | .hbm, ⟨45, _⟩ => ⟨S50000x128, .f32⟩
  | .hbm, ⟨46, _⟩ => ⟨S50000x128, .f32⟩
  | .hbm, ⟨47, _⟩ => ⟨S_, .f32⟩
  | .hbm, ⟨48, _⟩ => ⟨S50000x128, .f32⟩
  | .hbm, ⟨49, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_call0_cst : Ref sig .tc := ⟨.hbm, 40, rfl⟩
abbrev main_call0_v0 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_call1_cst : Ref sig .tc := ⟨.hbm, 47, rfl⟩
abbrev main_call1_v0 : Ref sig .tc := ⟨.hbm, 48, rfl⟩
abbrev main_v33 : Ref sig .tc := ⟨.hbm, 49, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  concatenates_S50000x128_S50000x128_S50000x256_d1 : Shape.Concatenates [S50000x128, S50000x128] S50000x256 1
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S50000x256_S256x128_S50000x128_1_0_0_1_n_n_wf : DotDims.WF S50000x256 S256x128 S50000x128 [1] [0] [0] [1] [] []
  dot_S50000x128_S128x128_S50000x128_1_0_0_1_n_n_wf : DotDims.WF S50000x128 S128x128 S50000x128 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.KI.RunCond.lean ====
/-
  The whole program as a list of segments — host stretches and the three calls — run in order: given each call's
  segment record, every execution terminates, the result buffer holds what the last host stretch computes from what
  the calls left, and the arguments are unchanged.
-/
import proofs.«427921_j16320875725295_2_alg».proof.Proof.Gen.KernelIdeal.Regions

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)
open Cert.KernelIdeal Cert.KernelIdeal.Gen

variable {F : FTy → Type} [FloatOps F]

variable (m : (ℓ : Loc nD τ sig) → Buf (Elt F) ℓ)

set_option backward.isDefEq.respectTransparency.types false in
/-- The run of the whole program, given each call's segment record: every weakly fair execution terminates, the result
    buffer ends at what the last host stretch computes from what the calls left, and every argument ends as launched. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 3) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 4 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE3 : ∀ c : Dev nD, E 3 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V7 m c) ∗ E 0 c) ⊢ R0.pre c)
    (hpost0 : ∀ c : Dev nD, R0.post c ⊢ iprop(StableHlo.held (c : Thread nD τ) (Pipeline.ucRefs τ sig) (V8 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V8 m outs c) ∗ E 1 c) ⊢ R1.pre c)
    (hpost1 : ∀ c : Dev nD, R1.post c ⊢ iprop(StableHlo.held (c : Thread nD τ) (Pipeline.ucRefs τ sig) (V9 m outs c) ∗ E 2 c))
    (R2 : RegionSeg (pcfgs (F := F)) adm pdats ι defs₀ 𝒱₀ L lv 2)
    (hpre2 : ∀ c : Dev nD, iprop(StableHlo.held (c : Thread nD τ) (Pipeline.ucRefs τ sig) (V10 m outs c) ∗ E 2 c) ⊢ R2.pre c)
    (hpost2 : ∀ c : Dev nD, R2.post c ⊢ iprop(StableHlo.held (c : Thread nD τ) (Pipeline.ucRefs τ sig) (V11 m outs c) ∗ E 3 c)) :
    θ_run defs (onTc (τ := τ) (main (F := F))) ⟨m, fun _ => 0, ρ⟩ (fun r => ∀ c : Dev nD,
      r.2.mem ((c.tc : Thread nD τ).loc main_v28) = V12 m outs c main_v28
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) := by
  refine Pipeline.θ_run_regions_kit_dev (pcfgs (F := F)) adm pdats ι cellOf_inj EP defs₀ 𝒱₀ L lv m ρ main
    (segs m outs 𝒱₀ L lv E ι pdats R0 R1 R2)
    (fun c Q => by
      rewrite [main_chain c, Seg.run_eq_chain,
        show (segs m outs 𝒱₀ L lv E ι pdats R0 R1 R2 c).map Seg.prog = [
          StableHlo.seq hostOps0,
          StableHlo.seq hostOps0_1,
          StableHlo.seq hostOps0_2,
          StableHlo.seq hostOps0_3,
          StableHlo.seq hostOps0_4,
          StableHlo.seq hostOps0_5,
          StableHlo.seq hostOps0_6,
          Prog.lift (.customCall (Pipeline.entry 0) ()),
          Prog.lift (.customCall (Pipeline.entry 1) ()),
          StableHlo.seq hostOps2,
          Prog.lift (.customCall (Pipeline.entry 2) ()),
          StableHlo.seq hostOps3 ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V12 m outs c))
    (hch := fun c => ⟨.rfl, .rfl, .rfl, .rfl, .rfl, .rfl, .rfl, hpre0 c, (hpost0 c).trans (hpre1 c), hpost1 c, hpre2 c, hpost2 c, sep_mono .rfl (hE3 c)⟩)
    (hinit := ?_) (QY := fun c s => s.mem ((c.tc : Thread nD τ).loc main_v28) = V12 m outs c main_v28 ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5))
    (hfin := fun c s' => ?_) (hQ := fun _ h => h)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: each argument's buffer read off the last valuation
    unfold StableHlo.held
    iintro ⟨Hh, HSI⟩
    ihave Hr := (pointsTo_read_all (Pipeline.ucRefs τ sig) (fun b => ((c : Thread nD τ).1, b)) (V12 m outs c) s') $$ [Hh HSI]
    · isplitl [Hh] <;> iassumption
    icases Hr with ⟨%h, HSI⟩
    imodintro
    isplitr
    · ipureintro
      exact ⟨h (Proc.devRef .tc main_v28) (Finset.mem_filter.mpr ⟨StableHlo.devRef_mem_tcRefs main_v28, by decide⟩),
        (h (Proc.devRef .tc main_arg0) (Finset.mem_filter.mpr ⟨StableHlo.devRef_mem_tcRefs main_arg0, by decide⟩)).trans (V12_main_arg0 m outs c),
        (h (Proc.devRef .tc main_arg1) (Finset.mem_filter.mpr ⟨StableHlo.devRef_mem_tcRefs main_arg1, by decide⟩)).trans (V12_main_arg1 m outs c),
        (h (Proc.devRef .tc main_arg2) (Finset.mem_filter.mpr ⟨StableHlo.devRef_mem_tcRefs main_arg2, by decide⟩)).trans (V12_main_arg2 m outs c),
        (h (Proc.devRef .tc main_arg3) (Finset.mem_filter.mpr ⟨StableHlo.devRef_mem_tcRefs main_arg3, by decide⟩)).trans (V12_main_arg3 m outs c),
        (h (Proc.devRef .tc main_arg4) (Finset.mem_filter.mpr ⟨StableHlo.devRef_mem_tcRefs main_arg4, by decide⟩)).trans (V12_main_arg4 m outs c),
        (h (Proc.devRef .tc main_arg5) (Finset.mem_filter.mpr ⟨StableHlo.devRef_mem_tcRefs main_arg5, by decide⟩)).trans (V12_main_arg5 m outs c)⟩
    · iexact HSI

end Cert.KernelIdeal.Hand

end
-- ==== Proof.KI.Data.lean ====
/-
  The contents of the three kernel calls' buffers, as pure functions of what the calls find in memory.

  Call 0 (the gather): for each block of 8192 edges, an accumulator of shape 128 x 8192 is reset at the first of the 49
  node blocks and then, node block by node block, receives the product of the transposed feature block with the
  indicator matrix "node id = source id"; after the last node block it is written out.
  Call 1 (the scatter): for each block of 1024 nodes, an accumulator of shape 128 x 1024 is reset at the first of the 98
  edge blocks and receives, edge block by edge block, the gathered block contracted with the indicator
  "node id = destination id"; after the last edge block it is scaled by the reciprocal degrees and written out.
  Call 2 (the two dense layers): one block of 1024 rows at each point, no state kept.
-/
import proofs.«427921_j16320875725295_2_alg».proof.Proof.Gen.KernelIdeal.Launch
import proofs.«427921_j16320875725295_2_alg».proof.Proof.Gen.KernelIdeal.Skeleton
import proofs.«427921_j16320875725295_2_alg».proof.Proof.Gen.KernelIdeal.Points
import Idealize.ShloMosaic.Lib.Pipeline.FrameBody

noncomputable section

namespace Cert.KernelIdeal.Hand

open Idealize.ShloMosaic Idealize.ShloMosaic.TcCoe
open Idealize.SL Idealize.SL.Sem
open Cert.KernelIdeal Cert.KernelIdeal.Gen

variable {F : FTy → Type} [FloatOps F]

/-- What a core's buffers hold when a call is entered. -/
abbrev Entry (F : FTy → Type) [FloatOps F] : Type :=
  (c : Dev nD) → (b : Ref sig .tc) → Buf (Elt F) ((c : Thread nD τ).loc b)

variable (V : Entry F)

/-! ## Call 0 -/

/-- Window `w`'s block at point `t` of call 0, read off its array as the call finds it. -/
def iblk0 (c : Dev nD) (w : Fin cfg0.W) (t : Fin cfg0.N) :
    ((cfg0.win w).xblock (cfg0.grid.coords t)).Idx → Elt F (cfg0.win w).elt :=
  ((cfg0.win w).blk t).view.read (Elt F) (V c (Pipeline.arrRef spec0 w))

/-- The accumulator of call 0 after point `n`: reset where the node block is the first, then the product added. -/
def acc0 (c : Dev nD) : (n : ℕ) → n < cfg0.N → Vec F S128x8192 .f32
  | 0, hn => k0_pay2 (grid0.coords ⟨0, hn⟩) (iblk0 V c 0 ⟨0, hn⟩) (iblk0 V c 1 ⟨0, hn⟩) (k0_pay1 (F := F))
  | n + 1, hn => k0_pay2 (grid0.coords ⟨n + 1, hn⟩) (iblk0 V c 0 ⟨n + 1, hn⟩) (iblk0 V c 1 ⟨n + 1, hn⟩)
      (if (n + 1) % 49 = 0 then k0_pay1 (F := F) else acc0 c n (Nat.lt_of_succ_lt hn))

/-- What call 0 stores into its output block at a point (consulted only where the node block is the last). -/
def out0 (c : Dev nD) (t : Fin cfg0.N) : Vec F S128x8192 .bf16 := k0_pay3 (acc0 V c t.val t.isLt)

/-! ## Call 1 -/

def iblk1 (c : Dev nD) (w : Fin cfg1.W) (t : Fin cfg1.N) :
    ((cfg1.win w).xblock (cfg1.grid.coords t)).Idx → Elt F (cfg1.win w).elt :=
  ((cfg1.win w).blk t).view.read (Elt F) (V c (Pipeline.arrRef spec1 w))

/-- The accumulator of call 1 after point `n`: reset where the edge block is the first, then the product added. -/
def acc1 (c : Dev nD) : (n : ℕ) → n < cfg1.N → Vec F S128x1024 .f32
  | 0, hn => k1_pay2 (grid1.coords ⟨0, hn⟩) (iblk1 V c 0 ⟨0, hn⟩) (iblk1 V c 1 ⟨0, hn⟩) (k1_pay1 (F := F))
  | n + 1, hn => k1_pay2 (grid1.coords ⟨n + 1, hn⟩) (iblk1 V c 0 ⟨n + 1, hn⟩) (iblk1 V c 1 ⟨n + 1, hn⟩)
      (if (n + 1) % 98 = 0 then k1_pay1 (F := F) else acc1 c n (Nat.lt_of_succ_lt hn))

/-- What call 1 stores into its output block at a point (consulted only where the edge block is the last). -/
def out1 (c : Dev nD) (t : Fin cfg1.N) : Vec F S128x1024 .f32 := k1_pay3 (acc1 V c t.val t.isLt) (iblk1 V c 2 t)

/-! ## Call 2 -/

def iblk2 (c : Dev nD) (w : Fin cfg2.W) (t : Fin cfg2.N) :
    ((cfg2.win w).xblock (cfg2.grid.coords t)).Idx → Elt F (cfg2.win w).elt :=
  ((cfg2.win w).blk t).view.read (Elt F) (V c (Pipeline.arrRef spec2 w))

/-- What call 2 stores into its output block at a point. -/
def out2 (c : Dev nD) (t : Fin cfg2.N) : Vec F S1024x128 .f32 :=
  k2_pay1 (iblk2 V c 0 t) (iblk2 V c 1 t) (iblk2 V c 2 t) (iblk2 V c 3 t) (iblk2 V c 4 t) (iblk2 V c 5 t) (iblk2 V c 6 t)

end Cert.KernelIdeal.Hand

end
-- ==== Proof.KI.Body0.lean ====
/-
  The body of call 0 (the gather) on whole memrefs, in its three control cases: at the first node block the accumulator is
  reset and then receives the product; at a middle node block it receives the product; at the last node block it receives
  the product and is then written out, rounded to bf16, into the output block.
-/
import proofs.«427921_j16320875725295_2_alg».proof.Proof.KI.Data
import Idealize.ShloMosaic.Lib.Pipeline.FrameBody
import Idealize.ShloMosaic.Lib.Pipeline.Frame
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The two conditions on the node block -/

/-- The node block is the first (the accumulator is reset). -/
abbrev first0 (i : grid0.Coords) : Prop :=
  (Scalar.cmpi .ne (Scalar.extui (Scalar.cmpi .eq (BitVec.ofNat 32 (i 1).val) 0#32)) 0#32) = 1#1
/-- The node block is the last (the accumulator is written out). -/
abbrev last0 (i : grid0.Coords) : Prop := k0_cond2 i = 1#1

/-- Over the grid: the first node block is at the points ≡ 0 (mod 49), -/
theorem first0_iff : ∀ t : Fin cfg0.N, first0 (grid0.coords t) ↔ t.val % 49 = 0 :=
  (by decide +kernel : ∀ t : Fin grid0.N, first0 (grid0.coords t) ↔ t.val % 49 = 0)
/-- the last at the points ≡ 48 (mod 49). -/
theorem last0_iff : ∀ t : Fin cfg0.N, last0 (grid0.coords t) ↔ t.val % 49 = 48 :=
  (by decide +kernel : ∀ t : Fin grid0.N, last0 (grid0.coords t) ↔ t.val % 49 = 48)

/-- The zero offsets of a whole-block access, as a function. -/
theorem off2_zero : (![0, 0] : Fin 2 → Nat) = fun _ => 0 := by
  funext a; match a with | ⟨0, _⟩ => rfl | ⟨1, _⟩ => rfl

set_option maxHeartbeats 1000000 in
/-- A middle node block: the accumulator receives the product; the output block is not touched. -/
theorem body0_mid (c : Dev nD) (E : Set ℕ) (i : grid0.Coords)
    (arg2 : Memref sig .tc .vmem S1x8192 .i32) (harg2 : arg2.IsWhole)
    (arg3 : Memref sig .tc .vmem S128x1024 .bf16) (harg3 : arg3.IsWhole)
    (arg4 : Memref sig .tc .vmem S128x8192 .bf16) (harg4 : arg4.IsWhole)
    (arg5 : Memref sig .tc .vmem S128x8192 .f32) (harg5 : arg5.IsWhole)
    (h1 : ¬first0 i) (h2 : ¬last0 i)
    (x0 : Vec F S1x8192 .i32) (x1 : Vec F S128x1024 .bf16) (xo : Vec F S128x8192 .bf16) (a : Vec F S128x8192 .f32)
    (K : PUnit → sProp 𝕄) :
    iprop(owns (c : Thread nD τ) arg2 fullShare x0 ∗ owns (c : Thread nD τ) arg3 fullShare x1
        ∗ owns (c : Thread nD τ) arg4 fullShare xo ∗ owns (c : Thread nD τ) arg5 fullShare a
        ∗ (iprop(owns (c : Thread nD τ) arg2 fullShare x0 ∗ owns (c : Thread nD τ) arg3 fullShare x1
            ∗ owns (c : Thread nD τ) arg4 fullShare xo ∗ owns (c : Thread nD τ) arg5 fullShare (k0_pay2 i x0 x1 a)) -∗ K ⟨⟩))
      ⊢ wp frame (wpE (defs₀ (F := F)) Variants.none c none) E
          (cc0_gather_kernel i arg2 harg2 arg3 harg3 arg4 harg4 arg5 harg5) K := by
  simp only [cc0_gather_kernel_eq_skeleton]; unfold cc0_gather_kernel_skel
  unfold owns
  iintro ⟨⟨%f0, %hf0, H0⟩, ⟨%f1, %hf1, H1⟩, ⟨%f2, %hf2, H2⟩, ⟨%f3, %hf3, H3⟩, Hk⟩
  subst hf0; subst hf1; subst hf2; subst hf3
  sl_exec (disch := first | exact h1 | exact h2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  sl_unfold_words
  rw [View.read_writes_eq_canon _ _ _ (fun y => ⟨_, List.mem_cons_self, View.mem_set_unit_zero off2_zero inb_S128x8192_S128x8192_0_0 y⟩),
    View.canon_cons_unit_zero off2_zero]
  simp only [View.readAt_eq_ld, View.ld_unit_zero (S := S1x8192) off2_zero, View.ld_unit_zero (S := S128x1024) off2_zero,
    View.ld_unit_zero (S := S128x8192) off2_zero]

set_option maxHeartbeats 1000000 in
/-- The first node block: the accumulator, whatever it held, is reset and then receives the product; the output block is
    not touched. -/
theorem body0_first (c : Dev nD) (E : Set ℕ) (i : grid0.Coords)
    (arg2 : Memref sig .tc .vmem S1x8192 .i32) (harg2 : arg2.IsWhole)
    (arg3 : Memref sig .tc .vmem S128x1024 .bf16) (harg3 : arg3.IsWhole)
    (arg4 : Memref sig .tc .vmem S128x8192 .bf16) (harg4 : arg4.IsWhole)
    (arg5 : Memref sig .tc .vmem S128x8192 .f32) (harg5 : arg5.IsWhole)
    (h1 : first0 i) (h2 : ¬last0 i)
    (x0 : Vec F S1x8192 .i32) (x1 : Vec F S128x1024 .bf16) (xo : Vec F S128x8192 .bf16)
    (K : PUnit → sProp 𝕄) :
    iprop(owns (c : Thread nD τ) arg2 fullShare x0 ∗ owns (c : Thread nD τ) arg3 fullShare x1
        ∗ owns (c : Thread nD τ) arg4 fullShare xo ∗ (∃ d, owns (c : Thread nD τ) arg5 fullShare d)
        ∗ (iprop(owns (c : Thread nD τ) arg2 fullShare x0 ∗ owns (c : Thread nD τ) arg3 fullShare x1
            ∗ owns (c : Thread nD τ) arg4 fullShare xo
            ∗ owns (c : Thread nD τ) arg5 fullShare (k0_pay2 i x0 x1 (k0_pay1 (F := F)))) -∗ K ⟨⟩))
      ⊢ wp frame (wpE (defs₀ (F := F)) Variants.none c none) E
          (cc0_gather_kernel i arg2 harg2 arg3 harg3 arg4 harg4 arg5 harg5) K := by
  simp only [cc0_gather_kernel_eq_skeleton]; unfold cc0_gather_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec (disch := first | exact h1 | exact h2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  sl_unfold_words
  rw [View.read_writes_eq_canon _ _ _ (fun y => ⟨_, List.mem_cons_self, View.mem_set_unit_zero off2_zero inb_S128x8192_S128x8192_0_0 y⟩),
    View.canon_cons_unit_zero off2_zero]
  simp only [View.readAt_eq_ld, View.ld_unit_zero (S := S1x8192) off2_zero, View.ld_unit_zero (S := S128x1024) off2_zero,
    View.ld_unit_zero (S := S128x8192) off2_zero, View.readCov_unit_zero (S := S128x8192) _ off2_zero]

set_option maxHeartbeats 1000000 in
/-- The last node block: the accumulator receives the product and is then written out, rounded, into the output block,
    whatever that held. -/
theorem body0_last (c : Dev nD) (E : Set ℕ) (i : grid0.Coords)
    (arg2 : Memref sig .tc .vmem S1x8192 .i32) (harg2 : arg2.IsWhole)
    (arg3 : Memref sig .tc .vmem S128x1024 .bf16) (harg3 : arg3.IsWhole)
    (arg4 : Memref sig .tc .vmem S128x8192 .bf16) (harg4 : arg4.IsWhole)
    (arg5 : Memref sig .tc .vmem S128x8192 .f32) (harg5 : arg5.IsWhole)
    (h1 : ¬first0 i) (h2 : last0 i)
    (x0 : Vec F S1x8192 .i32) (x1 : Vec F S128x1024 .bf16) (a : Vec F S128x8192 .f32)
    (K : PUnit → sProp 𝕄) :
    iprop(owns (c : Thread nD τ) arg2 fullShare x0 ∗ owns (c : Thread nD τ) arg3 fullShare x1
        ∗ (∃ d, owns (c : Thread nD τ) arg4 fullShare d) ∗ owns (c : Thread nD τ) arg5 fullShare a
        ∗ (iprop(owns (c : Thread nD τ) arg2 fullShare x0 ∗ owns (c : Thread nD τ) arg3 fullShare x1
            ∗ owns (c : Thread nD τ) arg4 fullShare (k0_pay3 (k0_pay2 i x0 x1 a))
            ∗ owns (c : Thread nD τ) arg5 fullShare (k0_pay2 i x0 x1 a)) -∗ K ⟨⟩))
      ⊢ wp frame (wpE (defs₀ (F := F)) Variants.none c none) E
          (cc0_gather_kernel i arg2 harg2 arg3 harg3 arg4 harg4 arg5 harg5) K := by
  simp only [cc0_gather_kernel_eq_skeleton]; unfold cc0_gather_kernel_skel
  unfold owns
  iintro ⟨⟨%f0, %hf0, H0⟩, ⟨%f1, %hf1, H1⟩, ⟨%d2, %f2, -, H2⟩, ⟨%f3, %hf3, H3⟩, Hk⟩
  subst hf0; subst hf1; subst hf3
  sl_exec (disch := first | exact h1 | exact h2)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    sl_unfold_words
    rw [View.read_writes_eq_canon _ _ _ (fun y => ⟨_, List.mem_cons_self, View.mem_set_unit_zero off2_zero inb_S128x8192_S128x8192_0_0 y⟩),
      View.canon_cons_unit_zero off2_zero]
    simp only [View.readAt_eq_ld, View.ld_unit_zero (S := S1x8192) off2_zero, View.ld_unit_zero (S := S128x1024) off2_zero,
      View.ld_unit_zero (S := S128x8192) off2_zero, View.readCov_unit_zero (S := S128x8192) _ off2_zero]
  iexists _; isplitr
  swap; · iexact H3
  ipureintro
  sl_unfold_words
  rw [View.read_writes_eq_canon _ _ _ (fun y => ⟨_, List.mem_cons_self, View.mem_set_unit_zero off2_zero inb_S128x8192_S128x8192_0_0 y⟩),
    View.canon_cons_unit_zero off2_zero]
  simp only [View.readAt_eq_ld, View.ld_unit_zero (S := S1x8192) off2_zero, View.ld_unit_zero (S := S128x1024) off2_zero,
    View.ld_unit_zero (S := S128x8192) off2_zero]

end Cert.KernelIdeal.Hand

end
-- ==== Proof.KI.Dat0.lean ====
/-
  Call 0's proof data: what its buffers hold after each grid point, the invariant that carries the accumulator from one
  point to the next, and the body's obligation at every point.
-/
import proofs.«427921_j16320875725295_2_alg».proof.Proof.KI.Data
import proofs.«427921_j16320875725295_2_alg».proof.Proof.KI.Body0
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : Entry F)

/-- The accumulator's memref. -/
abbrev scM0 : Memref sig .tc .vmem S128x8192 .f32 := Memref.whole cc0_scratch0

/-- The scoped buffers call 0 never touches. -/
abbrev others0 (c : Dev nD) : sProp 𝕄 :=
  Pipeline.scopedRestBut (Ix := Unit) (Name := ℕ) (U := UR sig nD τ) (Lvl := ℕ) (Val := Elt F) spec0 c [cc0_scratch0]

/-- The invariant before point `n`: at the start the class's (every scoped buffer at anything); afterwards the accumulator
    at what the point before left, the other scoped buffers at anything, the generator register at some state. -/
def Phi0 (c : Dev nD) : (n : ℕ) → n ≤ cfg0.N → sProp 𝕄
  | 0, _ => Pipeline.ΦA spec0 c
  | n + 1, hn => iprop(owns (c : Thread nD τ) scM0 fullShare (acc0 V c n hn) ∗ others0 (F := F) c ∗ (∃ r, prngReg c r))

/-- Call 0's proof data on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0 V c t
  Φ t := Phi0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0 V c t := by dsimp only [dat0]

/-! ## The accumulator at a point -/

/-- At a first node block the accumulator is the product added to the reset value; -/
theorem acc0_first (c : Dev nD) (t : Fin cfg0.N) (h : t.val % 49 = 0) :
    acc0 V c t.val t.isLt = k0_pay2 (grid0.coords t) (iblk0 V c 0 t) (iblk0 V c 1 t) (k0_pay1 (F := F)) := by
  obtain ⟨n, hn⟩ := t
  cases n with
  | zero => rfl
  | succ n => dsimp only at h ⊢; rw [acc0, if_pos h]

/-- elsewhere the product added to what the point before left. -/
theorem acc0_next (c : Dev nD) (t : Fin cfg0.N) (h : ¬t.val % 49 = 0) :
    acc0 V c t.val t.isLt = k0_pay2 (grid0.coords t) (iblk0 V c 0 t) (iblk0 V c 1 t)
      (acc0 V c (t.val - 1) (Nat.lt_of_le_of_lt (Nat.sub_le _ _) t.isLt)) := by
  obtain ⟨n, hn⟩ := t
  cases n with
  | zero => exact absurd (Nat.zero_mod _) h
  | succ n => dsimp only at h ⊢; rw [acc0, if_neg h]; rfl

/-! ## The invariant, point by point -/

theorem Phi0_zero (c : Dev nD) (n : ℕ) (h : n ≤ cfg0.N) (hz : n = 0) : Phi0 V c n h = Pipeline.ΦA spec0 c := by
  subst hz; rfl

/-- After point `n`: the accumulator at that point's contents. -/
theorem Phi0_succ (c : Dev nD) (n : ℕ) (hn : n < cfg0.N) :
    Phi0 V c (n + 1) hn
      = iprop(owns (c : Thread nD τ) scM0 fullShare (acc0 V c n hn) ∗ others0 (F := F) c ∗ (∃ r, prngReg c r)) := rfl

/-- Before a point that is not the first: the accumulator at what the point before left. -/
theorem Phi0_pos (c : Dev nD) (n : ℕ) (h : n ≤ cfg0.N) (hz : n ≠ 0) :
    Phi0 V c n h
      = iprop(owns (c : Thread nD τ) scM0 fullShare (acc0 V c (n - 1) (by omega)) ∗ others0 (F := F) c ∗ (∃ r, prngReg c r)) := by
  cases n with
  | zero => exact absurd rfl hz
  | succ n => rfl

theorem Phi0_castSucc (c : Dev nD) (t : Fin cfg0.N) :
    (dat0 V c).Φ t.castSucc = Phi0 V c t.val (Nat.le_of_lt t.isLt) := by
  dsimp only [dat0]; simp only [Fin.coe_castSucc]

/-- The class's invariant with the accumulator's buffer split off the other scoped buffers. -/
theorem PhiA0_eq (c : Dev nD) :
    (Pipeline.ΦA spec0 c : sProp 𝕄)
      = iprop(((∃ d, owns (c : Thread nD τ) scM0 fullShare d) ∗ others0 (F := F) c) ∗ (∃ r, prngReg c r)) := by
  unfold Pipeline.ΦA
  rw [Pipeline.scopedRest_split_of_list spec0 c [cc0_scratch0] (by decide) (by decide)]
  simp only [bigSepL_singleton, scM0, owns_whole]; try rfl

/-! ## What the windows' buffers hold when the body is entered -/

/-- Each input's buffer holds its block at every point, fetched there or not. -/
theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)

theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)

/-! ## Where the output window is idle -/

/-- Off the last node block the body stores nothing into the output block, -/
theorem idle0_2 (t : Fin cfg0.N) (h : ¬last0 (grid0.coords t)) : cfg0.idle 2 (grid0.coords t) = true := by
  show (!(k0_cond2 (grid0.coords t) == 1#1)) = true
  simpa using h

/-- and the pipeline does not write it back; -/
theorem noFlush0_2 (t : Fin cfg0.N) (h : ¬t.val % 49 = 48) : (cfg0.win 2).flush t = false :=
  Bool.eq_false_iff.mpr fun hf => h ((flush0_2 t).mp hf)

/-- at the last node block it is live. -/
theorem live0_2 (t : Fin cfg0.N) (h : last0 (grid0.coords t)) : cfg0.idle 2 (grid0.coords t) = false := by
  show (!(k0_cond2 (grid0.coords t) == 1#1)) = false
  rw [h]; rfl

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4000000 in
/-- The body at any point. The inputs' buffers hold their blocks; the residue of the point modulo 49 says which of the
    three cases it is in; the invariant hands the body the accumulator at what the point before left (at anything at the
    very first point, and the reset does not read it at a first node block) and takes it back at this point's contents;
    the output block is handed back as found except at a last node block, where it receives the rounded accumulator. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = Phi0 V c (t.val + 1) t.isLt from rfl, Phi0_succ]
  rw [show (dat0 V c).leavesExact 0 t = owns (c : Thread nD τ) (st0_0 t) fullShare ((dat0 V c).after 0 t) from by
      unfold Dat.leavesExact; rw [show cfg0.idle 0 (grid0.coords t) = false from rfl], after0_0]
  rw [show (dat0 V c).leavesExact 1 t = owns (c : Thread nD τ) (st0_1 t) fullShare ((dat0 V c).after 1 t) from by
      unfold Dat.leavesExact; rw [show cfg0.idle 1 (grid0.coords t) = false from rfl], after0_1]
  by_cases h1 : t.val % 49 = 0
  · have h2 : ¬t.val % 49 = 48 := by omega
    have hl : ¬last0 (grid0.coords t) := fun h => h2 ((last0_iff t).mp h)
    rw [Dat.leavesExact_idle (dat0 V c) 2 t (idle0_2 t hl) (noFlush0_2 t h2)]
    rw [acc0_first V c t h1]
    by_cases hz : t.val = 0
    · rw [Phi0_castSucc V c t, Phi0_zero V c _ _ hz, PhiA0_eq]
      iintro ⟨⟨⟨HS, Hr⟩, Hg⟩, Ho, ⟨%d0, H0⟩, ⟨%d1, H1⟩, ⟨%d2, H2⟩⟩
      iapply (body0_first c Set.univ (grid0.coords t) _ _ _ _ _ _ _ _ ((first0_iff t).mpr h1) hl
        (iblk0 V c 0 t) (iblk0 V c 1 t) _ _)
      isplitl [H0]; · iexact H0
      isplitl [H1]; · iexact H1
      isplitl [H2]; · iexact H2
      isplitl [HS]; · iexact HS
      iintro ⟨H0, H1, H2, HS⟩
      isplitl [HS Hr Hg]
      · isplitl [HS]; · iexact HS
        isplitl [Hr]; · iexact Hr
        iexact Hg
      isplitl [Ho]; · iexact Ho
      isplitl [H0]; · iexact H0
      isplitl [H1]; · iexact H1
      iexists _; iexact H2
    · rw [Phi0_castSucc V c t, Phi0_pos V c _ _ hz]
      iintro ⟨⟨HS, Hr, Hg⟩, Ho, ⟨%d0, H0⟩, ⟨%d1, H1⟩, ⟨%d2, H2⟩⟩
      iapply (body0_first c Set.univ (grid0.coords t) _ _ _ _ _ _ _ _ ((first0_iff t).mpr h1) hl
        (iblk0 V c 0 t) (iblk0 V c 1 t) _ _)
      isplitl [H0]; · iexact H0
      isplitl [H1]; · iexact H1
      isplitl [H2]; · iexact H2
      isplitl [HS]; · iexists _; iexact HS
      iintro ⟨H0, H1, H2, HS⟩
      isplitl [HS Hr Hg]
      · isplitl [HS]; · iexact HS
        isplitl [Hr]; · iexact Hr
        iexact Hg
      isplitl [Ho]; · iexact Ho
      isplitl [H0]; · iexact H0
      isplitl [H1]; · iexact H1
      iexists _; iexact H2
  · have hf : ¬first0 (grid0.coords t) := fun h => h1 ((first0_iff t).mp h)
    have hz : t.val ≠ 0 := fun h => h1 (by rw [h])
    rw [acc0_next V c t h1]
    rw [Phi0_castSucc V c t, Phi0_pos V c _ _ hz]
    by_cases h2 : t.val % 49 = 48
    · have hl : last0 (grid0.coords t) := (last0_iff t).mpr h2
      rw [show (dat0 V c).leavesExact 2 t = owns (c : Thread nD τ) (st0_2 t) fullShare ((dat0 V c).after 2 t) from by
          unfold Dat.leavesExact; rw [live0_2 t hl], after0_2]
      unfold out0
      rw [acc0_next V c t h1]
      iintro ⟨⟨HS, Hr, Hg⟩, Ho, ⟨%d0, H0⟩, ⟨%d1, H1⟩, ⟨%d2, H2⟩⟩
      iapply (body0_last c Set.univ (grid0.coords t) _ _ _ _ _ _ _ _ hf hl
        (iblk0 V c 0 t) (iblk0 V c 1 t) _ _)
      isplitl [H0]; · iexact H0
      isplitl [H1]; · iexact H1
      isplitl [H2]; · iexists _; iexact H2
      isplitl [HS]; · iexact HS
      iintro ⟨H0, H1, H2, HS⟩
      isplitl [HS Hr Hg]
      · isplitl [HS]; · iexact HS
        isplitl [Hr]; · iexact Hr
        iexact Hg
      isplitl [Ho]; · iexact Ho
      isplitl [H0]; · iexact H0
      isplitl [H1]; · iexact H1
      iexact H2
    · have hl : ¬last0 (grid0.coords t) := fun h => h2 ((last0_iff t).mp h)
      rw [Dat.leavesExact_idle (dat0 V c) 2 t (idle0_2 t hl) (noFlush0_2 t h2)]
      iintro ⟨⟨HS, Hr, Hg⟩, Ho, ⟨%d0, H0⟩, ⟨%d1, H1⟩, ⟨%d2, H2⟩⟩
      iapply (body0_mid c Set.univ (grid0.coords t) _ _ _ _ _ _ _ _ hf hl
        (iblk0 V c 0 t) (iblk0 V c 1 t) _ _ _)
      isplitl [H0]; · iexact H0
      isplitl [H1]; · iexact H1
      isplitl [H2]; · iexact H2
      isplitl [HS]; · iexact HS
      iintro ⟨H0, H1, H2, HS⟩
      isplitl [HS Hr Hg]
      · isplitl [HS]; · iexact HS
        isplitl [Hr]; · iexact Hr
        iexact Hg
      isplitl [Ho]; · iexact Ho
      isplitl [H0]; · iexact H0
      isplitl [H1]; · iexact H1
      iexists _; iexact H2

/-- The body's obligation at every point of call 0. -/
theorem body_obligation0 (c : Dev nD) :
    BodyObligation (dat0 (F := F) V c) (defs₀ (F := F)) Variants.none () Set.univ := fun t => by
  rw [bigSep_W0, bigSep_W0]
  exact sound_body0 V c t

/-- What the launch hands the call is the invariant before the first point. -/
theorem hin0 (c : Dev nD) : Pipeline.ΦA spec0 c ⊢ (dat0 V c).Φ 0 := by
  rw [show (dat0 V c).Φ 0 = Phi0 V c 0 (Nat.zero_le _) from rfl, Phi0_zero V c 0 _ rfl]
  try exact Idealize.SL.BI.Entails.refl _

/-- After any point but the first the invariant gives the class's invariant back: what the accumulator holds is forgotten. -/
theorem Phi0_out (c : Dev nD) (t : Fin (cfg0.N + 1)) (ht : t.val ≠ 0) : (dat0 V c).Φ t ⊢ Pipeline.ΦA spec0 c := by
  rw [show (dat0 V c).Φ t = Phi0 V c t.val (Nat.le_of_lt_succ t.isLt) from rfl, Phi0_pos V c _ _ ht, PhiA0_eq]
  iintro ⟨HS, Hr, Hg⟩
  isplitl [HS Hr]
  · isplitl [HS]; · iexists _; iexact HS
    iexact Hr
  iexact Hg

/-- After the last point the invariant gives the class's invariant back. -/
theorem hout0 (c : Dev nD) : (dat0 V c).Φ (Fin.last cfg0.N) ⊢ Pipeline.ΦA spec0 c :=
  Phi0_out V c _ (by rw [Fin.val_last]; have : cfg0.N = 4802 := N_0; omega)

end Cert.KernelIdeal.Hand

end
-- ==== Proof.KI.Body1.lean ====
/-
  The body of call 1 (the scatter) as Hoare triples, one per control case: at the first edge block the accumulator is
  reset before the product is added; at the last edge block the accumulator, once updated, is scaled by the reciprocal
  degrees and stored to the output block; in between only the product is added.
-/
import proofs.«427921_j16320875725295_2_alg».proof.Proof.Gen.KernelIdeal.Launch
import proofs.«427921_j16320875725295_2_alg».proof.Proof.Gen.KernelIdeal.Skeleton
import proofs.«427921_j16320875725295_2_alg».proof.Proof.Gen.KernelIdeal.Points
import Idealize.ShloMosaic.Lib.Pipeline.FrameBody
import Idealize.ShloMosaic.Lib.Pipeline.Frame
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The body's first branch is taken where the edge block is the first. -/
abbrev first1 (i : grid1.Coords) : Prop :=
  Scalar.cmpi .ne (Scalar.extui (Scalar.cmpi .eq (BitVec.ofNat 32 (i 1).val) 0#32)) 0#32 = 1#1

/-- The body's second branch is taken where the edge block is the last. -/
abbrev last1 (i : grid1.Coords) : Prop := k1_cond2 i = 1#1

/-- Both offsets of a whole-block access are zero. -/
theorem zero_off1 : (![0, 0] : Fin 2 → ℕ) = fun _ => 0 := by
  funext a; fin_cases a <;> rfl

set_option maxHeartbeats 1000000 in
/-- The first edge block (and not the last): whatever the accumulator held, it ends at zero plus the product of the two
    input blocks; the reciprocal-degree block and the output block are not touched. -/
theorem kernel1_A (c : Dev nD) (E : Set ℕ) (i : grid1.Coords)
    (arg2 : Memref sig .tc .vmem S1x8192 .i32) (harg2 : arg2.IsWhole)
    (arg3 : Memref sig .tc .vmem S128x8192 .bf16) (harg3 : arg3.IsWhole)
    (arg4 : Memref sig .tc .vmem S1x1024 .f32) (harg4 : arg4.IsWhole)
    (arg5 : Memref sig .tc .vmem S128x1024 .f32) (harg5 : arg5.IsWhole)
    (arg6 : Memref sig .tc .vmem S128x1024 .f32) (harg6 : arg6.IsWhole)
    (h1 : first1 i) (h2 : ¬ last1 i)
    (x0 : Vec F S1x8192 .i32) (x1 : Vec F S128x8192 .bf16)
    (K : PUnit → sProp 𝕄) :
    iprop(owns (c : Thread nD τ) arg2 fullShare x0 ∗ owns (c : Thread nD τ) arg3 fullShare x1
        ∗ (∃ d, owns (c : Thread nD τ) arg6 fullShare d)
        ∗ (iprop(owns (c : Thread nD τ) arg2 fullShare x0 ∗ owns (c : Thread nD τ) arg3 fullShare x1
            ∗ owns (c : Thread nD τ) arg6 fullShare (k1_pay2 i x0 x1 (k1_pay1 (F := F)))) -∗ K ⟨⟩))
      ⊢ wp frame (wpE (defs₀ (F := F)) Variants.none c none) E
          (cc1_scatter_kernel i arg2 harg2 arg3 harg3 arg4 harg4 arg5 harg5 arg6 harg6) K := by
  simp only [cc1_scatter_kernel_eq_skeleton]; unfold cc1_scatter_kernel_skel
  unfold owns
  iintro ⟨⟨%f0, %hf0, H0⟩, ⟨%f1, %hf1, H1⟩, ⟨%ds, %fs, -, HS⟩, Hk⟩
  obtain rfl := harg2.eq_unread hf0; obtain rfl := harg3.eq_unread hf1
  sl_exec (disch := first | exact h1 | exact h2)
  sl_step
  iapply Hk
  isplitl [H0]
  · iexists _; isplitr; · ipureintro; exact harg2.read_unread _
    iexact H0
  isplitl [H1]
  · iexists _; isplitr; · ipureintro; exact harg3.read_unread _
    iexact H1
  iexists _; isplitr
  swap; · iexact HS
  ipureintro
  rw [View.read_writes_eq_canon _ _ _ (fun y => ⟨_, List.mem_cons.mpr (Or.inl rfl), View.mem_set_unit_zero zero_off1 inb_S128x1024_S128x1024_0_0 y⟩),
    View.canon_cons_unit_zero zero_off1]
  sl_unfold_words
  simp only [View.readAt_eq_ld, Memref.IsWhole.read_unread, View.ld_unit_zero (S := S1x8192) zero_off1,
    View.ld_unit_zero (S := S128x8192) zero_off1, View.ld_unit_zero (S := S128x1024) zero_off1,
    View.ld_unit_zero (S := S1x1024) zero_off1, View.readCov_unit_zero (S := S128x1024) _ zero_off1]

set_option maxHeartbeats 1000000 in
/-- Neither the first nor the last edge block: the accumulator at `a` ends at `a` plus the product of the two input
    blocks; the reciprocal-degree block and the output block are not touched. -/
theorem kernel1_B (c : Dev nD) (E : Set ℕ) (i : grid1.Coords)
    (arg2 : Memref sig .tc .vmem S1x8192 .i32) (harg2 : arg2.IsWhole)
    (arg3 : Memref sig .tc .vmem S128x8192 .bf16) (harg3 : arg3.IsWhole)
    (arg4 : Memref sig .tc .vmem S1x1024 .f32) (harg4 : arg4.IsWhole)
    (arg5 : Memref sig .tc .vmem S128x1024 .f32) (harg5 : arg5.IsWhole)
    (arg6 : Memref sig .tc .vmem S128x1024 .f32) (harg6 : arg6.IsWhole)
    (h1 : ¬ first1 i) (h2 : ¬ last1 i)
    (x0 : Vec F S1x8192 .i32) (x1 : Vec F S128x8192 .bf16) (a : Vec F S128x1024 .f32)
    (K : PUnit → sProp 𝕄) :
    iprop(owns (c : Thread nD τ) arg2 fullShare x0 ∗ owns (c : Thread nD τ) arg3 fullShare x1
        ∗ owns (c : Thread nD τ) arg6 fullShare a
        ∗ (iprop(owns (c : Thread nD τ) arg2 fullShare x0 ∗ owns (c : Thread nD τ) arg3 fullShare x1
            ∗ owns (c : Thread nD τ) arg6 fullShare (k1_pay2 i x0 x1 a)) -∗ K ⟨⟩))
      ⊢ wp frame (wpE (defs₀ (F := F)) Variants.none c none) E
          (cc1_scatter_kernel i arg2 harg2 arg3 harg3 arg4 harg4 arg5 harg5 arg6 harg6) K := by
  simp only [cc1_scatter_kernel_eq_skeleton]; unfold cc1_scatter_kernel_skel
  unfold owns
  iintro ⟨⟨%f0, %hf0, H0⟩, ⟨%f1, %hf1, H1⟩, ⟨%fs, %hfs, HS⟩, Hk⟩
  obtain rfl := harg2.eq_unread hf0; obtain rfl := harg3.eq_unread hf1; obtain rfl := harg6.eq_unread hfs
  sl_exec (disch := first | exact h1 | exact h2)
  sl_step
  iapply Hk
  isplitl [H0]
  · iexists _; isplitr; · ipureintro; exact harg2.read_unread _
    iexact H0
  isplitl [H1]
  · iexists _; isplitr; · ipureintro; exact harg3.read_unread _
    iexact H1
  iexists _; isplitr
  swap; · iexact HS
  ipureintro
  rw [View.read_writes_eq_canon _ _ _ (fun y => ⟨_, List.mem_singleton.mpr rfl, View.mem_set_unit_zero zero_off1 inb_S128x1024_S128x1024_0_0 y⟩),
    View.canon_unit_zero zero_off1]
  simp only [View.readAt_eq_ld, Memref.IsWhole.read_unread, View.ld_unit_zero (S := S1x8192) zero_off1,
    View.ld_unit_zero (S := S128x8192) zero_off1, View.ld_unit_zero (S := S128x1024) zero_off1]

set_option maxHeartbeats 1000000 in
/-- The last edge block (and not the first): the accumulator at `a` ends at `a` plus the product of the two input
    blocks, and the output block, whatever it held, at that sum scaled by the reciprocal degrees `x2`. -/
theorem kernel1_C (c : Dev nD) (E : Set ℕ) (i : grid1.Coords)
    (arg2 : Memref sig .tc .vmem S1x8192 .i32) (harg2 : arg2.IsWhole)
    (arg3 : Memref sig .tc .vmem S128x8192 .bf16) (harg3 : arg3.IsWhole)
    (arg4 : Memref sig .tc .vmem S1x1024 .f32) (harg4 : arg4.IsWhole)
    (arg5 : Memref sig .tc .vmem S128x1024 .f32) (harg5 : arg5.IsWhole)
    (arg6 : Memref sig .tc .vmem S128x1024 .f32) (harg6 : arg6.IsWhole)
    (h1 : ¬ first1 i) (h2 : last1 i)
    (x0 : Vec F S1x8192 .i32) (x1 : Vec F S128x8192 .bf16) (x2 : Vec F S1x1024 .f32) (a : Vec F S128x1024 .f32)
    (K : PUnit → sProp 𝕄) :
    iprop(owns (c : Thread nD τ) arg2 fullShare x0 ∗ owns (c : Thread nD τ) arg3 fullShare x1
        ∗ owns (c : Thread nD τ) arg4 fullShare x2 ∗ (∃ d, owns (c : Thread nD τ) arg5 fullShare d)
        ∗ owns (c : Thread nD τ) arg6 fullShare a
        ∗ (iprop(owns (c : Thread nD τ) arg2 fullShare x0 ∗ owns (c : Thread nD τ) arg3 fullShare x1
            ∗ owns (c : Thread nD τ) arg4 fullShare x2
            ∗ owns (c : Thread nD τ) arg5 fullShare (k1_pay3 (k1_pay2 i x0 x1 a) x2)
            ∗ owns (c : Thread nD τ) arg6 fullShare (k1_pay2 i x0 x1 a)) -∗ K ⟨⟩))
      ⊢ wp frame (wpE (defs₀ (F := F)) Variants.none c none) E
          (cc1_scatter_kernel i arg2 harg2 arg3 harg3 arg4 harg4 arg5 harg5 arg6 harg6) K := by
  simp only [cc1_scatter_kernel_eq_skeleton]; unfold cc1_scatter_kernel_skel
  unfold owns
  iintro ⟨⟨%f0, %hf0, H0⟩, ⟨%f1, %hf1, H1⟩, ⟨%f2, %hf2, H2⟩, ⟨%d3, %f3, -, H3⟩, ⟨%fs, %hfs, HS⟩, Hk⟩
  obtain rfl := harg2.eq_unread hf0; obtain rfl := harg3.eq_unread hf1; obtain rfl := harg4.eq_unread hf2
  obtain rfl := harg6.eq_unread hfs
  sl_exec (disch := first | exact h1 | exact h2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr
    swap; · iexact H3
    ipureintro
    rw [View.read_writes_eq_canon _ _ _ (fun y => ⟨_, List.mem_singleton.mpr rfl, View.mem_set_unit_zero zero_off1 inb_S128x1024_S128x1024_0_0 y⟩),
      View.canon_unit_zero zero_off1]
    sl_unfold_words
    simp only [View.readAt_eq_ld, Memref.IsWhole.read_unread, View.ld_unit_zero (S := S1x8192) zero_off1,
    View.ld_unit_zero (S := S128x8192) zero_off1, View.ld_unit_zero (S := S128x1024) zero_off1,
    View.ld_unit_zero (S := S1x1024) zero_off1, View.readCov_unit_zero (S := S128x1024) _ zero_off1]
  iexists _; isplitr
  swap; · iexact HS
  ipureintro
  sl_unfold_words
  rw [View.read_writes_eq_canon _ _ _ (fun y => ⟨_, List.mem_singleton.mpr rfl, View.mem_set_unit_zero zero_off1 inb_S128x1024_S128x1024_0_0 y⟩),
    View.canon_unit_zero zero_off1]
  simp only [View.readAt_eq_ld, Memref.IsWhole.read_unread, View.ld_unit_zero (S := S1x8192) zero_off1,
    View.ld_unit_zero (S := S128x8192) zero_off1, View.ld_unit_zero (S := S128x1024) zero_off1,
    View.ld_unit_zero (S := S1x1024) zero_off1, View.readCov_unit_zero (S := S128x1024) _ zero_off1]

end Cert.KernelIdeal.Hand

end
-- ==== Proof.KI.Dat1.lean ====
/-
  Call 1's proof data: what its buffers hold after each grid point, the invariant that carries the accumulator from one
  point to the next, and the body's obligation at every point.
-/
import proofs.«427921_j16320875725295_2_alg».proof.Proof.KI.Data
import proofs.«427921_j16320875725295_2_alg».proof.Proof.KI.Body1
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : Entry F)

/-- The accumulator's memref. -/
abbrev scM1 : Memref sig .tc .vmem S128x1024 .f32 := Memref.whole cc1_scratch0

/-- The scoped buffers call 1 never touches. -/
abbrev others1 (c : Dev nD) : sProp 𝕄 :=
  Pipeline.scopedRestBut (Ix := Unit) (Name := ℕ) (U := UR sig nD τ) (Lvl := ℕ) (Val := Elt F) spec1 c [cc1_scratch0]

/-- The invariant before point `n`: at the start the class's (every scoped buffer at anything); afterwards the accumulator
    at what the point before left, the other scoped buffers at anything, the generator register at some state. -/
def Phi1 (c : Dev nD) : (n : ℕ) → n ≤ cfg1.N → sProp 𝕄
  | 0, _ => Pipeline.ΦA spec1 c
  | n + 1, hn => iprop(owns (c : Thread nD τ) scM1 fullShare (acc1 V c n hn) ∗ others1 (F := F) c ∗ (∃ r, prngReg c r))

/-- Call 1's proof data on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1 V c t
  Φ t := Phi1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1 V c t := by dsimp only [dat1]

/-! ## The two branch conditions over the grid, and where the output window is idle -/

/-- The first branch is taken exactly at the first of the 98 edge blocks. -/
theorem hfirst1 : ∀ t : Fin cfg1.N, first1 (grid1.coords t) ↔ t.val % 98 = 0 :=
  (by decide +kernel : ∀ t : Fin grid1.N, first1 (grid1.coords t) ↔ t.val % 98 = 0)

/-- The second branch is taken exactly at the last of the 98 edge blocks. -/
theorem hlast1 : ∀ t : Fin cfg1.N, last1 (grid1.coords t) ↔ t.val % 98 = 97 :=
  (by decide +kernel : ∀ t : Fin grid1.N, last1 (grid1.coords t) ↔ t.val % 98 = 97)

/-- Off the last edge block the output window is idle: the body stores nothing into it. -/
theorem idle1_3_true (i : grid1.Coords) (h : ¬ last1 i) : cfg1.idle 3 i = true := by
  show (!(k1_cond2 i == 1#1)) = true
  rw [Bool.not_eq_true', beq_eq_false_iff_ne]; exact h

/-- At the last edge block the output window is live. -/
theorem idle1_3_false (i : grid1.Coords) (h : last1 i) : cfg1.idle 3 i = false := by
  show (!(k1_cond2 i == 1#1)) = false
  rw [Bool.not_eq_false', beq_iff_eq]; exact h

/-- Off the last edge block the output block is not written back. -/
theorem noFlush1_3 (t : Fin cfg1.N) (h : ¬ t.val % 98 = 97) : (cfg1.win 3).flush t = false :=
  Bool.eq_false_iff.mpr fun hf => h ((flush1_3 t).mp hf)

/-! ## What the input windows' buffers hold when the body is called -/

/-- An input window's current buffer holds its block at every point, fetched there or not: where it is not fetched the
    block index has not moved since the point before, whose body left the block in place. -/
theorem before1_0_of {c : Dev nD} (dat : Dat τ (Elt F) Unit ℕ (UR sig nD τ) ℕ cfg1 c)
    (hA : dat.A 0 = V c (Pipeline.arrRef spec1 0)) (hafter : ∀ t, dat.after 0 t = iblk1 V c 0 t)
    (t : Fin cfg1.N) (d) : dat.before 0 t d = iblk1 V c 0 t :=
  (dat.before_in_eq_fetched 0 rfl (fun _ => rfl) (fun _ _ _ => rfl)
    (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c)
    (hA : dat.A 1 = V c (Pipeline.arrRef spec1 1)) (hafter : ∀ t, dat.after 1 t = iblk1 V c 1 t)
    (t : Fin cfg1.N) (d) : dat.before 1 t d = iblk1 V c 1 t :=
  (dat.before_in_eq_fetched 1 rfl (fun _ => rfl) (fun _ _ _ => rfl)
    (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c)
    (hA : dat.A 2 = V c (Pipeline.arrRef spec1 2)) (hafter : ∀ t, dat.after 2 t = iblk1 V c 2 t)
    (t : Fin cfg1.N) (d) : dat.before 2 t d = iblk1 V c 2 t :=
  (dat.before_in_eq_fetched 2 rfl (fun _ => rfl) (fun _ _ _ => rfl)
    (fun t => by rw [hafter]; unfold Dat.blockOf iblk1; rw [hA]; try rfl) t d).trans
    (by unfold Dat.fetched Dat.blockOf iblk1; rw [hA]; try rfl)

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## What the body leaves in each window's buffer -/

theorem leaves1_0 (c : Dev nD) (t : Fin cfg1.N) :
    (dat1 V c).leavesExact 0 t = owns (c : Thread nD τ) (st1_0 t) fullShare (iblk1 V c 0 t) := by
  unfold Dat.leavesExact; rw [show cfg1.idle 0 (grid1.coords t) = false from rfl, after1_0]
theorem leaves1_1 (c : Dev nD) (t : Fin cfg1.N) :
    (dat1 V c).leavesExact 1 t = owns (c : Thread nD τ) (st1_1 t) fullShare (iblk1 V c 1 t) := by
  unfold Dat.leavesExact; rw [show cfg1.idle 1 (grid1.coords t) = false from rfl, after1_1]
theorem leaves1_2 (c : Dev nD) (t : Fin cfg1.N) :
    (dat1 V c).leavesExact 2 t = owns (c : Thread nD τ) (st1_2 t) fullShare (iblk1 V c 2 t) := by
  unfold Dat.leavesExact; rw [show cfg1.idle 2 (grid1.coords t) = false from rfl, after1_2]
/-- At the last edge block the output buffer is left at the scaled accumulator. -/
theorem leaves1_3_live (c : Dev nD) (t : Fin cfg1.N) (h : last1 (grid1.coords t)) :
    (dat1 V c).leavesExact 3 t = owns (c : Thread nD τ) (st1_3 t) fullShare (out1 V c t) := by
  unfold Dat.leavesExact; rw [idle1_3_false (grid1.coords t) h, after1_3]

/-! ## The accumulator, point by point -/

/-- At a first edge block the accumulator is the product alone. -/
theorem acc1_first (c : Dev nD) (t : Fin cfg1.N) (h : t.val % 98 = 0) :
    acc1 V c t.val t.isLt = k1_pay2 (grid1.coords t) (iblk1 V c 0 t) (iblk1 V c 1 t) (k1_pay1 (F := F)) := by
  obtain ⟨n, hn⟩ := t
  cases n with
  | zero => rfl
  | succ n => exact congrArg (k1_pay2 (grid1.coords ⟨n + 1, hn⟩) (iblk1 V c 0 ⟨n + 1, hn⟩) (iblk1 V c 1 ⟨n + 1, hn⟩)) (if_pos h)

/-- Elsewhere it is the product added to what the point before left. -/
theorem acc1_next (c : Dev nD) (t : Fin cfg1.N) (h : ¬ t.val % 98 = 0) :
    acc1 V c t.val t.isLt = k1_pay2 (grid1.coords t) (iblk1 V c 0 t) (iblk1 V c 1 t)
      (acc1 V c (t.val - 1) (Nat.lt_of_le_of_lt (Nat.sub_le _ _) t.isLt)) := by
  obtain ⟨n, hn⟩ := t
  cases n with
  | zero => exact absurd (Nat.zero_mod _) h
  | succ n => exact congrArg (k1_pay2 (grid1.coords ⟨n + 1, hn⟩) (iblk1 V c 0 ⟨n + 1, hn⟩) (iblk1 V c 1 ⟨n + 1, hn⟩)) (if_neg h)

/-! ## The invariant, unfolded -/

theorem Phi1_zero (c : Dev nD) (n : ℕ) (h : n ≤ cfg1.N) (hz : n = 0) : Phi1 V c n h = Pipeline.ΦA spec1 c := by
  subst hz; rfl

theorem Phi1_succ (c : Dev nD) (n : ℕ) (hn : n < cfg1.N) :
    Phi1 V c (n + 1) hn
      = iprop(owns (c : Thread nD τ) scM1 fullShare (acc1 V c n hn) ∗ others1 (F := F) c ∗ (∃ r, prngReg c r)) := rfl

theorem Phi1_pos (c : Dev nD) (n : ℕ) (h : n ≤ cfg1.N) (hz : n ≠ 0) :
    Phi1 V c n h
      = iprop(owns (c : Thread nD τ) scM1 fullShare (acc1 V c (n - 1) (by omega)) ∗ others1 (F := F) c ∗ (∃ r, prngReg c r)) := by
  cases n with
  | zero => exact absurd rfl hz
  | succ n => rfl

theorem Phi1_castSucc (c : Dev nD) (t : Fin cfg1.N) :
    (dat1 V c).Φ t.castSucc = Phi1 V c t.val (Nat.le_of_lt t.isLt) := by
  dsimp only [dat1]; simp only [Fin.coe_castSucc]

/-- The class's invariant with the accumulator split off the other scoped buffers. -/
theorem PhiA1_eq (c : Dev nD) :
    (Pipeline.ΦA spec1 c : sProp 𝕄)
      = iprop(((∃ d, owns (c : Thread nD τ) scM1 fullShare d) ∗ others1 (F := F) c) ∗ (∃ r, prngReg c r)) := by
  unfold Pipeline.ΦA
  rw [Pipeline.scopedRest_split_of_list spec1 c [cc1_scratch0] (by decide) (by decide)]
  simp only [bigSepL_singleton, scM1, owns_whole]
  try rfl

/-! ## The body's obligation, at a generic point -/

/-- What the body is called with at point `t`: the invariant, what the core owes, and each window's current buffer. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- What it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4000000 in
/-- The body at any point. The three input buffers hold their blocks. The edge block's position among the 98 selects the
    case: at the first the accumulator is taken at anything (out of the class's invariant at the very first point, else
    out of the carried one with its contents forgotten) and left at the product alone; elsewhere it is taken at what the
    point before left and the product is added; at the last the output buffer, taken at anything, is left at the scaled
    sum, and elsewhere it is idle and handed back as found. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = Phi1 V c (t.val + 1) t.isLt from rfl, Phi1_succ]
  rw [leaves1_0, leaves1_1, leaves1_2, Phi1_castSucc]
  have hN : t.val < 4802 := lt_of_lt_of_eq t.isLt (show cfg1.N = 4802 from N_1)
  by_cases h0 : t.val % 98 = 0
  · by_cases h97 : t.val % 98 = 97
    · exfalso; omega
    · have hl : ¬ last1 (grid1.coords t) := fun h => h97 ((hlast1 t).mp h)
      rw [Dat.leavesExact_idle (dat1 V c) 3 t (idle1_3_true (grid1.coords t) hl) (noFlush1_3 t h97)]
      rw [acc1_first V c t h0]
      by_cases hz : t.val = 0
      · rw [Phi1_zero V c _ _ hz, PhiA1_eq]
        iintro ⟨⟨⟨HS, Hoth⟩, Hg⟩, Ho, ⟨%d0, H0⟩, ⟨%d1, H1⟩, ⟨%d2, H2⟩, ⟨%d3, H3⟩⟩
        iapply (kernel1_A c Set.univ (grid1.coords t) _ _ _ _ _ _ _ _ _ _ ((hfirst1 t).mpr h0) hl
          (iblk1 V c 0 t) (iblk1 V c 1 t) _)
        isplitl [H0]; · iexact H0
        isplitl [H1]; · iexact H1
        isplitl [HS]; · iexact HS
        iintro ⟨H0, H1, HS⟩
        isplitl [HS Hoth Hg]
        · isplitl [HS]; · iexact HS
          isplitl [Hoth]; · iexact Hoth
          iexact Hg
        isplitl [Ho]; · iexact Ho
        isplitl [H0]; · iexact H0
        isplitl [H1]; · iexact H1
        isplitl [H2]; · iexact H2
        iexists _; iexact H3
      · rw [Phi1_pos V c _ _ hz]
        iintro ⟨⟨HS, Hoth, Hg⟩, Ho, ⟨%d0, H0⟩, ⟨%d1, H1⟩, ⟨%d2, H2⟩, ⟨%d3, H3⟩⟩
        iapply (kernel1_A c Set.univ (grid1.coords t) _ _ _ _ _ _ _ _ _ _ ((hfirst1 t).mpr h0) hl
          (iblk1 V c 0 t) (iblk1 V c 1 t) _)
        isplitl [H0]; · iexact H0
        isplitl [H1]; · iexact H1
        isplitl [HS]; · iexists _; iexact HS
        iintro ⟨H0, H1, HS⟩
        isplitl [HS Hoth Hg]
        · isplitl [HS]; · iexact HS
          isplitl [Hoth]; · iexact Hoth
          iexact Hg
        isplitl [Ho]; · iexact Ho
        isplitl [H0]; · iexact H0
        isplitl [H1]; · iexact H1
        isplitl [H2]; · iexact H2
        iexists _; iexact H3
  · have hf : ¬ first1 (grid1.coords t) := fun h => h0 ((hfirst1 t).mp h)
    have hz : t.val ≠ 0 := fun e => h0 (by rw [e])
    rw [acc1_next V c t h0, Phi1_pos V c _ _ hz]
    by_cases h97 : t.val % 98 = 97
    · have hl : last1 (grid1.coords t) := (hlast1 t).mpr h97
      rw [leaves1_3_live V c t hl]
      unfold out1
      rw [acc1_next V c t h0]
      iintro ⟨⟨HS, Hoth, Hg⟩, Ho, ⟨%d0, H0⟩, ⟨%d1, H1⟩, ⟨%d2, H2⟩, ⟨%d3, H3⟩⟩
      iapply (kernel1_C c Set.univ (grid1.coords t) _ _ _ _ _ _ _ _ _ _ hf hl
        (iblk1 V c 0 t) (iblk1 V c 1 t) (iblk1 V c 2 t) (acc1 V c (t.val - 1) (Nat.lt_of_le_of_lt (Nat.sub_le _ _) t.isLt)) _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS Hoth Hg]
      · isplitl [HS]; · iexact HS
        isplitl [Hoth]; · iexact Hoth
        iexact Hg
      isplitl [Ho]; · iexact Ho
      isplitl [H0]; · iexact H0
      isplitl [H1]; · iexact H1
      isplitl [H2]; · iexact H2
      iexact H3
    · have hl : ¬ last1 (grid1.coords t) := fun h => h97 ((hlast1 t).mp h)
      rw [Dat.leavesExact_idle (dat1 V c) 3 t (idle1_3_true (grid1.coords t) hl) (noFlush1_3 t h97)]
      iintro ⟨⟨HS, Hoth, Hg⟩, Ho, ⟨%d0, H0⟩, ⟨%d1, H1⟩, ⟨%d2, H2⟩, ⟨%d3, H3⟩⟩
      iapply (kernel1_B c Set.univ (grid1.coords t) _ _ _ _ _ _ _ _ _ _ hf hl
        (iblk1 V c 0 t) (iblk1 V c 1 t) (acc1 V c (t.val - 1) (Nat.lt_of_le_of_lt (Nat.sub_le _ _) t.isLt)) _)
      isplitl [H0]; · iexact H0
      isplitl [H1]; · iexact H1
      isplitl [HS]; · iexact HS
      iintro ⟨H0, H1, HS⟩
      isplitl [HS Hoth Hg]
      · isplitl [HS]; · iexact HS
        isplitl [Hoth]; · iexact Hoth
        iexact Hg
      isplitl [Ho]; · iexact Ho
      isplitl [H0]; · iexact H0
      isplitl [H1]; · iexact H1
      isplitl [H2]; · iexact H2
      iexists _; iexact H3

/-- The body's obligation at every point of call 1. -/
theorem body_obligation1 (c : Dev nD) :
    BodyObligation (dat1 (F := F) V c) (defs₀ (F := F)) Variants.none () Set.univ := fun t => by
  rw [bigSep_W1, bigSep_W1]
  exact sound_body1 V c t

/-- What the launch hands the call is the invariant before the first point. -/
theorem hin1 (c : Dev nD) : Pipeline.ΦA spec1 c ⊢ (dat1 V c).Φ 0 := by
  rw [show (dat1 V c).Φ 0 = Phi1 V c 0 (Nat.zero_le _) from rfl, Phi1_zero V c 0 _ rfl]
  try exact Idealize.SL.BI.Entails.refl _

/-- After the last point the invariant gives the class's invariant back: the accumulator's contents are forgotten. -/
theorem hout1 (c : Dev nD) : (dat1 V c).Φ (Fin.last cfg1.N) ⊢ Pipeline.ΦA spec1 c := by
  rw [show (dat1 V c).Φ (Fin.last cfg1.N) = Phi1 V c (Fin.last cfg1.N).val (Nat.le_of_lt_succ (Fin.last cfg1.N).isLt) from rfl,
    Phi1_pos V c _ _ (by rw [Fin.val_last]; have : cfg1.N = 4802 := N_1; omega), PhiA1_eq]
  iintro ⟨HS, Hoth, Hg⟩
  isplitl [HS Hoth]
  · isplitl [HS]; · iexists _; iexact HS
    iexact Hoth
  iexact Hg

end Cert.KernelIdeal.Hand

end
-- ==== Proof.KI.Body2.lean ====
/-
  The body of call 2 (the two dense layers) on whole staging buffers: it reads its seven input blocks and leaves, in the
  output's buffer, the second layer's rectified result of them; the inputs' buffers are as they were.
-/
import proofs.«427921_j16320875725295_2_alg».proof.Proof.Gen.KernelIdeal.Skeleton
import Idealize.ShloMosaic.Lib.Pipeline.FrameBody
import Idealize.ShloMosaic.Lib.Pipeline.Frame
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The offsets of a rectangle that is a whole two-axis buffer are zero. -/
theorem off2_zero : (![0, 0] : Fin 2 → ℕ) = fun _ => 0 := funext fun a => by fin_cases a <;> rfl

/-- One store through the whole-buffer rectangle covers every index of the output block. -/
theorem cover2_out (w : Vec F S1024x128 .f32) (y : S1024x128.Idx) :
    ∃ pc ∈ ([⟨Rect.unit (s := S1024x128) ![0, 0] S1024x128.size inb_S1024x128_S1024x128_0_0, w⟩] :
      List (View.Piece (Elt F) S1024x128 .f32)), y ∈ pc.1.set :=
  ⟨_, List.mem_singleton_self _, View.mem_set_unit_zero off2_zero inb_S1024x128_S1024x128_0_0 y⟩

set_option maxHeartbeats 1000000 in
/-- Call 2's body on whole memrefs, the seven inputs' at contents `x0 … x6` and the output's at anything, runs to the
    continuation holding the inputs' as they were and the output's at the payload of the seven contents: each load through
    the whole-buffer rectangle reads the contents, and the one store through it covers the buffer and leaves its payload. -/
theorem sound_kernel2 (c : Dev nD) (E : Set ℕ) (i : grid2.Coords)
    (arg1 : Memref sig .tc .vmem S1024x128 .f32) (harg1 : arg1.IsWhole) (arg2 : Memref sig .tc .vmem S1024x128 .f32) (harg2 : arg2.IsWhole)
    (arg3 : Memref sig .tc .vmem S128x128 .f32) (harg3 : arg3.IsWhole) (arg4 : Memref sig .tc .vmem S128x128 .f32) (harg4 : arg4.IsWhole)
    (arg5 : Memref sig .tc .vmem S1x128 .f32) (harg5 : arg5.IsWhole) (arg6 : Memref sig .tc .vmem S128x128 .f32) (harg6 : arg6.IsWhole)
    (arg7 : Memref sig .tc .vmem S1x128 .f32) (harg7 : arg7.IsWhole) (arg8 : Memref sig .tc .vmem S1024x128 .f32) (harg8 : arg8.IsWhole)
    (x0 : Vec F S1024x128 .f32) (x1 : Vec F S1024x128 .f32) (x2 : Vec F S128x128 .f32) (x3 : Vec F S128x128 .f32)
    (x4 : Vec F S1x128 .f32) (x5 : Vec F S128x128 .f32) (x6 : Vec F S1x128 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ owns (c : Thread nD τ) arg6 fullShare x5
        ∗ owns (c : Thread nD τ) arg7 fullShare x6 ∗ (∃ d, owns (c : Thread nD τ) arg8 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4 ∗ owns (c : Thread nD τ) arg6 fullShare x5
            ∗ owns (c : Thread nD τ) arg7 fullShare x6
            ∗ owns (c : Thread nD τ) arg8 fullShare (k2_pay1 x0 x1 x2 x3 x4 x5 x6)) -∗ K ⟨⟩))
      ⊢ wp frame (wpE (defs₀ (F := F)) Variants.none c none) E
          (cc2_mlp_kernel i arg1 harg1 arg2 harg2 arg3 harg3 arg4 harg4 arg5 harg5 arg6 harg6 arg7 harg7 arg8 harg8) K := by
  simp only [cc2_mlp_kernel_eq_skeleton]; unfold cc2_mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩,
    ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  rw [View.read_writes_eq_canon _ _ _ (cover2_out _), View.canon_unit_zero off2_zero]
  simp only [View.readAt_eq_ld, View.ld_unit_zero (S := S1024x128) off2_zero,
    View.ld_unit_zero (S := S128x128) off2_zero, View.ld_unit_zero (S := S1x128) off2_zero]

end Cert.KernelIdeal.Hand

end
-- ==== Proof.KI.Dat2.lean ====
/-
  Call 2's proof data: what its buffers hold after each grid point and the body's obligation at every point. The call keeps
  no state between points: each input's buffer holds its block, the output's the dense layers' result of the seven blocks.
-/
import proofs.«427921_j16320875725295_2_alg».proof.Proof.KI.Data
import proofs.«427921_j16320875725295_2_alg».proof.Proof.KI.Body2
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : Entry F)

/-! ## An input's buffer holds its block at every point

  Where the window is fetched the fetch puts the block there; where it is not, its block index has not moved since the point
  before and the body left the block in place. The windows are uncut and never idle. -/

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)

/-! ## The proof data -/

/-- Call 2's proof data on core `c`: the arrays as the call finds them; after the body at a point each input's buffer at
    its block and the output's at the dense layers' result of the seven blocks; the invariant the scoped buffers the call
    never touches and the generator register; full shares; nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => out2 V c t
  Φ _ := Pipeline.ΦA spec2 c
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = out2 V c t := by dsimp only [dat2]

/-- The invariant is the same at every point. -/
theorem Phi2_eq (c : Dev nD) (t : Fin (cfg2.N + 1)) : (dat2 V c).Φ t = Pipeline.ΦA spec2 c := rfl

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d

/-! ## The body's obligation -/

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t))

/-- The body at any point: the inputs' memrefs hold their blocks, so the body's triple applies at the seven blocks; the
    invariant and what the core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7]
  unfold out2
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel2 c Set.univ _ _ _ _ _ _ _ _ _ _ _ _ _ _ _ _ _
    (iblk2 V c 0 t) (iblk2 V c 1 t) (iblk2 V c 2 t) (iblk2 V c 3 t) (iblk2 V c 4 t) (iblk2 V c 5 t) (iblk2 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body's obligation at every point of call 2. -/
theorem body_obligation2 (c : Dev nD) :
    BodyObligation (dat2 (F := F) V c) (defs₀ (F := F)) Variants.none () Set.univ := fun t => by
  rw [bigSep_W2, bigSep_W2]
  exact sound_body2 V c t

end Cert.KernelIdeal.Hand

end
-- ==== Proof.KI.Chain.lean ====
/-
  The contents of a core's buffers along the program: what each call is entered with, what it leaves, and the proof
  data of the three calls at those contents.

  Call 0 is entered with what the host stretches before it computed; it leaves its output array at the fold of its
  write-backs and every other buffer as it found it. Call 1 is entered with that, call 2 with what the host stretch
  between computed from what call 1 left.
-/
import proofs.«427921_j16320875725295_2_alg».proof.Proof.KI.RunCond
import proofs.«427921_j16320875725295_2_alg».proof.Proof.KI.Dat0
import proofs.«427921_j16320875725295_2_alg».proof.Proof.KI.Dat1
import proofs.«427921_j16320875725295_2_alg».proof.Proof.KI.Dat2
import Idealize.ShloMosaic.Lib.Pipeline.RegionsLoop
import Idealize.ShloMosaic.Lib.Pipeline.FrameSuffix

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-! ## The contents -/

/-- What call 0 is entered with. -/
abbrev ent0 : Entry F := fun c b => V7 m c b

/-- What call 0 leaves: its arrays at the fold of its write-backs, every other buffer as entered. -/
def fin0 (c : Dev nD) : Valuation τ sig (Elt F) :=
  Pipeline.withArrays spec0 c (V7 m c) fun w => (dat0 (ent0 m) c).arrAt w cfg0.N

/-- The buffers between call 0 and call 1: the gathered array replaced. -/
abbrev val8 (c : Dev nD) : Valuation τ sig (Elt F) := Function.update (V7 m c) main_v20 (fin0 m c main_v20)

/-- What call 1 is entered with. -/
abbrev ent1 : Entry F := fun c b => val8 m c b

/-- What call 1 leaves. -/
def fin1 (c : Dev nD) : Valuation τ sig (Elt F) :=
  Pipeline.withArrays spec1 c (val8 m c) fun w => (dat1 (ent1 m) c).arrAt w cfg1.N

/-- The buffers after call 1: the aggregated array replaced. -/
abbrev val9 (c : Dev nD) : Valuation τ sig (Elt F) := Function.update (val8 m c) main_v21 (fin1 m c main_v21)

/-- The buffers when call 2 is entered: after the host stretch between. -/
abbrev val10 (c : Dev nD) : Valuation τ sig (Elt F) := StableHlo.after hostOps2 (val9 m c)

/-- What call 2 is entered with. -/
abbrev ent2 : Entry F := fun c b => val10 m c b

/-- What call 2 leaves. -/
def fin2 (c : Dev nD) : Valuation τ sig (Elt F) :=
  Pipeline.withArrays spec2 c (val10 m c) fun w => (dat2 (ent2 m) c).arrAt w cfg2.N

/-- What the calls leave in the buffers they may change, as the conditional run reads it. -/
def outsH : Outs (F := F) := fun J r c => match J with
  | 8 => fin0 m c r
  | 9 => fin1 m c r
  | _ => fin2 m c r

theorem V8_eq (c : Dev nD) : V8 m (outsH m) c = val8 m c := rfl
theorem V9_eq (c : Dev nD) : V9 m (outsH m) c = val9 m c := rfl
theorem V10_eq (c : Dev nD) : V10 m (outsH m) c = val10 m c := rfl

/-- The output arrays the calls leave are the folds of their write-backs. -/
theorem outs8_eq (c : Dev nD) : outsH m 8 main_v20 c = (dat0 (ent0 m) c).arrAt 2 cfg0.N := by
  show fin0 m c main_v20 = _
  unfold fin0; exact Pipeline.withArrays_arr spec0 launch0.win.arr_inj c _ _ 2
theorem outs9_eq (c : Dev nD) : outsH m 9 main_v21 c = (dat1 (ent1 m) c).arrAt 3 cfg1.N := by
  show fin1 m c main_v21 = _
  unfold fin1; exact Pipeline.withArrays_arr spec1 launch1.win.arr_inj c _ _ 3
theorem outs11_eq (c : Dev nD) : outsH m 11 main_v27 c = (dat2 (ent2 m) c).arrAt 7 cfg2.N := by
  show fin2 m c main_v27 = _
  unfold fin2; exact Pipeline.withArrays_arr spec2 launch2.win.arr_inj c _ _ 7

/-! ## The proof data family -/

/-- Every call's proof data, each at its entry contents. -/
def pdatsH : (p : Fin 3) → (c : Dev nD) → Dat τ (Elt F) Unit ℕ (UR sig nD τ) ℕ (cfgs p) c
  | ⟨0, _⟩ => fun c => dat0 (ent0 m) c
  | ⟨1, _⟩ => fun c => dat1 (ent1 m) c
  | ⟨2, _⟩ => fun c => dat2 (ent2 m) c

/-- No core owes another anything: no level is assigned. -/
abbrev Lnone : GSem nD τ sig → Finset Unit := fun _ => ∅
abbrev lvz : GSem nD τ sig → Unit → ℕ := fun _ _ => 0

/-- What rides beside the buffers through every segment: the generator register at some state, nothing owed. -/
abbrev Rst (c : Dev nD) : sProp 𝕄 :=
  iprop((∃ r, prngReg c r) ∗ ∃ W, owes (c : Thread nD τ) (0 : CellTallies nD τ sig Unit) W)

end Cert.KernelIdeal.Hand

end
-- ==== Proof.KI.Regs.lean ====
/-
  The three calls as segments of the program: what each is entered from and what it leaves, with its arrays taken out of
  the unscoped buffers on entry and put back, at what the call leaves, on exit.
-/
import proofs.«427921_j16320875725295_2_alg».proof.Proof.KI.Chain
import Idealize.ShloMosaic.Lib.Pipeline.RegionsLoop
import Idealize.ShloMosaic.Lib.Pipeline.FrameSuffix

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-! ## Call 0 -/

/-- At call 0's exit each of its arrays holds what the pipeline leaves: an input's array is never written, so it is what
    the call was entered with, which the replacement of the output array does not touch; the output array is the replaced one. -/
theorem hF0 (c : Dev nD) : ∀ w : Fin cfg0.W, (dat0 (ent0 m) c).arrAt w cfg0.N = V8 m (outsH m) c (Pipeline.arrRef spec0 w)
  | ⟨0, _⟩ => ((dat0 (ent0 m) c).arrAt_in 0 rfl _).trans ((A_eq0 (ent0 m) c 0).trans (V8_of m (outsH m) c _ (by decide)).symm)
  | ⟨1, _⟩ => ((dat0 (ent0 m) c).arrAt_in 1 rfl _).trans ((A_eq0 (ent0 m) c 1).trans (V8_of m (outsH m) c _ (by decide)).symm)
  | ⟨2, _⟩ => (outs8_eq m c).symm.trans
      (Function.update_self (Proc.devRef .tc main_v20 : DevRef τ sig) (outsH m 8 main_v20 c) (V7 m c)).symm

/-- Every buffer that is no array of call 0 is as the call was entered: only the output array is replaced. -/
theorem hrest0 (c : Dev nD) : ∀ b, b ∉ Finset.univ.image (Pipeline.arrRef spec0) → V8 m (outsH m) c b = ent0 m c b :=
  fun b hb => V8_of m (outsH m) c b (List.mem_singleton.not.mpr fun e =>
    hb (Finset.mem_image.mpr ⟨2, Finset.mem_univ _, e.symm⟩))

set_option backward.isDefEq.respectTransparency.types false in
/-- Call 0 as a segment: entered from every unscoped buffer at the contents before it, left at those contents with the
    output array replaced by the fold of the write-backs. Its arrays are split out of the unscoped buffers on entry and
    put back on exit; the generator register goes into the invariant and comes out; nothing is owed. -/
def reg0 : Pipeline.RegionSeg (pcfgs (F := F)) adm (pdatsH m) () defs₀ Variants.none Lnone lvz 0 where
  win := launch0.win.to₀
  block_pos := launch0.block_pos
  stage_whole := launch0.stage_whole
  K := PEmpty
  osem k := k.elim
  ho := Pipeline.OwnSemFacts.none _
  hbody c := (body_obligation0 (ent0 m) c).loose
  hwaits := Pipeline.hwaits_of_owed_zero _ _ _ _ Lnone lvz 0 fun _ _ => rfl
  pre c := iprop(StableHlo.held (c : Thread nD τ) (Pipeline.ucRefs τ sig) (V7 m c) ∗ Rst (F := F) c)
  post c := iprop(StableHlo.held (c : Thread nD τ) (Pipeline.ucRefs τ sig) (V8 m (outsH m) c) ∗ Rst (F := F) c)
  X c := iprop(∃ r, prngReg c r)
  Y c := iprop(∃ r, prngReg c r)
  Z c := Pipeline.unscopedRest (Ix := Unit) (Name := ℕ) (U := UR sig nD τ) (Lvl := ℕ) spec0 c (ent0 m c)
  hentry c := by
    rw [Pipeline.ownSems0_none]
    have hsplit := Pipeline.arrays_of_unscopedBufs (p := 0) (pcfgs (F := F)) adm (pdatsH m) launch0.win launch0.arr_whole c
      ((pdatsH m 0 c).share_full fun _ => rfl) (ent0 m c) fun _ => rfl
    rw [Pipeline.unscopedBufs_held] at hsplit
    replace hsplit : (StableHlo.held (c : Thread nD τ) (Pipeline.ucRefs τ sig) (V7 m c) : sProp 𝕄)
        ⊢ iprop((pdatsH m 0 c).arrays ((pdatsH m 0 c).arrAt · 0)
          ∗ Pipeline.unscopedRest (Ix := Unit) (Name := ℕ) (U := UR sig nD τ) (Lvl := ℕ) spec0 c (ent0 m c)) := hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (?_ : _ ⊢ Pipeline.ΦA spec0 c).trans (hin0 (ent0 m) c)
    unfold Pipeline.ΦA
    iintro ⟨Hp, -, Hr⟩
    isplitl [Hr]; · iexact Hr
    iexact Hp
  hout c := by
    rw [Pipeline.ownSems0_none]
    refine (hout0 (ent0 m) c).trans (?_ : Pipeline.ΦA spec0 c ⊢ _)
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdatsH m) ((pdatsH m 0 c).share_full fun _ => rfl)
      (ent0 m c) (fun b => V8 m (outsH m) c b) ((pdatsH m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Call 1 -/

/-- At call 1's exit each of its arrays holds what the pipeline leaves: an input's array is never written, so it is what
    the call was entered with, which the replacement of the output array does not touch; the output array is the replaced one. -/
theorem hF1 (c : Dev nD) : ∀ w : Fin cfg1.W, (dat1 (ent1 m) c).arrAt w cfg1.N = V9 m (outsH m) c (Pipeline.arrRef spec1 w)
  | ⟨0, _⟩ => ((dat1 (ent1 m) c).arrAt_in 0 rfl _).trans ((A_eq1 (ent1 m) c 0).trans (V9_of m (outsH m) c _ (by decide)).symm)
  | ⟨1, _⟩ => ((dat1 (ent1 m) c).arrAt_in 1 rfl _).trans ((A_eq1 (ent1 m) c 1).trans (V9_of m (outsH m) c _ (by decide)).symm)
  | ⟨2, _⟩ => ((dat1 (ent1 m) c).arrAt_in 2 rfl _).trans ((A_eq1 (ent1 m) c 2).trans (V9_of m (outsH m) c _ (by decide)).symm)
  | ⟨3, _⟩ => (outs9_eq m c).symm.trans
      (Function.update_self (Proc.devRef .tc main_v21 : DevRef τ sig) (outsH m 9 main_v21 c) (V8 m (outsH m) c)).symm

/-- Every buffer that is no array of call 1 is as the call was entered: only the output array is replaced. -/
theorem hrest1 (c : Dev nD) : ∀ b, b ∉ Finset.univ.image (Pipeline.arrRef spec1) → V9 m (outsH m) c b = ent1 m c b :=
  fun b hb => V9_of m (outsH m) c b (List.mem_singleton.not.mpr fun e =>
    hb (Finset.mem_image.mpr ⟨3, Finset.mem_univ _, e.symm⟩))

set_option backward.isDefEq.respectTransparency.types false in
/-- Call 1 as a segment: entered from every unscoped buffer at the contents before it, left at those contents with the
    output array replaced by the fold of the write-backs. Its arrays are split out of the unscoped buffers on entry and
    put back on exit; the generator register goes into the invariant and comes out; nothing is owed. -/
def reg1 : Pipeline.RegionSeg (pcfgs (F := F)) adm (pdatsH m) () defs₀ Variants.none Lnone lvz 1 where
  win := launch1.win.to₀
  block_pos := launch1.block_pos
  stage_whole := launch1.stage_whole
  K := PEmpty
  osem k := k.elim
  ho := Pipeline.OwnSemFacts.none _
  hbody c := (body_obligation1 (ent1 m) c).loose
  hwaits := Pipeline.hwaits_of_owed_zero _ _ _ _ Lnone lvz 1 fun _ _ => rfl
  pre c := iprop(StableHlo.held (c : Thread nD τ) (Pipeline.ucRefs τ sig) (V8 m (outsH m) c) ∗ Rst (F := F) c)
  post c := iprop(StableHlo.held (c : Thread nD τ) (Pipeline.ucRefs τ sig) (V9 m (outsH m) c) ∗ Rst (F := F) c)
  X c := iprop(∃ r, prngReg c r)
  Y c := iprop(∃ r, prngReg c r)
  Z c := Pipeline.unscopedRest (Ix := Unit) (Name := ℕ) (U := UR sig nD τ) (Lvl := ℕ) spec1 c (ent1 m c)
  hentry c := by
    rw [Pipeline.ownSems0_none]
    have hsplit := Pipeline.arrays_of_unscopedBufs (p := 1) (pcfgs (F := F)) adm (pdatsH m) launch1.win launch1.arr_whole c
      ((pdatsH m 1 c).share_full fun _ => rfl) (ent1 m c) fun _ => rfl
    rw [Pipeline.unscopedBufs_held] at hsplit
    replace hsplit : (StableHlo.held (c : Thread nD τ) (Pipeline.ucRefs τ sig) (V8 m (outsH m) c) : sProp 𝕄)
        ⊢ iprop((pdatsH m 1 c).arrays ((pdatsH m 1 c).arrAt · 0)
          ∗ Pipeline.unscopedRest (Ix := Unit) (Name := ℕ) (U := UR sig nD τ) (Lvl := ℕ) spec1 c (ent1 m c)) := hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (?_ : _ ⊢ Pipeline.ΦA spec1 c).trans (hin1 (ent1 m) c)
    unfold Pipeline.ΦA
    iintro ⟨Hp, -, Hr⟩
    isplitl [Hr]; · iexact Hr
    iexact Hp
  hout c := by
    rw [Pipeline.ownSems0_none]
    refine (hout1 (ent1 m) c).trans (?_ : Pipeline.ΦA spec1 c ⊢ _)
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdatsH m) ((pdatsH m 1 c).share_full fun _ => rfl)
      (ent1 m c) (fun b => V9 m (outsH m) c b) ((pdatsH m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Call 2 -/

/-- At call 2's exit each of its arrays holds what the pipeline leaves: an input's array is never written, so it is what
    the call was entered with, which the replacement of the output array does not touch; the output array is the replaced one. -/
theorem hF2 (c : Dev nD) : ∀ w : Fin cfg2.W, (dat2 (ent2 m) c).arrAt w cfg2.N = V11 m (outsH m) c (Pipeline.arrRef spec2 w)
  | ⟨0, _⟩ => ((dat2 (ent2 m) c).arrAt_in 0 rfl _).trans ((A_eq2 (ent2 m) c 0).trans (V11_of m (outsH m) c _ (by decide)).symm)
  | ⟨1, _⟩ => ((dat2 (ent2 m) c).arrAt_in 1 rfl _).trans ((A_eq2 (ent2 m) c 1).trans (V11_of m (outsH m) c _ (by decide)).symm)
  | ⟨2, _⟩ => ((dat2 (ent2 m) c).arrAt_in 2 rfl _).trans ((A_eq2 (ent2 m) c 2).trans (V11_of m (outsH m) c _ (by decide)).symm)
  | ⟨3, _⟩ => ((dat2 (ent2 m) c).arrAt_in 3 rfl _).trans ((A_eq2 (ent2 m) c 3).trans (V11_of m (outsH m) c _ (by decide)).symm)
  | ⟨4, _⟩ => ((dat2 (ent2 m) c).arrAt_in 4 rfl _).trans ((A_eq2 (ent2 m) c 4).trans (V11_of m (outsH m) c _ (by decide)).symm)
  | ⟨5, _⟩ => ((dat2 (ent2 m) c).arrAt_in 5 rfl _).trans ((A_eq2 (ent2 m) c 5).trans (V11_of m (outsH m) c _ (by decide)).symm)
  | ⟨6, _⟩ => ((dat2 (ent2 m) c).arrAt_in 6 rfl _).trans ((A_eq2 (ent2 m) c 6).trans (V11_of m (outsH m) c _ (by decide)).symm)
  | ⟨7, _⟩ => (outs11_eq m c).symm.trans
      (Function.update_self (Proc.devRef .tc main_v27 : DevRef τ sig) (outsH m 11 main_v27 c) (V10 m (outsH m) c)).symm

/-- Every buffer that is no array of call 2 is as the call was entered: only the output array is replaced. -/
theorem hrest2 (c : Dev nD) : ∀ b, b ∉ Finset.univ.image (Pipeline.arrRef spec2) → V11 m (outsH m) c b = ent2 m c b :=
  fun b hb => V11_of m (outsH m) c b (List.mem_singleton.not.mpr fun e =>
    hb (Finset.mem_image.mpr ⟨7, Finset.mem_univ _, e.symm⟩))

set_option backward.isDefEq.respectTransparency.types false in
/-- Call 2 as a segment: entered from every unscoped buffer at the contents before it, left at those contents with the
    output array replaced by the fold of the write-backs. Its arrays are split out of the unscoped buffers on entry and
    put back on exit; the generator register goes into the invariant and comes out; nothing is owed. -/
def reg2 : Pipeline.RegionSeg (pcfgs (F := F)) adm (pdatsH m) () defs₀ Variants.none Lnone lvz 2 where
  win := launch2.win.to₀
  block_pos := launch2.block_pos
  stage_whole := launch2.stage_whole
  K := PEmpty
  osem k := k.elim
  ho := Pipeline.OwnSemFacts.none _
  hbody c := (body_obligation2 (ent2 m) c).loose
  hwaits := Pipeline.hwaits_of_owed_zero _ _ _ _ Lnone lvz 2 fun _ _ => rfl
  pre c := iprop(StableHlo.held (c : Thread nD τ) (Pipeline.ucRefs τ sig) (V10 m (outsH m) c) ∗ Rst (F := F) c)
  post c := iprop(StableHlo.held (c : Thread nD τ) (Pipeline.ucRefs τ sig) (V11 m (outsH m) c) ∗ Rst (F := F) c)
  X c := iprop(∃ r, prngReg c r)
  Y c := iprop(∃ r, prngReg c r)
  Z c := Pipeline.unscopedRest (Ix := Unit) (Name := ℕ) (U := UR sig nD τ) (Lvl := ℕ) spec2 c (ent2 m c)
  hentry c := by
    rw [Pipeline.ownSems0_none]
    have hsplit := Pipeline.arrays_of_unscopedBufs (p := 2) (pcfgs (F := F)) adm (pdatsH m) launch2.win launch2.arr_whole c
      ((pdatsH m 2 c).share_full fun _ => rfl) (ent2 m c) fun _ => rfl
    rw [Pipeline.unscopedBufs_held] at hsplit
    replace hsplit : (StableHlo.held (c : Thread nD τ) (Pipeline.ucRefs τ sig) (V10 m (outsH m) c) : sProp 𝕄)
        ⊢ iprop((pdatsH m 2 c).arrays ((pdatsH m 2 c).arrAt · 0)
          ∗ Pipeline.unscopedRest (Ix := Unit) (Name := ℕ) (U := UR sig nD τ) (Lvl := ℕ) spec2 c (ent2 m c)) := hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdatsH m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdatsH m) ((pdatsH m 2 c).share_full fun _ => rfl)
      (ent2 m c) (fun b => V11 m (outsH m) c b) ((pdatsH m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Launch.lean ====
/-
  The three calls' records and the host stretches, launched: the whole program runs, its result buffer ends at what the
  last host stretch computes from what the calls left, and its arguments are unchanged.
-/
import proofs.«427921_j16320875725295_2_alg».proof.Proof.KI.Regs

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the launch deals a core, less its buffers, makes the state that rides through the segments. -/
theorem rst_of_launch (c : Dev nD) :
    (iprop(unscopedSems0 c ∗ owes (c : Thread nD τ) ((0 : Dev nD → CellTallies nD τ sig Unit) c) ∅
        ∗ Pipeline.launchCred (0 : Dev nD → CellTallies nD τ sig Unit) c ∗ prngReg c (ρ c) ∗ (BI.emp : sProp 𝕄)) : sProp 𝕄)
      ⊢ Rst (F := F) c := by
  iintro ⟨-, HO, -, Hp, -⟩
  isplitl [Hp]
  · iexists _; iexact Hp
  iexists ∅; iexact HO

set_option backward.isDefEq.respectTransparency.types false in
/-- THE RUN. From any memory with zero counters every weakly fair execution of the program terminates, nothing
    faulting; the result buffer ends at the last host stretch's value of what the calls left, every argument as
    launched. -/
theorem run_val : θ_run defs (onTc (τ := τ) (main (F := F))) ⟨m, fun _ => 0, ρ⟩ (fun r => ∀ c : Dev nD,
      r.2.mem ((c.tc : Thread nD τ).loc main_v28) = V12 m (outsH m) c main_v28
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  run_cond (F := F) m emb₁ () Variants.none Lnone lvz (fun _ _ => rfl) ρ (outsH m) (pdatsH m)
    (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => Rst (F := F) c)
    (hE0 := by
      have hmono : (bigSep Finset.univ fun c : Dev nD => iprop(unscopedSems0 c
            ∗ owes (c : Thread nD τ) ((0 : Dev nD → CellTallies nD τ sig Unit) c) ∅
            ∗ Pipeline.launchCred (0 : Dev nD → CellTallies nD τ sig Unit) c ∗ prngReg c (ρ c) ∗ (BI.emp : sProp 𝕄)))
          ⊢ (bigSep Finset.univ fun c : Dev nD => Rst (F := F) c : sProp 𝕄) :=
        bigSep_mono fun c _ => rst_of_launch (F := F) ρ c
      iintro ⟨H, -⟩
      imodintro
      iapply hmono
      iexact H)
    (hE3 := fun c => by
      iintro ⟨-, HO⟩
      iexact HO)
    (reg0 m) (fun c => .rfl) (fun c => .rfl)
    (reg1 m) (fun c => .rfl) (fun c => .rfl)
    (reg2 m) (fun c => .rfl) (fun c => .rfl)

end Cert.KernelIdeal.Hand

end
-- ==== Proof.Val.Spec.lean ====
/-
  The mathematics of the three kernel calls, each as one whole-array function of the arrays it reads, index by index
  over the extended reals.

  * `gathered`: column `e` of the gathered (transposed) features is column `src e` of the transposed, padded
    feature table when the source id names one of its 50176 columns, and zero otherwise: the product of the table
    with the indicator matrix "node id = source id" keeps exactly one term of each sum.
  * `scattered`: entry `(k, n)` of the aggregated (transposed) features is the sum, over the edges whose destination
    id is `n`, of entry `k` of the edge's gathered column, times the reciprocal degree of `n`.
  * `dense2`: two dense layers with a rectifier after each; the first reads the node's own features and its
    aggregated features through the two halves of the first weight matrix.
-/
import Idealize.ShloMosaic.PureOps.Ideal
import Idealize.ShloMosaic.Lib.ValueIdx

noncomputable section

namespace Cert.Spec

open Idealize.ShloMosaic Idealize.ShloMosaic.ValueIdx
open scoped BigOperators

abbrev SrcRow : Shape := ⟨2, ![1, 802816]⟩
abbrev TblT : Shape := ⟨2, ![128, 50176]⟩
abbrev GathT : Shape := ⟨2, ![128, 802816]⟩
abbrev DegRow : Shape := ⟨2, ![1, 50176]⟩
abbrev Tbl : Shape := ⟨2, ![50176, 128]⟩
abbrev Sq : Shape := ⟨2, ![128, 128]⟩
abbrev Row : Shape := ⟨2, ![1, 128]⟩

/-- Column `e` of the gathered features: the table's column the source id names, or zero when it names none. -/
def gathered (src : SrcRow.Idx → BitVec 32) (tblT : TblT.Idx → EReal) : GathT.Idx → EReal :=
  fun j => if h : (src (ix2 (0 : Fin 1) (j 1))).toNat < 50176
    then tblT (ix2 (j 0) ⟨(src (ix2 (0 : Fin 1) (j 1))).toNat, h⟩) else 0

/-- Entry `(k, n)` of the aggregated features: the gathered entries `k` of the edges whose destination id is `n`,
    summed, times the reciprocal degree of `n`. -/
def scattered (dst : SrcRow.Idx → BitVec 32) (g : GathT.Idx → EReal) (rdeg : DegRow.Idx → EReal) : TblT.Idx → EReal :=
  fun j => (∑ e ∈ Finset.univ.filter (fun e : Fin 802816 => (dst (ix2 (0 : Fin 1) e)).toNat = (j 1).val), g (ix2 (j 0) e))
    * rdeg (ix2 (0 : Fin 1) (j 1))

/-- The two dense layers at row `n`, column `j`. -/
def dense2 (x agg : Tbl.Idx → EReal) (w1x w1a : Sq.Idx → EReal) (b1 : Row.Idx → EReal) (w2 : Sq.Idx → EReal)
    (b2 : Row.Idx → EReal) : Tbl.Idx → EReal :=
  fun j => max ((∑ k : Fin 128,
      max (((∑ a : Fin 128, x (ix2 (j 0) a) * w1x (ix2 a k)) + (∑ a : Fin 128, agg (ix2 (j 0) a) * w1a (ix2 a k)))
        + b1 (ix2 (0 : Fin 1) k)) 0 * w2 (ix2 k (j 1))) + b2 (ix2 (0 : Fin 1) (j 1))) 0

/-! ## The whole layer, as a function of the arguments -/

abbrev Feat : Shape := ⟨2, ![50000, 128]⟩
abbrev Edges : Shape := ⟨2, ![2, 800000]⟩
abbrev W1S : Shape := ⟨2, ![256, 128]⟩
abbrev Vec128 : Shape := ⟨1, ![128]⟩

/-- The edges whose destination id, read as a signed integer, is `n`. -/
def into (ei : Edges.Idx → BitVec 32) (n : ℕ) : Finset (Fin 800000) :=
  Finset.univ.filter (fun e : Fin 800000 => (ei (ix2 (1 : Fin 2) e)).toInt = (n : ℤ))

/-- The number of edges into node `n`, as a sum of ones. -/
def indeg (ei : Edges.Idx → BitVec 32) (n : ℕ) : EReal := ∑ _e ∈ into ei n, (1 : EReal)

/-- Entry `a` of the feature row the source id of edge `e` names (zero when it names no row). -/
def srcRow (h : Feat.Idx → EReal) (ei : Edges.Idx → BitVec 32) (e : Fin 800000) (a : Fin 128) : EReal :=
  if hs : (ei (ix2 (0 : Fin 2) e)).toNat < 50000 then h (ix2 ⟨(ei (ix2 (0 : Fin 2) e)).toNat, hs⟩ a) else 0

/-- The degree-normalised sum of the source rows over the edges into node `n`. -/
def meanIn (h : Feat.Idx → EReal) (ei : Edges.Idx → BitVec 32) (n : Fin 50000) (a : Fin 128) : EReal :=
  (∑ e ∈ into ei n.val, srcRow h ei e a) * Ideal.div 1 (max (indeg ei n.val) 1)

/-- The layer's result at row `n`, column `j`: the first dense layer reads the node's features through the upper half
    of the first weight matrix and its normalised neighbourhood sum through the lower half. -/
def layer (h : Feat.Idx → EReal) (ei : Edges.Idx → BitVec 32) (w1 : W1S.Idx → EReal) (b1 : Vec128.Idx → EReal)
    (w2 : Sq.Idx → EReal) (b2 : Vec128.Idx → EReal) : Feat.Idx → EReal :=
  fun j => max ((∑ k : Fin 128,
      max (((∑ a : Fin 128, h (ix2 (j 0) a) * w1 (ix2 (⟨a.val, by omega⟩ : Fin 256) k))
          + (∑ a : Fin 128, meanIn h ei (j 0) a * w1 (ix2 (⟨128 + a.val, by omega⟩ : Fin 256) k)))
        + b1 (ix1 k)) 0 * w2 (ix2 k (j 1))) + b2 (ix1 (j 1))) 0

end Cert.Spec

end
-- ==== Proof.LibDenseLayer.lean ====
/-
  One dense layer followed by rectification, at the ideal values.

  For a matrix `a` of `B` rows and `K` columns and a weight matrix `w` of `N` rows and `K` columns the layer is

      denseRelu a w (r, n) = max (Σ_k a (r, k) · w (n, k)) 0 ,

  i.e. `relu (a · wᵀ)`.  Row `r` of the result depends on row `r` of `a` alone, and column `n` on row `n` of `w`
  alone (`denseRelu_congr`): a block of rows of the result is the layer of that block of rows.

  Two printed spellings of it are read to this form.  Both contract ONE axis, of extent `K`, and the sum over the
  contraction index is re-indexed to `Fin K` through its one coordinate (`contraction_sum`):

  * a kernel's matrix product accumulated into the zero splat, the weight's SECOND axis contracted, then the
    maximum with the zero splat (`matmul_relu_eq`);
  * the host's `dot_general` of `a` with the TRANSPOSE of `w` (so the transpose's FIRST axis is contracted), then the
    maximum with the broadcast zero constant (`dot_transpose_relu_eq`).

  What the two need of the dimension numbers is stated as hypotheses on the operand index maps, coordinate by
  coordinate; for a literal record each is decided by unfolding.  Only `0 + x = x` is used of the arithmetic, so
  both hold at the infinities too.
-/
import Idealize.ShloMosaic.PureOps.Ideal.Laws
import Idealize.ShloMosaic.Lib.ValueIdx
import Idealize.ShloMosaic.Lib.Pipeline.Value

noncomputable section

namespace Cert.Lib

open Idealize.ShloMosaic Idealize.ShloMosaic.ValueIdx
open scoped BigOperators

/-- `relu (a · wᵀ)` on extended reals: entry `(r, n)` is `max (Σ_k a (r, k) · w (n, k)) 0`. -/
def denseRelu {B K N : Nat} (a : (⟨2, ![B, K]⟩ : Shape).Idx → EReal) (w : (⟨2, ![N, K]⟩ : Shape).Idx → EReal) :
    (⟨2, ![B, N]⟩ : Shape).Idx → EReal :=
  fun i => max (∑ k : Fin K, a (ix2 (i 0 : Fin B) k) * w (ix2 (i 1 : Fin N) k)) 0

theorem denseRelu_apply {B K N : Nat} (a : (⟨2, ![B, K]⟩ : Shape).Idx → EReal) (w : (⟨2, ![N, K]⟩ : Shape).Idx → EReal)
    (r : Fin B) (n : Fin N) : denseRelu a w (ix2 r n) = max (∑ k : Fin K, a (ix2 r k) * w (ix2 n k)) 0 := rfl

/-- An entry of the layer depends on one row of each operand: equal rows give equal entries, whatever the two
    operands' other rows (and numbers of rows) are. -/
theorem denseRelu_congr {B B' K N N' : Nat} (a : (⟨2, ![B, K]⟩ : Shape).Idx → EReal) (a' : (⟨2, ![B', K]⟩ : Shape).Idx → EReal)
    (w : (⟨2, ![N, K]⟩ : Shape).Idx → EReal) (w' : (⟨2, ![N', K]⟩ : Shape).Idx → EReal)
    (r : Fin B) (r' : Fin B') (n : Fin N) (n' : Fin N')
    (ha : ∀ k : Fin K, a (ix2 r k) = a' (ix2 r' k)) (hw : ∀ k : Fin K, w (ix2 n k) = w' (ix2 n' k)) :
    denseRelu a w (ix2 r n) = denseRelu a' w' (ix2 r' n') := by
  rw [denseRelu_apply, denseRelu_apply]
  exact congrArg (fun t => max t 0) (Finset.sum_congr rfl fun k _ => by rw [ha k, hw k])

/-- A ONE-AXIS CONTRACTION AS A SUM OVER `Fin K`: if at the result index `j` the two operands, read at the operand
    indices of the contraction position `q`, are `L` and `R` of `q`'s one coordinate, the contraction's sum is
    `Σ_k L k · R k`. -/
theorem contraction_sum {sl sr so : Shape} (d : DotDims sl sr so) (K : Nat) (hrk : d.contr.rank = 1)
    (hsz : d.contr.size ⟨0, by omega⟩ = K) (lhs : sl.Idx → EReal) (rhs : sr.Idx → EReal) (j : so.Idx) (L R : Fin K → EReal)
    (hl : ∀ q : d.contr.Idx, lhs (d.lhsIdx j q) = L ((q ⟨0, by omega⟩).cast hsz))
    (hr : ∀ q : d.contr.Idx, rhs (d.rhsIdx j q) = R ((q ⟨0, by omega⟩).cast hsz)) :
    ∑ q : d.contr.Idx, lhs (d.lhsIdx j q) * rhs (d.rhsIdx j q) = ∑ k : Fin K, L k * R k :=
  (Finset.sum_congr rfl fun q _ => by rw [hl q, hr q]; rfl).trans
    (Equiv.sum_comp (contrEquiv1 d K hrk hsz) fun k => L k * R k)

section Kernel
variable {B K N : Nat} {φ₁ φ₂ : FTy} (d : DotDims ⟨2, ![B, K]⟩ ⟨2, ![N, K]⟩ ⟨2, ![B, N]⟩)
  (hrk : d.contr.rank = 1) (hsz : d.contr.size ⟨0, by omega⟩ = K)
  (hl0 : ∀ (j : (⟨2, ![B, N]⟩ : Shape).Idx) (q : d.contr.Idx), (d.lhsIdx j q 0).val = (j 0).val)
  (hl1 : ∀ (j : (⟨2, ![B, N]⟩ : Shape).Idx) (q : d.contr.Idx), (d.lhsIdx j q 1).val = (q ⟨0, by omega⟩).val)
  (hr0 : ∀ (j : (⟨2, ![B, N]⟩ : Shape).Idx) (q : d.contr.Idx), (d.rhsIdx j q 0).val = (j 1).val)
  (hr1 : ∀ (j : (⟨2, ![B, N]⟩ : Shape).Idx) (q : d.contr.Idx), (d.rhsIdx j q 1).val = (q ⟨0, by omega⟩).val)

include hrk hsz hl0 hl1 hr0 hr1 in
/-- THE KERNEL'S LAYER: the product of `a` (rows × `K`) with `w` (columns × `K`, its second axis contracted)
    accumulated into the zero splat, then the maximum with the zero splat, is `denseRelu a w`. -/
theorem matmul_relu_eq (a : FVec Ideal ⟨2, ![B, K]⟩ φ₁) (w : FVec Ideal ⟨2, ![N, K]⟩ φ₂) :
    maximumf (matmul d none a w (constant ⟨2, ![B, N]⟩ .f32 0x00000000#32))
        (broadcast ⟨2, ![B, N]⟩ (Scalar.ofBits (F := Ideal) .f32 0x00000000#32))
      = denseRelu a w := by
  funext j
  show max (FloatOps.matmul d none a w (constant ⟨2, ![B, N]⟩ .f32 0x00000000#32) j) (Ideal.ofBits .f32 0x00000000#32) = _
  rw [Ideal.matmul_constant_zero_apply, Ideal.ofBits_zero_f32,
    contraction_sum d K hrk hsz a w j (fun k => a (ix2 (j 0 : Fin B) k)) (fun k => w (ix2 (j 1 : Fin N) k))
      (fun q => congrArg a (funext fun ax => Fin.ext (by
        match ax with
        | ⟨0, _⟩ => exact hl0 j q
        | ⟨1, _⟩ => exact hl1 j q)))
      (fun q => congrArg w (funext fun ax => Fin.ext (by
        match ax with
        | ⟨0, _⟩ => exact hr0 j q
        | ⟨1, _⟩ => exact hr1 j q)))]
  rfl

end Kernel

section Host
variable {B K N : Nat} {φ₁ φ₂ : FTy} (d : DotDims ⟨2, ![B, K]⟩ ⟨2, ![K, N]⟩ ⟨2, ![B, N]⟩)
  (hrk : d.contr.rank = 1) (hsz : d.contr.size ⟨0, by omega⟩ = K)
  (hl0 : ∀ (j : (⟨2, ![B, N]⟩ : Shape).Idx) (q : d.contr.Idx), (d.lhsIdx j q 0).val = (j 0).val)
  (hl1 : ∀ (j : (⟨2, ![B, N]⟩ : Shape).Idx) (q : d.contr.Idx), (d.lhsIdx j q 1).val = (q ⟨0, by omega⟩).val)
  (hr0 : ∀ (j : (⟨2, ![B, N]⟩ : Shape).Idx) (q : d.contr.Idx), (d.rhsIdx j q 0).val = (q ⟨0, by omega⟩).val)
  (hr1 : ∀ (j : (⟨2, ![B, N]⟩ : Shape).Idx) (q : d.contr.Idx), (d.rhsIdx j q 1).val = (j 1).val)

include hrk hsz hl0 hl1 hr0 hr1 in
/-- THE HOST'S LAYER: `dot_general` of `a` (rows × `K`) with the transpose of `w` (`K` × columns, its first axis
    contracted), then the maximum with the zero constant broadcast, is `denseRelu a w`. -/
theorem dot_transpose_relu_eq (ht : (⟨2, ![N, K]⟩ : Shape).Transposes [1, 0] ⟨2, ![K, N]⟩)
    (hb : (⟨0, ![]⟩ : Shape).BroadcastsInDim ⟨2, ![B, N]⟩ (![] : Fin 0 → Fin 2))
    (a : FVec Ideal ⟨2, ![B, K]⟩ φ₁) (w : FVec Ideal ⟨2, ![N, K]⟩ φ₂) :
    maximumf (Host.dotGeneral d none a (transpose ⟨2, ![K, N]⟩ [1, 0] w ht))
        (broadcastInDim ⟨2, ![B, N]⟩ ![] hb (constant (F := Ideal) ⟨0, ![]⟩ .f32 0x00000000#32))
      = denseRelu a w := by
  funext j
  show max (FloatOps.dotGeneral d none .single a (transpose ⟨2, ![K, N]⟩ [1, 0] w ht) j) (Ideal.ofBits .f32 0x00000000#32) = _
  rw [Ideal.dotGeneral_apply, Ideal.ofBits_zero_f32,
    contraction_sum d K hrk hsz a (transpose ⟨2, ![K, N]⟩ [1, 0] w ht) j (fun k => a (ix2 (j 0 : Fin B) k))
      (fun k => w (ix2 (j 1 : Fin N) k))
      (fun q => congrArg a (funext fun ax => Fin.ext (by
        match ax with
        | ⟨0, _⟩ => exact hl0 j q
        | ⟨1, _⟩ => exact hl1 j q)))
      (fun q => transpose_apply [1, 0] w ht (d.rhsIdx j q) (ix2 (j 1 : Fin N) ((q ⟨0, by omega⟩).cast hsz)) (fun b => by
        match b with
        | ⟨0, _⟩ => exact (hr0 j q).symm
        | ⟨1, _⟩ => exact (hr1 j q).symm))]
  rfl

end Host

end Cert.Lib

end
-- ==== Proof.Val.Gather.lean ====
/-
  Call 0 as one whole-array function: after its last write-back the gathered array holds, in column e, the column of the
  transposed padded feature table that the source id of edge e names, and zero when the id names none.
-/
import proofs.«427921_j16320875725295_2_alg».proof.Proof.KI.Data
import proofs.«427921_j16320875725295_2_alg».proof.Proof.Val.Spec
import proofs.«427921_j16320875725295_2_alg».proof.Proof.LibDenseLayer
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Val

open Idealize.ShloMosaic Idealize.ShloMosaic.TcCoe Idealize.ShloMosaic.ValueIdx
open Idealize.SL Idealize.SL.Sem
open Cert.KernelIdeal Cert.KernelIdeal.Gen Cert.KernelIdeal.Hand
open Idealize.ShloMosaic.Pipeline (Dat)
open scoped BigOperators

/-! ## The step's contraction, index map by index map -/

abbrev DG := dot_S128x1024_S1024x8192_S128x8192_1_0_0_1_n_n

theorem DG_rank : DG.contr.rank = 1 := by decide
theorem DG_size : DG.contr.size ⟨0, by decide⟩ = 1024 := by decide

theorem DG_lhs0 (j : S128x8192.Idx) (k : DG.contr.Idx) : (DG.lhsIdx j k 0 : ℕ) = j 0 := by
  simp [DotDims.lhsIdx, DG, dot_S128x1024_S1024x8192_S128x8192_1_0_0_1_n_n]; rfl
theorem DG_lhs1 (j : S128x8192.Idx) (k : DG.contr.Idx) : (DG.lhsIdx j k 1 : ℕ) = k ⟨0, by decide⟩ := by
  simp [DotDims.lhsIdx, DG, dot_S128x1024_S1024x8192_S128x8192_1_0_0_1_n_n]; rfl
theorem DG_rhs0 (j : S128x8192.Idx) (k : DG.contr.Idx) : (DG.rhsIdx j k 0 : ℕ) = k ⟨0, by decide⟩ := by
  simp [DotDims.rhsIdx, DG, dot_S128x1024_S1024x8192_S128x8192_1_0_0_1_n_n]; rfl
theorem DG_rhs1 (j : S128x8192.Idx) (k : DG.contr.Idx) : (DG.rhsIdx j k 1 : ℕ) = j 1 := by
  simp [DotDims.rhsIdx, DG, dot_S128x1024_S1024x8192_S128x8192_1_0_0_1_n_n]; rfl

/-- A column broadcast along the rows: entry (r, c) of the broadcast is entry (r, 0) of the column. -/
theorem broadcastTo_a1_ab_apply {α : Type} {a b : ℕ} (v : (⟨2, ![a, 1]⟩ : Shape).Idx → α) (h : (⟨2, ![a, 1]⟩ : Shape).Broadcasts ⟨2, ![a, b]⟩)
    (r : Fin a) (c : Fin b) : broadcastTo ⟨2, ![a, b]⟩ v h (ix2 r c) = v (ix2 r (0 : Fin 1)) := by
  refine broadcastTo_apply v h (ix2 r c) (ix2 r (0 : Fin 1)) fun ax => ?_
  match ax with
  | ⟨0, _⟩ =>
    show r.val = if a = 1 then 0 else r.val
    split
    · have := r.isLt; omega
    · rfl
  | ⟨1, _⟩ => rfl

/-- The indicator entry: the comparison bit of two words, widened and read as a number. -/
theorem indicator_eq (a b : BitVec 32) :
    (FloatOps.sitofp (F := Ideal) .f32 ((IntOp.cmpi .eq a b).setWidth 32) : EReal) = if a = b then 1 else 0 := by
  show (((((IntOp.cmpi .eq a b).setWidth 32).toInt : ℝ)) : EReal) = _
  by_cases h : a = b
  · subst h
    rw [if_pos rfl]
    simp [IntOp.cmpi]
  · rw [if_neg h]
    have hb : (a == b) = false := by simpa using h
    simp [IntOp.cmpi, hb]

/-- What one grid point adds to the accumulator, entry by entry: the feature block contracted with the indicator
    of "the word of the source id equals the word of the node number". -/
theorem gatherStep_apply (i : grid0.Coords) (ni : ℕ) (hi : (i (1 : Fin 2)).val = ni) (v7 : Vec Ideal S1x8192 .i32) (v15 : Vec Ideal S128x1024 .bf16)
    (v17 : Vec Ideal S128x8192 .f32) (p : Fin 128) (q : Fin 8192) :
    k0_pay2 i v7 v15 v17 (ix2 p q)
      = v17 (ix2 p q) + ∑ r : Fin 1024, v15 (ix2 p r)
          * (if IntOp.addi (Scalar.muli (BitVec.ofNat 32 ni) 1024#32) (BitVec.ofNat 32 r.val) = v7 (ix2 (0 : Fin 1) q)
              then 1 else 0) := by
  subst hi
  unfold k0_pay2
  simp only [shapeCast_self, matmul]
  rw [addf_apply, Ideal.matmul_constant_zero_apply]
  congr 1
  refine Cert.Lib.contraction_sum DG 1024 DG_rank DG_size _ _ (ix2 p q) (fun r => v15 (ix2 p r))
    (fun r => if IntOp.addi (Scalar.muli (BitVec.ofNat 32 (i 1).val) 1024#32) (BitVec.ofNat 32 r.val) = v7 (ix2 (0 : Fin 1) q) then 1 else 0)
    (fun k => congrArg v15 (funext fun ax => Fin.ext (by
        match ax with
        | ⟨0, _⟩ => exact DG_lhs0 _ k
        | ⟨1, _⟩ => exact DG_lhs1 _ k))) (fun k => ?_)
  have hidx : DG.rhsIdx (ix2 p q) k = ix2 ((k ⟨0, by decide⟩).cast DG_size) q := funext fun ax => Fin.ext (by
    match ax with
    | ⟨0, _⟩ => exact DG_rhs0 _ k
    | ⟨1, _⟩ => exact DG_rhs1 _ k)
  rw [hidx]
  show FloatOps.sitofp (F := Ideal) .f32 ((IntOp.cmpi .eq
      (broadcastTo S1024x8192 (addi (broadcast S1024x1 (Scalar.muli (BitVec.ofNat 32 (i 1).val) 1024#32)) (iota .tc S1024x1 32 [0] iota_S1024x1_d0_w32)) broadcasts_S1024x1_S1024x8192 (ix2 ((k ⟨0, by decide⟩).cast DG_size) q))
      (broadcastTo S1024x8192 v7 broadcasts_S1x8192_S1024x8192 (ix2 ((k ⟨0, by decide⟩).cast DG_size) q))).setWidth 32) = _
  rw [broadcastTo_a1_ab_apply, broadcastTo_1b_ab_apply, indicator_eq]
  show (if IntOp.addi (Scalar.muli (BitVec.ofNat 32 (i 1).val) 1024#32) (iota .tc S1024x1 32 [0] iota_S1024x1_d0_w32 (ix2 ((k ⟨0, by decide⟩).cast DG_size) (0 : Fin 1))) = v7 (ix2 (0 : Fin 1) q) then (1 : EReal) else 0) = _
  rw [iota_single_apply]

/-! ## Words and sums -/

/-- The word the kernel compares the source id with: node block `ni`, row `r` of the block, as a number. -/
theorem nodeWord_toNat (ni r : ℕ) (hni : ni < 49) (hr : r < 1024) :
    (IntOp.addi (Scalar.muli (BitVec.ofNat 32 ni) 1024#32) (BitVec.ofNat 32 r)).toNat = ni * 1024 + r := by
  show ((BitVec.ofNat 32 ni) * 1024#32 + BitVec.ofNat 32 r).toNat = _
  rw [BitVec.toNat_add, BitVec.toNat_mul, BitVec.toNat_ofNat, BitVec.toNat_ofNat, BitVec.toNat_ofNat]
  omega

/-- A sum against an indicator of one block of 1024 consecutive numbers keeps the term the word names, if it names one. -/
theorem sum_indicator_block (f : ℕ → EReal) (w : Fin 1024 → BitVec 32) (s : BitVec 32) (b : ℕ)
    (hw : ∀ r : Fin 1024, (w r).toNat = b + r.val) :
    ∑ r : Fin 1024, f (b + r.val) * (if w r = s then (1 : EReal) else 0)
      = if b ≤ s.toNat ∧ s.toNat < b + 1024 then f s.toNat else 0 := by
  by_cases hs : b ≤ s.toNat ∧ s.toNat < b + 1024
  · rw [if_pos hs]
    rw [Finset.sum_eq_single (⟨s.toNat - b, by omega⟩ : Fin 1024)]
    · have hws : w ⟨s.toNat - b, by omega⟩ = s := BitVec.eq_of_toNat_eq (by rw [hw]; show b + (s.toNat - b) = _; omega)
      rw [if_pos hws, mul_one]
      show f (b + (s.toNat - b)) = _
      congr 1; omega
    · intro r _ hne
      have : w r ≠ s := fun e => hne (Fin.ext (by show r.val = s.toNat - b; rw [← e, hw]; omega))
      rw [if_neg this, mul_zero]
    · intro h; exact absurd (Finset.mem_univ _) h
  · rw [if_neg hs]
    refine Finset.sum_eq_zero fun r _ => ?_
    have : w r ≠ s := fun e => hs (by rw [← e, hw]; have := r.isLt; omega)
    rw [if_neg this, mul_zero]

/-- Adding the next block's selection to the selection below it. -/
theorem select_extend (x : EReal) (s b : ℕ) :
    (if s < b then x else 0) + (if b ≤ s ∧ s < b + 1024 then x else 0) = if s < b + 1024 then x else 0 := by
  by_cases h1 : s < b
  · rw [if_pos h1, if_neg (by omega), if_pos (by omega), add_zero]
  · rw [if_neg h1, zero_add]
    by_cases h2 : s < b + 1024
    · rw [if_pos ⟨by omega, h2⟩, if_pos h2]
    · rw [if_neg (fun h => h2 h.2), if_neg h2]

/-! ## The schedule in closed form -/

set_option maxRecDepth 16384 in
/-- The windows' index maps and the grid coordinates in closed form, over the whole grid. -/
theorem gather_idx : ∀ t : Fin cfg0.N,
    win0_0.index t (0 : Fin 2) = 0 ∧ win0_0.index t (1 : Fin 2) = t.val / 49
  ∧ win0_1.index t (0 : Fin 2) = 0 ∧ win0_1.index t (1 : Fin 2) = t.val % 49
  ∧ win0_2.index t (0 : Fin 2) = 0 ∧ win0_2.index t (1 : Fin 2) = t.val / 49
  ∧ ((grid0.coords t) (1 : Fin 2)).val = t.val % 49 :=
  (by decide +kernel : ∀ t : Fin grid0.N, _)

/-! ## Blocks, the accumulator, the array -/

variable (V : Entry Ideal)

/-- The table entry a number names in row `p`, zero when it names none. -/
def pick (tbl : S128x50176.Idx → EReal) (p : Fin 128) (s : ℕ) : EReal :=
  if h : s < 50176 then tbl (ix2 p ⟨s, h⟩) else 0

/-- The source-id block at a point is the array's row read at the edge block's columns. -/
theorem srcBlock_apply (c : Dev nD) (t : Fin cfg0.N) (ei ni : ℕ) (ht : t.val = ei * 49 + ni) (hni : ni < 49)
    (q : Fin 8192) (h : ei * 8192 + q.val < 802816) :
    iblk0 V c 0 t (ix2 (0 : Fin 1) q)
      = (V c main_v9 : S1x802816.Idx → BitVec 32) (ix2 (0 : Fin 1) ⟨ei * 8192 + q.val, h⟩) := by
  obtain ⟨e0, e1, -⟩ := gather_idx t
  show (V c main_v9 : S1x802816.Idx → BitVec 32) (((cfg0.win 0).blk t).view.emb (ix2 (0 : Fin 1) q)) = _
  refine congrArg (V c main_v9 : S1x802816.Idx → BitVec 32) (funext fun a => Fin.ext ?_)
  match a with
  | ⟨0, _⟩ => show win0_0.index t (0 : Fin 2) * 1 + 1 * 0 = 0; omega
  | ⟨1, _⟩ => show win0_0.index t (1 : Fin 2) * 8192 + 1 * q.val = ei * 8192 + q.val; rw [e1, ht]; omega

/-- The feature block at a point is the table read at the node block's columns. -/
theorem tblBlock_apply (c : Dev nD) (t : Fin cfg0.N) (ei ni : ℕ) (ht : t.val = ei * 49 + ni) (hni : ni < 49)
    (p : Fin 128) (r : Fin 1024) :
    iblk0 V c 1 t (ix2 p r) = pick (V c main_v2 : S128x50176.Idx → EReal) p (ni * 1024 + r.val) := by
  obtain ⟨-, -, e2, e3, -⟩ := gather_idx t
  have hlt : ni * 1024 + r.val < 50176 := by have := r.isLt; omega
  unfold pick
  rw [dif_pos hlt]
  show (V c main_v2 : S128x50176.Idx → EReal) (((cfg0.win 1).blk t).view.emb (ix2 p r)) = _
  refine congrArg (V c main_v2 : S128x50176.Idx → EReal) (funext fun a => Fin.ext ?_)
  match a with
  | ⟨0, _⟩ => show win0_1.index t (0 : Fin 2) * 128 + 1 * p.val = p.val; omega
  | ⟨1, _⟩ => show win0_1.index t (1 : Fin 2) * 1024 + 1 * r.val = ni * 1024 + r.val; rw [e3, ht]; omega

/-- The accumulator's reset value is zero everywhere. -/
theorem reset_apply (j : S128x8192.Idx) : k0_pay1 (F := Ideal) j = 0 := by
  unfold k0_pay1
  simp only [shapeCast_self]
  exact Ideal.ofBits_zero_f32

/-- The accumulator after a point: the step applied to the reset value at the first node block, to the previous
    accumulator otherwise. -/
theorem acc0_unfold (c : Dev nD) (n : ℕ) (hn : n < cfg0.N) :
    acc0 V c n hn = k0_pay2 (grid0.coords ⟨n, hn⟩) (iblk0 V c 0 ⟨n, hn⟩) (iblk0 V c 1 ⟨n, hn⟩)
      (if n % 49 = 0 then k0_pay1 (F := Ideal) else acc0 V c (n - 1) (by omega)) := by
  cases n with
  | zero => rfl
  | succ m => rw [acc0]; rfl

theorem acc0_congr (c : Dev nD) {n n' : ℕ} (e : n = n') (hn : n < cfg0.N) (hn' : n' < cfg0.N) :
    acc0 V c n hn = acc0 V c n' hn' := by
  subst e; rfl

/-- THE ACCUMULATOR, ENTRY BY ENTRY: after node block `ni` of edge block `ei`, entry `(p, q)` is the table's entry the
    source id of edge `ei * 8192 + q` names if the id is below `(ni + 1) * 1024`, and zero otherwise: each step adds the
    one term of its block the id names, or nothing. -/
theorem acc0_apply (c : Dev nD) (ei : ℕ) (hei : ei < 98) (p : Fin 128) (q : Fin 8192) (hq : ei * 8192 + q.val < 802816) :
    ∀ (ni : ℕ) (hni : ni < 49) (hn : ei * 49 + ni < cfg0.N),
      acc0 V c (ei * 49 + ni) hn (ix2 p q)
        = if ((V c main_v9 : S1x802816.Idx → BitVec 32) (ix2 (0 : Fin 1) ⟨ei * 8192 + q.val, hq⟩)).toNat < ni * 1024 + 1024
          then pick (V c main_v2 : S128x50176.Idx → EReal) p
            ((V c main_v9 : S1x802816.Idx → BitVec 32) (ix2 (0 : Fin 1) ⟨ei * 8192 + q.val, hq⟩)).toNat
          else 0 := by
  intro ni
  induction ni with
  | zero =>
    intro hni hn
    have hc : ((grid0.coords ⟨ei * 49 + 0, hn⟩) (1 : Fin 2)).val = 0 := by
      obtain ⟨-, -, -, -, -, -, e6⟩ := gather_idx ⟨ei * 49 + 0, hn⟩
      rw [e6]; show (ei * 49 + 0) % 49 = 0; omega
    rw [acc0_unfold, gatherStep_apply _ 0 hc, if_pos (by omega : (ei * 49 + 0) % 49 = 0), reset_apply, zero_add]
    rw [Finset.sum_congr rfl fun r _ => by
      rw [tblBlock_apply V c ⟨ei * 49 + 0, hn⟩ ei 0 rfl hni p r, srcBlock_apply V c ⟨ei * 49 + 0, hn⟩ ei 0 rfl hni q hq]]
    rw [sum_indicator_block (pick (V c main_v2 : S128x50176.Idx → EReal) p) _ _ (0 * 1024)
      (fun r => nodeWord_toNat 0 r.val hni r.isLt)]
    exact if_congr (by omega) rfl rfl
  | succ m ih =>
    intro hni hn
    have hprev := ih (by omega) (by have : ei * 49 + (m + 1) < 4802 := hn; show ei * 49 + m < 4802; omega)
    have hc : ((grid0.coords ⟨ei * 49 + (m + 1), hn⟩) (1 : Fin 2)).val = m + 1 := by
      obtain ⟨-, -, -, -, -, -, e6⟩ := gather_idx ⟨ei * 49 + (m + 1), hn⟩
      rw [e6]; show (ei * 49 + (m + 1)) % 49 = m + 1; omega
    rw [acc0_unfold, gatherStep_apply _ (m + 1) hc, if_neg (by omega : ¬ (ei * 49 + (m + 1)) % 49 = 0)]
    rw [acc0_congr V c (by omega : ei * 49 + (m + 1) - 1 = ei * 49 + m) _
      (by have : ei * 49 + (m + 1) < 4802 := hn; show ei * 49 + m < 4802; omega), hprev]
    rw [Finset.sum_congr rfl fun r _ => by
      rw [tblBlock_apply V c ⟨ei * 49 + (m + 1), hn⟩ ei (m + 1) rfl hni p r,
        srcBlock_apply V c ⟨ei * 49 + (m + 1), hn⟩ ei (m + 1) rfl hni q hq]]
    rw [sum_indicator_block (pick (V c main_v2 : S128x50176.Idx → EReal) p) _ _ ((m + 1) * 1024)
      (fun r => nodeWord_toNat (m + 1) r.val hni r.isLt)]
    have hb : m * 1024 + 1024 = (m + 1) * 1024 := by omega
    rw [hb]
    exact select_extend _ _ _

/-- The specification at an index given by its coordinates. -/
theorem gathered_apply (src : S1x802816.Idx → BitVec 32) (tbl : S128x50176.Idx → EReal) (p : Fin 128) (e : Fin 802816) :
    Cert.Spec.gathered src tbl (ix2 p e)
      = if (src (ix2 (0 : Fin 1) e)).toNat < 50176 then pick tbl p (src (ix2 (0 : Fin 1) e)).toNat else 0 := by
  unfold pick
  show (if h : (src (ix2 (0 : Fin 1) e)).toNat < 50176 then tbl (ix2 p ⟨_, h⟩) else 0) = _
  by_cases h : (src (ix2 (0 : Fin 1) e)).toNat < 50176
  · rw [dif_pos h, if_pos h]
  · rw [dif_neg h, if_neg h]

/-- An index of the gathered array is in point `t`'s output block iff each coordinate is in the block's range. -/
theorem mem_gatherBlock (t : Fin cfg0.N) (i : S128x802816.Idx) :
    i ∈ ((cfg0.win 2).blk t).view.set ↔ ∀ a : Fin 2, win0_2.index t a * S128x8192.size a ≤ (i a).val
      ∧ (i a).val < win0_2.index t a * S128x8192.size a + S128x8192.size a := by
  show i ∈ ((View.whole main_v20).slice (win0_2.rect t)).set ↔ _
  rw [View.set_slice_whole, Rect.mem_set_unit]
  exact Iff.rfl

/-- WHAT A POINT OF THE LAST NODE BLOCK WRITES BACK is its block of the gathered array. -/
theorem gather_flushed_eq (c : Dev nD)
    (dat : Dat τ (Elt Ideal) Unit ℕ (UR sig nD τ) ℕ cfg0 c)
    (hafter : ∀ t, dat.after 2 t = out0 V c t) (t : Fin cfg0.N) (hf : (cfg0.win 2).flush t = true) :
    dat.flushed 2 t = ((cfg0.win 2).blk t).view.read (Elt Ideal)
      (Cert.Spec.gathered (V c main_v9 : S1x802816.Idx → BitVec 32) (V c main_v2 : S128x50176.Idx → EReal)) := by
  show (cfg0.win 2).cut (cfg0.grid.coords t) (dat.after 2 t) = _
  rw [hafter]
  have h48 : t.val % 49 = 48 := (flush0_2 t).mp hf
  have htN : t.val < 4802 := t.isLt
  obtain ⟨-, -, -, -, e4, e5, -⟩ := gather_idx t
  funext j
  obtain ⟨p, q, rfl⟩ : ∃ (p : Fin 128) (q : Fin 8192), j = ix2 p q := ⟨j 0, j 1, eq_ix2 j⟩
  have hq : t.val / 49 * 8192 + q.val < 802816 := by have := q.isLt; omega
  have hemb : ((cfg0.win 2).blk t).view.emb (ix2 p q) = (ix2 p ⟨t.val / 49 * 8192 + q.val, hq⟩ : S128x802816.Idx) := by
    funext a; apply Fin.ext
    match a with
    | ⟨0, _⟩ => show win0_2.index t (0 : Fin 2) * 128 + 1 * p.val = p.val; omega
    | ⟨1, _⟩ => show win0_2.index t (1 : Fin 2) * 8192 + 1 * q.val = t.val / 49 * 8192 + q.val; rw [e5]; omega
  show acc0 V c t.val t.isLt (ix2 p q)
    = Cert.Spec.gathered (V c main_v9 : S1x802816.Idx → BitVec 32) (V c main_v2 : S128x50176.Idx → EReal)
        (((cfg0.win 2).blk t).view.emb (ix2 p q))
  rw [hemb, gathered_apply,
    acc0_congr V c (by omega : t.val = t.val / 49 * 49 + 48) t.isLt (by show t.val / 49 * 49 + 48 < 4802; omega),
    acc0_apply V c (t.val / 49) (by omega) p q hq 48 (by omega)]

/-- Every column of the gathered array is in the output block of the last node block's point of its edge block. -/
theorem gather_cover (i : S128x802816.Idx) :
    ∃ t : Fin cfg0.N, (cfg0.win 2).flush t = true ∧ i ∈ ((cfg0.win 2).blk t).view.set := by
  have hi0 : (i 0).val < 128 := (i 0).isLt
  have hi1 : (i 1).val < 802816 := (i 1).isLt
  have hlt : (i 1).val / 8192 * 49 + 48 < 4802 := by omega
  refine ⟨⟨(i 1).val / 8192 * 49 + 48, hlt⟩, (flush0_2 _).mpr (by show ((i 1).val / 8192 * 49 + 48) % 49 = 48; omega), ?_⟩
  obtain ⟨-, -, -, -, e4, e5, -⟩ := gather_idx ⟨(i 1).val / 8192 * 49 + 48, hlt⟩
  have e5' : win0_2.index ⟨(i 1).val / 8192 * 49 + 48, hlt⟩ (1 : Fin 2) = ((i 1).val / 8192 * 49 + 48) / 49 := e5
  rw [mem_gatherBlock]
  intro a
  match a with
  | ⟨0, _⟩ =>
    show win0_2.index ⟨(i 1).val / 8192 * 49 + 48, hlt⟩ (0 : Fin 2) * 128 ≤ (i 0).val
      ∧ (i 0).val < win0_2.index ⟨(i 1).val / 8192 * 49 + 48, hlt⟩ (0 : Fin 2) * 128 + 128
    omega
  | ⟨1, _⟩ =>
    show win0_2.index ⟨(i 1).val / 8192 * 49 + 48, hlt⟩ (1 : Fin 2) * 8192 ≤ (i 1).val
      ∧ (i 1).val < win0_2.index ⟨(i 1).val / 8192 * 49 + 48, hlt⟩ (1 : Fin 2) * 8192 + 8192
    omega

/-- The gathered array after call 0. -/
theorem final0 (c : Dev nD)
    (dat : Dat τ (Elt Ideal) Unit ℕ (UR sig nD τ) ℕ cfg0 c)
    (hA : ∀ w, dat.A w = V c (Pipeline.arrRef spec0 w))
    (hafter : ∀ t, dat.after 2 t = out0 V c t) :
    (dat.arrAt 2 cfg0.N : S128x802816.Idx → EReal)
      = Cert.Spec.gathered (V c main_v9 : S1x802816.Idx → BitVec 32) (V c main_v2 : S128x50176.Idx → EReal) :=
  dat.arrAt_eq_of_cover 2 _ (fun t hf => gather_flushed_eq V c dat hafter t hf) gather_cover

end Cert.KernelIdeal.Val

end
-- ==== Proof.LibSumBlocks.lean ====
/-
  A sum over `a · b` consecutive positions, regrouped into `a` blocks of `b`: position `r + b · q` is entry `r` of
  block `q`. Twice, a sum over `a · b · c` positions as blocks of blocks. In any commutative monoid, so also where
  the summands are extended reals.
-/
import Mathlib.Algebra.BigOperators.Fin
import Mathlib.Logic.Equiv.Fin.Basic

namespace Cert.Lib

open scoped BigOperators

/-- The positions below `a · b`, block by block. -/
theorem sum_blocks {M : Type*} [AddCommMonoid M] (a b : ℕ) (f : ℕ → M) :
    ∑ q : Fin a, ∑ r : Fin b, f (r.val + b * q.val) = ∑ x : Fin (a * b), f x.val := by
  rw [← Fintype.sum_prod_type']
  exact Equiv.sum_comp finProdFinEquiv fun x => f x.val

/-- The positions below `a · b · c`, as `a` groups of `b` blocks of `c`. -/
theorem sum_blocks_blocks {M : Type*} [AddCommMonoid M] (a b c : ℕ) (f : ℕ → M) :
    ∑ p : Fin a, ∑ s : Fin b, ∑ r : Fin c, f (r.val + c * (s.val + b * p.val)) = ∑ x : Fin (a * b * c), f x.val := by
  rw [← sum_blocks (a * b) c f, ← sum_blocks a b fun t => ∑ r : Fin c, f (r.val + c * t)]

end Cert.Lib
-- ==== Proof.Val.ScatterAux.lean ====
/-
  Call 1 read at an entry: the accumulator's reset value is zero, one accumulation step adds to entry (p, q) the
  block's entries of row p at the edges whose destination id is the column's number, and the final scaling multiplies
  by the reciprocal degree of the column. Both operands of the block product are contracted along their edge axis, and
  the second operand is the indicator "column number = destination id" (one where the two words are equal, else zero),
  so each product keeps or drops one entry. Then the grid of the call in closed form: point t is node block t / 98 and
  edge block t % 98, and each window's column block is one of the two.
-/
import proofs.«427921_j16320875725295_2_alg».proof.Proof.KI.Data
import proofs.«427921_j16320875725295_2_alg».proof.Proof.Val.Spec
import proofs.«427921_j16320875725295_2_alg».proof.Proof.LibDenseLayer
import proofs.«427921_j16320875725295_2_alg».proof.Proof.LibSumBlocks
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Val.Scatter

open Idealize.ShloMosaic Idealize.ShloMosaic.TcCoe Idealize.ShloMosaic.ValueIdx
open Idealize.SL Idealize.SL.Sem
open Cert.KernelIdeal Cert.KernelIdeal.Gen Cert.KernelIdeal.Hand
open Idealize.ShloMosaic.Pipeline (Dat)
open scoped BigOperators

/-! ## The three payloads of call 1 read at an entry -/

/-- The reset value of the accumulator is zero everywhere. -/
theorem acc_reset_apply (j : S128x1024.Idx) : (k1_pay1 (F := Ideal)) j = 0 := by
  unfold k1_pay1
  rw [shapeCast_self]
  exact Ideal.ofBits_zero_f32

/-- The scaled block: entry (p, q) of the accumulator times the reciprocal degree of column q. -/
theorem scale_apply (a : Vec Ideal S128x1024 .f32) (r : Vec Ideal S1x1024 .f32) (p : Fin 128) (q : Fin 1024) :
    k1_pay3 a r (ix2 p q) = a (ix2 p q) * r (ix2 (0 : Fin 1) q) := by
  unfold k1_pay3
  rw [shapeCast_self]
  show a (ix2 p q) * broadcastTo S128x1024 r _ (ix2 p q) = _
  rw [broadcastTo_1b_ab_apply]

/-- The word of a column number: node block times 1024 plus the column inside the block, below 2 ^ 32. -/
theorem col_word_toNat (n q : Nat) (hn : n < 49) (hq : q < 1024) :
    (IntOp.addi (Scalar.muli (BitVec.ofNat 32 n) 1024#32) (BitVec.ofNat 32 q)).toNat = n * 1024 + q := by
  show ((BitVec.ofNat 32 n) * 1024#32 + BitVec.ofNat 32 q).toNat = _
  rw [BitVec.toNat_add, BitVec.toNat_mul, BitVec.toNat_ofNat, BitVec.toNat_ofNat, BitVec.toNat_ofNat]
  omega

/-- The converted comparison bit: one where the two words are equal, zero elsewhere. -/
theorem ind_word (a b : BitVec 32) :
    (FloatOps.sitofp (F := Ideal) .f32 ((IntOp.cmpi .eq a b).setWidth 32) : EReal) = if b.toNat = a.toNat then 1 else 0 := by
  show (((((BitVec.ofBool (a == b)).setWidth 32).toInt : ℝ)) : EReal) = _
  by_cases h : a = b
  · subst h; simp
  · have h' : ¬ b.toNat = a.toNat := fun e => h (BitVec.eq_of_toNat_eq e.symm)
    rw [if_neg h']
    have : (a == b) = false := by simpa using h
    rw [this]; simp

/-- The dimension numbers of the block product: both operands contracted along their edge axis. -/
abbrev DD := dot_S128x8192_S1024x8192_S128x1024_1_1_0_0_n_n

theorem dd_rank : DD.contr.rank = 1 := by decide
theorem dd_size : DD.contr.size ⟨0, by decide⟩ = 8192 := by decide
theorem dd_l0 (j : S128x1024.Idx) (k : DD.contr.Idx) : (DD.lhsIdx j k 0 : ℕ) = j 0 := by
  simp [DotDims.lhsIdx, DD, dot_S128x8192_S1024x8192_S128x1024_1_1_0_0_n_n]; rfl
theorem dd_l1 (j : S128x1024.Idx) (k : DD.contr.Idx) : (DD.lhsIdx j k 1 : ℕ) = k ⟨0, by decide⟩ := by
  simp [DotDims.lhsIdx, DD, dot_S128x8192_S1024x8192_S128x1024_1_1_0_0_n_n]; rfl
theorem dd_r0 (j : S128x1024.Idx) (k : DD.contr.Idx) : (DD.rhsIdx j k 0 : ℕ) = j 1 := by
  simp [DotDims.rhsIdx, DD, dot_S128x8192_S1024x8192_S128x1024_1_1_0_0_n_n]; rfl
theorem dd_r1 (j : S128x1024.Idx) (k : DD.contr.Idx) : (DD.rhsIdx j k 1 : ℕ) = k ⟨0, by decide⟩ := by
  simp [DotDims.rhsIdx, DD, dot_S128x8192_S1024x8192_S128x1024_1_1_0_0_n_n]; rfl

/-- The block product into zero, entry (p, q): the sum over the 8192 edges of the block of the products of the
    two operands' entries at that edge. -/
theorem block_product_apply (a : FVec Ideal S128x8192 .bf16) (w : FVec Ideal S1024x8192 .bf16) (p : Fin 128) (q : Fin 1024) :
    FloatOps.matmul DD none a w (constant S128x1024 .f32 0x00000000#32) (ix2 p q)
      = ∑ x : Fin 8192, a (ix2 p x) * w (ix2 q x) := by
  rw [Ideal.matmul_constant_zero_apply]
  exact Cert.Lib.contraction_sum DD 8192 dd_rank dd_size a w (ix2 p q) (fun x => a (ix2 p x)) (fun x => w (ix2 q x))
    (fun k => congrArg a (funext fun ax => Fin.ext (by
      match ax with
      | ⟨0, _⟩ => exact dd_l0 (ix2 p q) k
      | ⟨1, _⟩ => exact dd_l1 (ix2 p q) k)))
    (fun k => congrArg w (funext fun ax => Fin.ext (by
      match ax with
      | ⟨0, _⟩ => exact dd_r0 (ix2 p q) k
      | ⟨1, _⟩ => exact dd_r1 (ix2 p q) k)))

/-- One accumulation step, entry (p, q): the accumulator's entry plus the block's entries of row p at the edges whose
    destination id is column q of node block `i 0`. -/
theorem accumulate_apply (i : grid1.Coords) (v7 : Vec Ideal S1x8192 .i32) (v15 : Vec Ideal S128x8192 .bf16)
    (v17 : Vec Ideal S128x1024 .f32) (p : Fin 128) (q : Fin 1024) :
    k1_pay2 i v7 v15 v17 (ix2 p q)
      = v17 (ix2 p q) + ∑ x : Fin 8192,
          (if (v7 (ix2 (0 : Fin 1) x)).toNat = (i 0).val * 1024 + q.val then v15 (ix2 p x) else 0) := by
  unfold k1_pay2
  dsimp only
  simp only [shapeCast_self]
  rw [addf_apply]
  simp only [matmul]
  rw [block_product_apply]
  refine congrArg (v17 (ix2 p q) + ·) (Finset.sum_congr rfl fun x _ => ?_)
  rw [truncf_apply, sitofp_apply, extui_apply]
  rw [show ∀ (a b : IVec S1024x8192 32) j, cmpi .eq a b j = IntOp.cmpi .eq (a j) (b j) from fun _ _ _ => rfl]
  rw [broadcastTo_1b_ab_apply v7]
  rw [broadcastTo_apply _ broadcasts_S1024x1_S1024x8192 (ix2 q x) (ix2 q (0 : Fin 1)) (fun a => by
        match a with
        | ⟨0, _⟩ => rfl
        | ⟨1, _⟩ => rfl)]
  rw [show ∀ (a b : IVec S1024x1 32) j, addi a b j = IntOp.addi (a j) (b j) from fun _ _ _ => rfl, broadcast_apply,
    iota_single_apply]
  rw [ind_word]
  have hw := col_word_toNat (i 0).val q.val (i 0).isLt q.isLt
  show v15 (ix2 p x) * (if (v7 (ix2 (0 : Fin 1) x)).toNat
      = (IntOp.addi (Scalar.muli (BitVec.ofNat 32 (i 0).val) 1024#32) (BitVec.ofNat 32 q.val)).toNat then 1 else 0) = _
  rw [hw, mul_ite, mul_one, mul_zero]

/-! ## The grid in closed form -/

/-- Point t is node block t / 98, edge block t % 98; the edge-indexed windows sit at column block t % 98, the
    node-indexed ones at column block t / 98, all at row block 0. -/
theorem grid_facts : ∀ t : Fin cfg1.N,
    (grid1.coords t 0).val = t.val / 98 ∧ (grid1.coords t 1).val = t.val % 98
    ∧ win1_0.index t (0 : Fin 2) = 0 ∧ win1_0.index t (1 : Fin 2) = t.val % 98
    ∧ win1_1.index t (0 : Fin 2) = 0 ∧ win1_1.index t (1 : Fin 2) = t.val % 98
    ∧ win1_2.index t (0 : Fin 2) = 0 ∧ win1_2.index t (1 : Fin 2) = t.val / 98
    ∧ win1_3.index t (0 : Fin 2) = 0 ∧ win1_3.index t (1 : Fin 2) = t.val / 98 :=
  (by decide +kernel : ∀ t : Fin grid1.N, _)

end Cert.KernelIdeal.Val.Scatter

end
-- ==== Proof.Val.Scatter.lean ====
/-
  Call 1 as one whole-array function: after its last write-back entry (k, n) of the aggregated array is the sum of the
  gathered entries k over the edges whose destination id is n, times the reciprocal degree of n.
-/
import proofs.«427921_j16320875725295_2_alg».proof.Proof.KI.Data
import proofs.«427921_j16320875725295_2_alg».proof.Proof.Val.Spec
import proofs.«427921_j16320875725295_2_alg».proof.Proof.Val.ScatterAux
import proofs.«427921_j16320875725295_2_alg».proof.Proof.LibSumBlocks
import Idealize.ShloMosaic.Lib.Pipeline.Value
import Idealize.ShloMosaic.Lib.ValueIdx
import Idealize.ShloMosaic.PureOps.Ideal.Laws

noncomputable section

namespace Cert.KernelIdeal.Val

open Idealize.ShloMosaic Idealize.ShloMosaic.TcCoe Idealize.ShloMosaic.ValueIdx
open Idealize.SL Idealize.SL.Sem
open Cert.KernelIdeal Cert.KernelIdeal.Gen Cert.KernelIdeal.Hand
open Idealize.ShloMosaic.Pipeline (Dat)
open scoped BigOperators
open Cert.KernelIdeal.Val.Scatter

namespace Scatter

variable (V : Entry Ideal)

/-! ## The arrays call 1 reads, and what one edge and one point add -/

/-- The destination-id row as the call finds it. -/
abbrev dstOf (c : Dev nD) : S1x802816.Idx → BitVec 32 := V c main_v10
/-- The gathered array as the call finds it. -/
abbrev gathOf (c : Dev nD) : S128x802816.Idx → EReal := V c main_v20
/-- The reciprocal-degree row as the call finds it. -/
abbrev rdegOf (c : Dev nD) : S1x50176.Idx → EReal := V c main_v19

/-- What edge `e` adds to entry `(p, n)` of the sums: its gathered entry `p` where its destination id is `n`. -/
def edgeTerm (dst : S1x802816.Idx → BitVec 32) (g : S128x802816.Idx → EReal) (p : Fin 128) (n e : ℕ) : EReal :=
  if h : e < 802816 then (if (dst (ix2 (0 : Fin 1) ⟨e, h⟩)).toNat = n then g (ix2 p ⟨e, h⟩) else 0) else 0

/-- What point `n` adds to entry `(p, q)` of its node block's accumulator: the terms of the 8192 edges of its edge block. -/
def pointSum (dst : S1x802816.Idx → BitVec 32) (g : S128x802816.Idx → EReal) (n : ℕ) (p : Fin 128) (q : Fin 1024) : EReal :=
  ∑ x : Fin 8192, edgeTerm dst g p ((n / 98) * 1024 + q.val) (x.val + 8192 * (n % 98))

/-! ## The blocks of a point, read off their arrays -/

/-- The destination-id block of point `t` is columns `8192 · (t % 98) …` of the row. -/
theorem dst_block_apply (c : Dev nD) (t : Fin cfg1.N) (x : Fin 8192) (h : x.val + 8192 * (t.val % 98) < 802816) :
    (iblk1 V c 0 t : Vec Ideal S1x8192 .i32) (ix2 (0 : Fin 1) x)
      = dstOf V c (ix2 (0 : Fin 1) ⟨x.val + 8192 * (t.val % 98), h⟩) := by
  obtain ⟨-, -, e0, e1, -⟩ := grid_facts t
  unfold iblk1
  show (V c main_v10 : S1x802816.Idx → BitVec 32) (((cfg1.win 0).blk t).view.emb (ix2 (0 : Fin 1) x)) = _
  refine congrArg _ (funext fun a => Fin.ext ?_)
  match a with
  | ⟨0, _⟩ => show win1_0.index t (0 : Fin 2) * 1 + 1 * 0 = 0; rw [e0]
  | ⟨1, _⟩ => show win1_0.index t (1 : Fin 2) * 8192 + 1 * x.val = x.val + 8192 * (t.val % 98); rw [e1]; omega

/-- The gathered block of point `t` is columns `8192 · (t % 98) …` of the gathered array. -/
theorem gath_block_apply (c : Dev nD) (t : Fin cfg1.N) (p : Fin 128) (x : Fin 8192) (h : x.val + 8192 * (t.val % 98) < 802816) :
    (iblk1 V c 1 t : Vec Ideal S128x8192 .bf16) (ix2 p x)
      = gathOf V c (ix2 p ⟨x.val + 8192 * (t.val % 98), h⟩) := by
  obtain ⟨-, -, -, -, e0, e1, -⟩ := grid_facts t
  unfold iblk1
  show (V c main_v20 : S128x802816.Idx → EReal) (((cfg1.win 1).blk t).view.emb (ix2 p x)) = _
  refine congrArg _ (funext fun a => Fin.ext ?_)
  match a with
  | ⟨0, _⟩ => show win1_1.index t (0 : Fin 2) * 128 + 1 * p.val = p.val; rw [e0]; omega
  | ⟨1, _⟩ => show win1_1.index t (1 : Fin 2) * 8192 + 1 * x.val = x.val + 8192 * (t.val % 98); rw [e1]; omega

/-- The reciprocal-degree block of point `t` is columns `1024 · (t / 98) …` of the row. -/
theorem rdeg_block_apply (c : Dev nD) (t : Fin cfg1.N) (q : Fin 1024) (h : (t.val / 98) * 1024 + q.val < 50176) :
    (iblk1 V c 2 t : Vec Ideal S1x1024 .f32) (ix2 (0 : Fin 1) q)
      = rdegOf V c (ix2 (0 : Fin 1) ⟨(t.val / 98) * 1024 + q.val, h⟩) := by
  obtain ⟨-, -, -, -, -, -, e0, e1, -⟩ := grid_facts t
  unfold iblk1
  show (V c main_v19 : S1x50176.Idx → EReal) (((cfg1.win 2).blk t).view.emb (ix2 (0 : Fin 1) q)) = _
  refine congrArg _ (funext fun a => Fin.ext ?_)
  match a with
  | ⟨0, _⟩ => show win1_2.index t (0 : Fin 2) * 1 + 1 * 0 = 0; rw [e0]
  | ⟨1, _⟩ => show win1_2.index t (1 : Fin 2) * 1024 + 1 * q.val = (t.val / 98) * 1024 + q.val; rw [e1]; omega

/-- Entry `(p, q)` of the output block of point `t` sits at column `1024 · (t / 98) + q` of the aggregated array. -/
theorem out_emb (t : Fin cfg1.N) (p : Fin 128) (q : Fin 1024) (h : (t.val / 98) * 1024 + q.val < 50176) :
    ((cfg1.win 3).blk t).view.emb (ix2 p q) = (ix2 p ⟨(t.val / 98) * 1024 + q.val, h⟩ : S128x50176.Idx) := by
  obtain ⟨-, -, -, -, -, -, -, -, e0, e1⟩ := grid_facts t
  refine funext fun a => Fin.ext ?_
  match a with
  | ⟨0, _⟩ => show win1_3.index t (0 : Fin 2) * 128 + 1 * p.val = p.val; rw [e0]; omega
  | ⟨1, _⟩ => show win1_3.index t (1 : Fin 2) * 1024 + 1 * q.val = (t.val / 98) * 1024 + q.val; rw [e1]; omega

/-! ## The accumulator along a node block's run of points -/

/-- One point's step, entry `(p, q)`: whatever the accumulator held plus the point's sum. -/
theorem point_adds (c : Dev nD) (n : ℕ) (hn : n < cfg1.N) (acc : Vec Ideal S128x1024 .f32) (p : Fin 128) (q : Fin 1024) :
    k1_pay2 (grid1.coords ⟨n, hn⟩) (iblk1 V c 0 ⟨n, hn⟩) (iblk1 V c 1 ⟨n, hn⟩) acc (ix2 p q)
      = acc (ix2 p q) + pointSum (dstOf V c) (gathOf V c) n p q := by
  obtain ⟨c0, -⟩ := grid_facts ⟨n, hn⟩
  have c0' : (grid1.coords ⟨n, hn⟩ 0).val = n / 98 := c0
  refine (accumulate_apply _ _ _ _ p q).trans ?_
  refine congrArg (acc (ix2 p q) + ·) (Finset.sum_congr rfl fun x _ => ?_)
  have hx : x.val + 8192 * (n % 98) < 802816 := by have := x.isLt; omega
  rw [dst_block_apply V c ⟨n, hn⟩ x hx, gath_block_apply V c ⟨n, hn⟩ p x hx, c0']
  unfold edgeTerm
  rw [dif_pos hx]

/-- At the first point of a node block's run the accumulator is one step from zero … -/
theorem acc1_first (c : Dev nD) (n : ℕ) (hn : n < cfg1.N) (h0 : n % 98 = 0) :
    acc1 V c n hn = k1_pay2 (grid1.coords ⟨n, hn⟩) (iblk1 V c 0 ⟨n, hn⟩) (iblk1 V c 1 ⟨n, hn⟩) (k1_pay1 (F := Ideal)) := by
  cases n with
  | zero => rfl
  | succ m => rw [acc1, if_pos h0]

/-- … and at every other point one step from what the point before left. -/
theorem acc1_next (c : Dev nD) (n : ℕ) (hn : n + 1 < cfg1.N) (h0 : ¬(n + 1) % 98 = 0) :
    acc1 V c (n + 1) hn = k1_pay2 (grid1.coords ⟨n + 1, hn⟩) (iblk1 V c 0 ⟨n + 1, hn⟩) (iblk1 V c 1 ⟨n + 1, hn⟩)
      (acc1 V c n (Nat.lt_of_succ_lt hn)) := by
  rw [acc1, if_neg h0]

/-- After the point at edge block `ei` of node block `ni`, entry `(p, q)` of the accumulator is the sum of the
    points' sums over the edge blocks `0 … ei`. -/
theorem acc_run (c : Dev nD) (ni : ℕ) (p : Fin 128) (q : Fin 1024) :
    ∀ (ei : ℕ) (h : 98 * ni + ei < cfg1.N), ei < 98 →
      acc1 V c (98 * ni + ei) h (ix2 p q)
        = ∑ s ∈ Finset.range (ei + 1), pointSum (dstOf V c) (gathOf V c) (98 * ni + s) p q
  | 0, h, _ => by
    rw [acc1_first V c _ h (by omega), point_adds V c _ h, acc_reset_apply, zero_add, Finset.sum_range_one]
  | ei + 1, h, hlt => by
    have ih := acc_run c ni p q ei (Nat.lt_of_succ_lt h) (by omega)
    show acc1 V c (98 * ni + ei + 1) h (ix2 p q) = _
    rw [acc1_next V c (98 * ni + ei) h (by omega), point_adds V c (98 * ni + ei + 1) h, ih, Finset.sum_range_succ _ (ei + 1)]
    rfl

/-- At the last point of a node block's run, entry `(p, q)` of the accumulator is the sum of the gathered entries
    `p` over ALL the edges whose destination id is column `q` of the node block: the 98 edge blocks of 8192 edges
    are the 802816 edges. -/
theorem acc_full (c : Dev nD) (t : Fin cfg1.N) (ht : t.val % 98 = 97) (p : Fin 128) (q : Fin 1024) :
    acc1 V c t.val t.isLt (ix2 p q)
      = ∑ e ∈ Finset.univ.filter (fun e : Fin 802816 => (dstOf V c (ix2 (0 : Fin 1) e)).toNat = (t.val / 98) * 1024 + q.val),
          gathOf V c (ix2 p e) := by
  have hN : t.val < 4802 := t.isLt
  have key : ∀ (n : ℕ) (hn : n < cfg1.N), n = t.val → acc1 V c n hn = acc1 V c t.val t.isLt := by
    intro n hn e; subst e; rfl
  have hb : 98 * (t.val / 98) + 97 < cfg1.N := by show _ < 4802; omega
  rw [← key _ hb (by omega), acc_run V c (t.val / 98) p q 97 hb (by omega), Finset.sum_range]
  have e1 : ∀ s : Fin 98, pointSum (dstOf V c) (gathOf V c) (98 * (t.val / 98) + s.val) p q
      = ∑ x : Fin 8192, edgeTerm (dstOf V c) (gathOf V c) p ((t.val / 98) * 1024 + q.val) (x.val + 8192 * s.val) := by
    intro s
    unfold pointSum
    have h1 : (98 * (t.val / 98) + s.val) / 98 = t.val / 98 := by have := s.isLt; omega
    have h2 : (98 * (t.val / 98) + s.val) % 98 = s.val := by have := s.isLt; omega
    rw [h1, h2]
  rw [Finset.sum_congr rfl (fun s _ => e1 s),
    Cert.Lib.sum_blocks 98 8192 (edgeTerm (dstOf V c) (gathOf V c) p ((t.val / 98) * 1024 + q.val)), Finset.sum_filter]
  show ∑ e : Fin 802816, edgeTerm (dstOf V c) (gathOf V c) p ((t.val / 98) * 1024 + q.val) e.val = _
  refine Finset.sum_congr rfl fun e _ => ?_
  unfold edgeTerm
  rw [dif_pos e.isLt]

/-! ## From the written-back blocks to the aggregated array -/

/-- The closed form at entry `(p, n)`: the gathered entries `p` of the edges whose destination id is `n`, summed,
    times the reciprocal degree of `n`. -/
theorem scattered_apply (dst : S1x802816.Idx → BitVec 32) (g : S128x802816.Idx → EReal) (rdeg : S1x50176.Idx → EReal)
    (p : Fin 128) (n : Fin 50176) :
    Cert.Spec.scattered dst g rdeg (ix2 p n)
      = (∑ e ∈ Finset.univ.filter (fun e : Fin 802816 => (dst (ix2 (0 : Fin 1) e)).toNat = n.val), g (ix2 p e))
        * rdeg (ix2 (0 : Fin 1) n) := rfl

/-- What call 1 stores at a point of the last edge block, entry `(p, q)`: the closed form at column
    `1024 · (t / 98) + q`. -/
theorem out1_apply (c : Dev nD) (t : Fin cfg1.N) (ht : t.val % 98 = 97) (p : Fin 128) (q : Fin 1024)
    (hq : (t.val / 98) * 1024 + q.val < 50176) :
    out1 V c t (ix2 p q)
      = Cert.Spec.scattered (dstOf V c) (gathOf V c) (rdegOf V c) (ix2 p ⟨(t.val / 98) * 1024 + q.val, hq⟩) := by
  unfold out1
  rw [scale_apply, acc_full V c t ht p q, rdeg_block_apply V c t q hq, scattered_apply]

/-- A block that is, entry by entry, a whole-array function read where the output block sits is written back as
    that function's block. -/
theorem flushed_of_entries (c : Dev nD) (dat : Dat τ (Elt Ideal) Unit ℕ (UR sig nD τ) ℕ cfg1 c)
    (G : S128x50176.Idx → EReal) (t : Fin cfg1.N) (X : Vec Ideal S128x1024 .f32) (hX : dat.after 3 t = X)
    (h : ∀ j, X j = G (((cfg1.win 3).blk t).view.emb j)) :
    dat.flushed 3 t = ((cfg1.win 3).blk t).view.read (Elt Ideal) G := by
  show (cfg1.win 3).cut (cfg1.grid.coords t) (dat.after 3 t) = _
  rw [hX]
  funext j
  exact h j

/-- What a point at the last edge block writes back is its block of the aggregated array's closed form. -/
theorem written_back (c : Dev nD) (dat : Dat τ (Elt Ideal) Unit ℕ (UR sig nD τ) ℕ cfg1 c)
    (hafter : ∀ t, dat.after 3 t = out1 V c t) (t : Fin cfg1.N) (hf : (cfg1.win 3).flush t = true) :
    dat.flushed 3 t
      = ((cfg1.win 3).blk t).view.read (Elt Ideal) (Cert.Spec.scattered (dstOf V c) (gathOf V c) (rdegOf V c)) := by
  have ht : t.val % 98 = 97 := (flush1_3 t).mp hf
  refine flushed_of_entries c dat _ t (out1 V c t) (hafter t) fun j => ?_
  obtain ⟨p, q, rfl⟩ : ∃ (p : Fin 128) (q : Fin 1024), j = ix2 p q := ⟨j 0, j 1, eq_ix2 j⟩
  have hN : t.val < 4802 := t.isLt
  have hq : (t.val / 98) * 1024 + q.val < 50176 := by have := q.isLt; omega
  rw [out_emb t p q hq]
  exact out1_apply V c t ht p q hq

/-- An index of the aggregated array is in point `t`'s output block iff each coordinate is in the block's range. -/
theorem mem_out_block (t : Fin cfg1.N) (i : S128x50176.Idx) :
    i ∈ ((cfg1.win 3).blk t).view.set ↔ ∀ a : Fin 2, win1_3.index t a * S128x1024.size a ≤ (i a).val
      ∧ (i a).val < win1_3.index t a * S128x1024.size a + S128x1024.size a := by
  show i ∈ ((View.whole main_v21).slice (win1_3.rect t)).set ↔ _
  rw [View.set_slice_whole, Rect.mem_set_unit]
  exact Iff.rfl

/-- Every column of the aggregated array lies in the block written back at the last edge block of its node block. -/
theorem covered (i : S128x50176.Idx) :
    ∃ t : Fin cfg1.N, (cfg1.win 3).flush t = true ∧ i ∈ ((cfg1.win 3).blk t).view.set := by
  have hi0 : (i 0).val < 128 := (i 0).isLt
  have hi1 : (i 1).val < 50176 := (i 1).isLt
  have hN : 98 * ((i 1).val / 1024) + 97 < cfg1.N := by show _ < 4802; omega
  obtain ⟨-, -, -, -, -, -, -, -, e0, e1⟩ := grid_facts ⟨98 * ((i 1).val / 1024) + 97, hN⟩
  have e1' : win1_3.index ⟨98 * ((i 1).val / 1024) + 97, hN⟩ (1 : Fin 2) = (98 * ((i 1).val / 1024) + 97) / 98 := e1
  refine ⟨⟨98 * ((i 1).val / 1024) + 97, hN⟩,
    (flush1_3 _).mpr (by show (98 * ((i 1).val / 1024) + 97) % 98 = 97; omega), ?_⟩
  rw [mem_out_block]
  intro a
  match a with
  | ⟨0, _⟩ =>
    show win1_3.index ⟨98 * ((i 1).val / 1024) + 97, hN⟩ (0 : Fin 2) * 128 ≤ (i 0).val
      ∧ (i 0).val < win1_3.index ⟨98 * ((i 1).val / 1024) + 97, hN⟩ (0 : Fin 2) * 128 + 128
    rw [e0]; omega
  | ⟨1, _⟩ =>
    show win1_3.index ⟨98 * ((i 1).val / 1024) + 97, hN⟩ (1 : Fin 2) * 1024 ≤ (i 1).val
      ∧ (i 1).val < win1_3.index ⟨98 * ((i 1).val / 1024) + 97, hN⟩ (1 : Fin 2) * 1024 + 1024
    rw [e1']; omega

end Scatter

variable (V : Entry Ideal)

/-- The aggregated array after call 1. -/
theorem final1 (c : Dev nD)
    (dat : Dat τ (Elt Ideal) Unit ℕ (UR sig nD τ) ℕ cfg1 c)
    (hA : ∀ w, dat.A w = V c (Pipeline.arrRef spec1 w))
    (hafter : ∀ t, dat.after 3 t = out1 V c t) :
    (dat.arrAt 3 cfg1.N : S128x50176.Idx → EReal)
      = Cert.Spec.scattered (V c main_v10 : S1x802816.Idx → BitVec 32) (V c main_v20 : S128x802816.Idx → EReal)
          (V c main_v19 : S1x50176.Idx → EReal) :=
  dat.arrAt_eq_of_cover 3 (Cert.Spec.scattered (Scatter.dstOf V c) (Scatter.gathOf V c) (Scatter.rdegOf V c))
    (fun t hf => Scatter.written_back V c dat hafter t hf) Scatter.covered

end Cert.KernelIdeal.Val

end
-- ==== Proof.Val.Mlp.lean ====
/-
  Call 2 as one whole-array function: two dense layers with a rectifier after each, row by row.
-/
import proofs.«427921_j16320875725295_2_alg».proof.Proof.KI.Data
import proofs.«427921_j16320875725295_2_alg».proof.Proof.Val.Spec
import proofs.«427921_j16320875725295_2_alg».proof.Proof.LibDenseLayer
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Val

open Idealize.ShloMosaic Idealize.ShloMosaic.TcCoe Idealize.ShloMosaic.ValueIdx
open Idealize.SL Idealize.SL.Sem
open Cert.KernelIdeal Cert.KernelIdeal.Gen Cert.KernelIdeal.Hand
open Idealize.ShloMosaic.Pipeline (Dat)
open scoped BigOperators

variable (V : Entry Ideal)

/-! ## The block product: rows × depth times depth × columns -/

/-- The dimension numbers of the three products of call 2: the left operand's second axis against the right operand's first. -/
abbrev mlpDims := dot_S1024x128_S128x128_S1024x128_1_0_0_1_n_n

theorem mlp_lhs_0 (j : S1024x128.Idx) (k : mlpDims.contr.Idx) : (mlpDims.lhsIdx j k 0 : ℕ) = j 0 := by
  simp [DotDims.lhsIdx, mlpDims, dot_S1024x128_S128x128_S1024x128_1_0_0_1_n_n]; rfl
theorem mlp_lhs_1 (j : S1024x128.Idx) (k : mlpDims.contr.Idx) : (mlpDims.lhsIdx j k 1 : ℕ) = k ⟨0, by decide⟩ := by
  simp [DotDims.lhsIdx, mlpDims, dot_S1024x128_S128x128_S1024x128_1_0_0_1_n_n]; rfl
theorem mlp_rhs_0 (j : S1024x128.Idx) (k : mlpDims.contr.Idx) : (mlpDims.rhsIdx j k 0 : ℕ) = k ⟨0, by decide⟩ := by
  simp [DotDims.rhsIdx, mlpDims, dot_S1024x128_S128x128_S1024x128_1_0_0_1_n_n]; rfl
theorem mlp_rhs_1 (j : S1024x128.Idx) (k : mlpDims.contr.Idx) : (mlpDims.rhsIdx j k 1 : ℕ) = j 1 := by
  simp [DotDims.rhsIdx, mlpDims, dot_S1024x128_S128x128_S1024x128_1_0_0_1_n_n]; rfl

/-- The product into the zero accumulator, at row `r` and column `n`: the sum over the depth. -/
theorem mlp_matmul_apply {φ₁ φ₂ : FTy} (a : FVec Ideal S1024x128 φ₁) (w : FVec Ideal S128x128 φ₂) (r : Fin 1024) (n : Fin 128) :
    matmul mlpDims none a w (constant (F := Ideal) S1024x128 .f32 0x00000000#32) (ix2 r n) = ∑ k : Fin 128, a (ix2 r k) * w (ix2 k n) := by
  show FloatOps.matmul mlpDims none a w (constant (F := Ideal) S1024x128 .f32 0x00000000#32) (ix2 r n) = _
  rw [Ideal.matmul_constant_zero_apply]
  exact Cert.Lib.contraction_sum mlpDims 128 rfl rfl a w (ix2 r n) (fun k => a (ix2 r k)) (fun k => w (ix2 k n))
    (fun q => congrArg a (Shape.idx_ext₂ (mlp_lhs_0 _ q) (mlp_lhs_1 _ q)))
    (fun q => congrArg w (Shape.idx_ext₂ (mlp_rhs_0 _ q) (mlp_rhs_1 _ q)))

/-! ## The two layers on one block of rows -/

/-- The zero word is the extended real zero. -/
theorem mlp_zero_word : (FloatOps.ofBits (F := Ideal) .f32 0x00000000#32 : EReal) = 0 := Ideal.ofBits_zero_f32

/-- The block the call stores at a point, at row `r` and column `n`: the first layer's two products added, then the
    bias row, rectified; the second layer's product, its bias row, rectified. -/
theorem k2_pay1_apply (x agg : Vec Ideal S1024x128 .f32) (w1x w1a : Vec Ideal S128x128 .f32) (b1 : Vec Ideal S1x128 .f32)
    (w2 : Vec Ideal S128x128 .f32) (b2 : Vec Ideal S1x128 .f32) (r : Fin 1024) (n : Fin 128) :
    k2_pay1 x agg w1x w1a b1 w2 b2 (ix2 r n)
      = max ((∑ k : Fin 128, max (((∑ a : Fin 128, x (ix2 r a) * w1x (ix2 a k)) + (∑ a : Fin 128, agg (ix2 r a) * w1a (ix2 a k)))
          + b1 (ix2 (0 : Fin 1) k)) 0 * w2 (ix2 k n)) + b2 (ix2 (0 : Fin 1) n)) 0 := by
  unfold k2_pay1
  simp only [shapeCast_self]
  rw [maximumf_apply, addf_apply, broadcast_apply, mlp_matmul_apply, broadcastTo_1b_ab_apply, mlp_zero_word]
  refine congrArg (fun s => max (s + b2 (ix2 (0 : Fin 1) n)) 0) (Finset.sum_congr rfl fun k _ => ?_)
  rw [truncf_apply, truncf_apply, maximumf_apply, addf_apply, addf_apply, broadcast_apply, mlp_matmul_apply, mlp_matmul_apply,
    broadcastTo_1b_ab_apply]
  simp only [truncf_apply]

/-! ## The windows' index maps, over the 49 points -/

/-- The row-block windows (own features, aggregated features, output) sit at row block `t`, column block 0; the five
    whole-array windows at block (0, 0). -/
theorem mlp_index_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = t.val ∧ win2_7.index t (1 : Fin 2) = 0 :=
  (by decide +kernel : ∀ t : Fin grid2.N, _)

/-! ## The blocks the call reads at a point -/

/-- Row `r` of the own-features block at point `t` is row `t * 1024 + r` of the array. -/
theorem iblk2_0_apply (c : Dev nD) (t : Fin cfg2.N) (r : Fin 1024) (a : Fin 128) (h : t.val * 1024 + r.val < 50176) :
    iblk2 V c 0 t (ix2 r a) = (V c main_v0 : S50176x128.Idx → EReal) (ix2 ⟨t.val * 1024 + r.val, h⟩ a) := by
  obtain ⟨e0, e1, -⟩ := mlp_index_facts t
  show (V c main_v0 : S50176x128.Idx → EReal) (((cfg2.win 0).blk t).view.emb (ix2 r a)) = _
  refine congrArg (V c main_v0 : S50176x128.Idx → EReal) (funext fun ax => Fin.ext ?_)
  match ax with
  | ⟨0, _⟩ => show win2_0.index t (0 : Fin 2) * 1024 + 1 * r.val = t.val * 1024 + r.val; omega
  | ⟨1, _⟩ => show win2_0.index t (1 : Fin 2) * 128 + 1 * a.val = a.val; omega

/-- Row `r` of the aggregated-features block at point `t` is row `t * 1024 + r` of the array. -/
theorem iblk2_1_apply (c : Dev nD) (t : Fin cfg2.N) (r : Fin 1024) (a : Fin 128) (h : t.val * 1024 + r.val < 50176) :
    iblk2 V c 1 t (ix2 r a) = (V c main_v22 : S50176x128.Idx → EReal) (ix2 ⟨t.val * 1024 + r.val, h⟩ a) := by
  obtain ⟨-, -, e0, e1, -⟩ := mlp_index_facts t
  show (V c main_v22 : S50176x128.Idx → EReal) (((cfg2.win 1).blk t).view.emb (ix2 r a)) = _
  refine congrArg (V c main_v22 : S50176x128.Idx → EReal) (funext fun ax => Fin.ext ?_)
  match ax with
  | ⟨0, _⟩ => show win2_1.index t (0 : Fin 2) * 1024 + 1 * r.val = t.val * 1024 + r.val; omega
  | ⟨1, _⟩ => show win2_1.index t (1 : Fin 2) * 128 + 1 * a.val = a.val; omega

/-- The first layer's weights for the own features: the one block is the whole array. -/
theorem iblk2_2_apply (c : Dev nD) (t : Fin cfg2.N) (a k : Fin 128) :
    iblk2 V c 2 t (ix2 a k) = (V c main_v23 : S128x128.Idx → EReal) (ix2 a k) := by
  obtain ⟨-, -, -, -, e0, e1, -⟩ := mlp_index_facts t
  show (V c main_v23 : S128x128.Idx → EReal) (((cfg2.win 2).blk t).view.emb (ix2 a k)) = _
  refine congrArg (V c main_v23 : S128x128.Idx → EReal) (funext fun ax => Fin.ext ?_)
  match ax with
  | ⟨0, _⟩ => show win2_2.index t (0 : Fin 2) * 128 + 1 * a.val = a.val; omega
  | ⟨1, _⟩ => show win2_2.index t (1 : Fin 2) * 128 + 1 * k.val = k.val; omega

/-- The first layer's weights for the aggregated features. -/
theorem iblk2_3_apply (c : Dev nD) (t : Fin cfg2.N) (a k : Fin 128) :
    iblk2 V c 3 t (ix2 a k) = (V c main_v24 : S128x128.Idx → EReal) (ix2 a k) := by
  obtain ⟨-, -, -, -, -, -, e0, e1, -⟩ := mlp_index_facts t
  show (V c main_v24 : S128x128.Idx → EReal) (((cfg2.win 3).blk t).view.emb (ix2 a k)) = _
  refine congrArg (V c main_v24 : S128x128.Idx → EReal) (funext fun ax => Fin.ext ?_)
  match ax with
  | ⟨0, _⟩ => show win2_3.index t (0 : Fin 2) * 128 + 1 * a.val = a.val; omega
  | ⟨1, _⟩ => show win2_3.index t (1 : Fin 2) * 128 + 1 * k.val = k.val; omega

/-- The first layer's bias row. -/
theorem iblk2_4_apply (c : Dev nD) (t : Fin cfg2.N) (k : Fin 128) :
    iblk2 V c 4 t (ix2 (0 : Fin 1) k) = (V c main_v25 : S1x128.Idx → EReal) (ix2 (0 : Fin 1) k) := by
  obtain ⟨-, -, -, -, -, -, -, -, e0, e1, -⟩ := mlp_index_facts t
  show (V c main_v25 : S1x128.Idx → EReal) (((cfg2.win 4).blk t).view.emb (ix2 (0 : Fin 1) k)) = _
  refine congrArg (V c main_v25 : S1x128.Idx → EReal) (funext fun ax => Fin.ext ?_)
  match ax with
  | ⟨0, _⟩ => show win2_4.index t (0 : Fin 2) * 1 + 1 * 0 = 0; omega
  | ⟨1, _⟩ => show win2_4.index t (1 : Fin 2) * 128 + 1 * k.val = k.val; omega

/-- The second layer's weights. -/
theorem iblk2_5_apply (c : Dev nD) (t : Fin cfg2.N) (a k : Fin 128) :
    iblk2 V c 5 t (ix2 a k) = (V c main_arg4 : S128x128.Idx → EReal) (ix2 a k) := by
  obtain ⟨-, -, -, -, -, -, -, -, -, -, e0, e1, -⟩ := mlp_index_facts t
  show (V c main_arg4 : S128x128.Idx → EReal) (((cfg2.win 5).blk t).view.emb (ix2 a k)) = _
  refine congrArg (V c main_arg4 : S128x128.Idx → EReal) (funext fun ax => Fin.ext ?_)
  match ax with
  | ⟨0, _⟩ => show win2_5.index t (0 : Fin 2) * 128 + 1 * a.val = a.val; omega
  | ⟨1, _⟩ => show win2_5.index t (1 : Fin 2) * 128 + 1 * k.val = k.val; omega

/-- The second layer's bias row. -/
theorem iblk2_6_apply (c : Dev nD) (t : Fin cfg2.N) (k : Fin 128) :
    iblk2 V c 6 t (ix2 (0 : Fin 1) k) = (V c main_v26 : S1x128.Idx → EReal) (ix2 (0 : Fin 1) k) := by
  obtain ⟨-, -, -, -, -, -, -, -, -, -, -, -, e0, e1, -⟩ := mlp_index_facts t
  show (V c main_v26 : S1x128.Idx → EReal) (((cfg2.win 6).blk t).view.emb (ix2 (0 : Fin 1) k)) = _
  refine congrArg (V c main_v26 : S1x128.Idx → EReal) (funext fun ax => Fin.ext ?_)
  match ax with
  | ⟨0, _⟩ => show win2_6.index t (0 : Fin 2) * 1 + 1 * 0 = 0; omega
  | ⟨1, _⟩ => show win2_6.index t (1 : Fin 2) * 128 + 1 * k.val = k.val; omega

/-! ## What a point stores is its block of rows of the whole-array function -/

/-- The two dense layers of the arrays the call finds in memory. -/
abbrev mlpG (c : Dev nD) : S50176x128.Idx → EReal :=
  Cert.Spec.dense2 (V c main_v0 : S50176x128.Idx → EReal) (V c main_v22 : S50176x128.Idx → EReal)
    (V c main_v23 : S128x128.Idx → EReal) (V c main_v24 : S128x128.Idx → EReal) (V c main_v25 : S1x128.Idx → EReal)
    (V c main_arg4 : S128x128.Idx → EReal) (V c main_v26 : S1x128.Idx → EReal)

/-- Row `r`, column `n` of the block stored at point `t` is row `t * 1024 + r`, column `n` of the two layers. -/
theorem out2_apply (c : Dev nD) (t : Fin cfg2.N) (r : Fin 1024) (n : Fin 128) (h : t.val * 1024 + r.val < 50176) :
    out2 V c t (ix2 r n) = mlpG V c (ix2 ⟨t.val * 1024 + r.val, h⟩ n) := by
  unfold out2
  rw [k2_pay1_apply]
  simp only [fun a => iblk2_0_apply V c t r a h, fun a => iblk2_1_apply V c t r a h, iblk2_2_apply, iblk2_3_apply,
    iblk2_4_apply, iblk2_5_apply, iblk2_6_apply]
  rfl

/-- What point `t` writes back is its block of rows of the two layers. -/
theorem mlp_flushed_eq (c : Dev nD) (dat : Dat τ (Elt Ideal) Unit ℕ (UR sig nD τ) ℕ cfg2 c)
    (hafter : ∀ t, dat.after 7 t = out2 V c t) (t : Fin cfg2.N) :
    dat.flushed 7 t = ((cfg2.win 7).blk t).view.read (Elt Ideal) (mlpG V c) := by
  show (cfg2.win 7).cut (cfg2.grid.coords t) (dat.after 7 t) = _
  rw [hafter]
  obtain ⟨-, -, -, -, -, -, -, -, -, -, -, -, -, -, e0, e1⟩ := mlp_index_facts t
  funext j
  have hr : (j 0).val < 1024 := (j 0).isLt
  have hn : (j 1).val < 128 := (j 1).isLt
  have ht : t.val < 49 := t.isLt.trans_eq N_2
  have hx : (cfg2.win 7).xinj (cfg2.grid.coords t) j = ix2 (⟨(j 0).val, hr⟩ : Fin 1024) (⟨(j 1).val, hn⟩ : Fin 128) :=
    funext fun ax => Fin.ext (match ax with | ⟨0, _⟩ => rfl | ⟨1, _⟩ => rfl)
  show out2 V c t ((cfg2.win 7).xinj (cfg2.grid.coords t) j) = mlpG V c (((cfg2.win 7).blk t).view.emb j)
  rw [hx, out2_apply V c t _ _ (by show t.val * 1024 + (j 0).val < 50176; omega)]
  refine congrArg (mlpG V c) (funext fun ax => Fin.ext ?_)
  match ax with
  | ⟨0, _⟩ => show t.val * 1024 + (j 0).val = win2_7.index t (0 : Fin 2) * 1024 + 1 * (j 0).val; omega
  | ⟨1, _⟩ => show (j 1).val = win2_7.index t (1 : Fin 2) * 128 + 1 * (j 1).val; omega

/-! ## The 49 blocks of 1024 rows fill the 50176 rows -/

/-- An index of the output array is in point `t`'s block iff each coordinate is in the block's range on its axis. -/
theorem mlp_mem_block (t : Fin cfg2.N) (i : S50176x128.Idx) :
    i ∈ ((cfg2.win 7).blk t).view.set ↔ ∀ a : Fin 2, win2_7.index t a * S1024x128.size a ≤ (i a).val ∧ (i a).val < win2_7.index t a * S1024x128.size a + S1024x128.size a := by
  show i ∈ ((View.whole main_v27).slice (win2_7.rect t)).set ↔ _
  rw [View.set_slice_whole, Rect.mem_set_unit]
  exact Iff.rfl

/-- Row `n` is in the block of point `n / 1024`, and every point writes its block back. -/
theorem mlp_rows_covered (i : S50176x128.Idx) :
    ∃ t : Fin cfg2.N, (cfg2.win 7).flush t = true ∧ i ∈ ((cfg2.win 7).blk t).view.set := by
  have hi0 : (i 0).val < 50176 := (i 0).isLt
  have hi1 : (i 1).val < 128 := (i 1).isLt
  have hN : (i 0).val / 1024 < cfg2.N := by rw [show cfg2.N = 49 from N_2]; omega
  obtain ⟨-, -, -, -, -, -, -, -, -, -, -, -, -, -, e0, e1⟩ := mlp_index_facts ⟨(i 0).val / 1024, hN⟩
  have e0' : win2_7.index ⟨(i 0).val / 1024, hN⟩ (0 : Fin 2) = (i 0).val / 1024 := e0
  refine ⟨⟨(i 0).val / 1024, hN⟩, flush2_7 _, ?_⟩
  rw [mlp_mem_block]
  intro a
  match a with
  | ⟨0, _⟩ =>
    show win2_7.index ⟨(i 0).val / 1024, hN⟩ (0 : Fin 2) * 1024 ≤ (i 0).val
      ∧ (i 0).val < win2_7.index ⟨(i 0).val / 1024, hN⟩ (0 : Fin 2) * 1024 + 1024
    omega
  | ⟨1, _⟩ =>
    show win2_7.index ⟨(i 0).val / 1024, hN⟩ (1 : Fin 2) * 128 ≤ (i 1).val
      ∧ (i 1).val < win2_7.index ⟨(i 0).val / 1024, hN⟩ (1 : Fin 2) * 128 + 128
    omega

/-- The output array after call 2. -/
theorem final2 (c : Dev nD)
    (dat : Dat τ (Elt Ideal) Unit ℕ (UR sig nD τ) ℕ cfg2 c)
    (hA : ∀ w, dat.A w = V c (Pipeline.arrRef spec2 w))
    (hafter : ∀ t, dat.after 7 t = out2 V c t) :
    (dat.arrAt 7 cfg2.N : S50176x128.Idx → EReal)
      = Cert.Spec.dense2 (V c main_v0 : S50176x128.Idx → EReal) (V c main_v22 : S50176x128.Idx → EReal)
          (V c main_v23 : S128x128.Idx → EReal) (V c main_v24 : S128x128.Idx → EReal) (V c main_v25 : S1x128.Idx → EReal)
          (V c main_arg4 : S128x128.Idx → EReal) (V c main_v26 : S1x128.Idx → EReal) :=
  dat.arrAt_eq_of_cover 7 (mlpG V c) (fun t _ => mlp_flushed_eq V c dat hafter t) mlp_rows_covered

end Cert.KernelIdeal.Val

end
-- ==== Proof.Val.HostKAux.lean ====
/-
  Facts about host operations read at one index, used for the host side of the layer: an accumulating scatter into a
  vector by a column of indices, a padding of rows and of a vector's tail, and a sum over a range cut in two.
-/
import Idealize.ShloMosaic.PureOps.Ideal
import Idealize.ShloMosaic.Lib.ValueIdx
import Idealize.ShloMosaic.Lib.ValueIdxRank1
import Idealize.ShloMosaic.Lib.KernelVsHost

noncomputable section

namespace Cert.KernelIdeal.Val

open Idealize.ShloMosaic Idealize.ShloMosaic.ValueIdx
open scoped BigOperators

/-! ## The accumulating scatter into a vector -/

/-- The dimension numbers of a scatter into a vector: operand `N`, scatter indices `E × 1`, updates `E`. -/
abbrev vecScatterDims (N E : Nat)
    (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

section
variable {N E w : Nat} (wf : ScatterDims.WF ⟨1, ![N]⟩ ⟨2, ![E, 1]⟩ ⟨1, ![E]⟩ [] [0] [0] 1)
  (idx : IVec ⟨2, ![E, 1]⟩ w)

/-- The update `e` lands at the signed value of index `e`. -/
theorem vecScatter_pos (e : Fin E) :
    (vecScatterDims N E wf).start (ix1 e) idx (0 : Fin 1) + ((vecScatterDims N E wf).window (ix1 e) (0 : Fin 1) : ℤ)
      = (idx (ix2 e (0 : Fin 1))).toInt := by
  have hw : (vecScatterDims N E wf).window (ix1 e) (0 : Fin 1) = 0 := by
    have h0 : (0 : Fin 1) ∉ (vecScatterDims N E wf).sKept := show (0 : Fin 1) ∉ ([] : List (Fin 1)) from by decide
    unfold ScatterDims.window
    rw [dif_neg h0]
  rw [hw]
  unfold ScatterDims.start
  rw [dif_pos (show (0 : Fin 1) ∈ ([0] : List (Fin 1)) from by decide)]
  have hsi : (vecScatterDims N E wf).siIdx (ix1 e) ⟨List.idxOf (0 : Fin 1) (vecScatterDims N E wf).scatterDimsToOperandDims,
      List.idxOf_lt_length_iff.2 (show (0 : Fin 1) ∈ ([0] : List (Fin 1)) from by decide)⟩ = ix2 e (0 : Fin 1) := by
    funext b; refine Fin.ext ?_
    match b with
    | ⟨0, _⟩ => rfl
    | ⟨1, _⟩ => rfl
  rw [hsi]
  simp

/-- The update `e` lands on `i` exactly when index `e`, read signed, is `i`. -/
theorem vecScatter_resultIdx (e : Fin E) (i : Fin N) :
    (vecScatterDims N E wf).resultIdx? (ix1 e) idx = some (ix1 i) ↔ (idx (ix2 e (0 : Fin 1))).toInt = (i.val : ℤ) := by
  have p0 := vecScatter_pos wf idx e
  unfold ScatterDims.resultIdx?
  constructor
  · intro h
    split at h
    · rename_i hb
      have hf := Option.some.inj h
      have h0 : ((vecScatterDims N E wf).start (ix1 e) idx (0 : Fin 1)
          + ((vecScatterDims N E wf).window (ix1 e) (0 : Fin 1) : ℤ)).toNat = i.val :=
        congrArg (fun f => (f (0 : Fin 1)).val) hf
      have b0 := (hb (0 : Fin 1)).1
      rw [p0] at h0 b0
      omega
    · exact absurd h (by simp)
  · intro h0
    have hb : ∀ a : Fin 1, 0 ≤ (vecScatterDims N E wf).start (ix1 e) idx a + ((vecScatterDims N E wf).window (ix1 e) a : ℤ)
        ∧ (vecScatterDims N E wf).start (ix1 e) idx a + ((vecScatterDims N E wf).window (ix1 e) a : ℤ)
          < (((⟨1, ![N]⟩ : Shape).size a : ℕ) : ℤ) := by
      intro a
      match a with
      | ⟨0, _⟩ =>
        show 0 ≤ (vecScatterDims N E wf).start (ix1 e) idx (0 : Fin 1) + ((vecScatterDims N E wf).window (ix1 e) (0 : Fin 1) : ℤ)
          ∧ (vecScatterDims N E wf).start (ix1 e) idx (0 : Fin 1) + ((vecScatterDims N E wf).window (ix1 e) (0 : Fin 1) : ℤ) < ((N : ℕ) : ℤ)
        rw [p0, h0]
        exact ⟨by omega, by exact_mod_cast i.isLt⟩
    rw [dif_pos hb]
    congr 1
    funext a
    refine Fin.ext ?_
    match a with
    | ⟨0, _⟩ =>
      show ((vecScatterDims N E wf).start (ix1 e) idx (0 : Fin 1) + ((vecScatterDims N E wf).window (ix1 e) (0 : Fin 1) : ℤ)).toNat = i.val
      rw [p0, h0]; simp

/-- The accumulating scatter into a vector read at `i`, at the ideal values: the operand's entry plus the sum of the
    updates over the positions `e` whose index, read signed, is `i`. -/
theorem scatterAdd_vec_apply (x : (⟨1, ![N]⟩ : Shape).Idx → EReal) (upd : (⟨1, ![E]⟩ : Shape).Idx → EReal) (i : Fin N) :
    Ideal.hostScatterAdd (vecScatterDims N E wf) x idx upd (ix1 i)
      = x (ix1 i) + ∑ e ∈ Finset.univ.filter (fun e : Fin E => (idx (ix2 e (0 : Fin 1))).toInt = (i.val : ℤ)), upd (ix1 e) := by
  unfold Ideal.hostScatterAdd
  congr 1
  rw [Finset.sum_filter, ← Equiv.sum_comp (idxEquiv1 (n := E)).symm, Finset.sum_filter]
  refine Finset.sum_congr rfl fun e _ => ?_
  show (if (vecScatterDims N E wf).resultIdx? (ix1 e) idx = some (ix1 i) then upd (ix1 e) else 0) = _
  simp only [vecScatter_resultIdx wf idx e i]

end

/-! ## Paddings read at an index -/

section
variable {α : Type}

/-- A matrix padded with `p` rows at the bottom reads the operand on the operand's rows and the padding value below. -/
theorem pad_rows_apply {R R' C : ℕ} (p : ℕ) (x : (⟨2, ![R, C]⟩ : Shape).Idx → α) {u : Shape} (v : u.Idx → α)
    (h : (⟨2, ![R, C]⟩ : Shape).Pads (![0, 0] : Fin 2 → Nat) ![p, 0] ![0, 0] ⟨2, ![R', C]⟩) (hu : 0 < u.numel)
    (r : Fin R') (a : Fin C) :
    pad ⟨2, ![R', C]⟩ ![0, 0] ![p, 0] ![0, 0] x v h hu (ix2 r a)
      = if hr : r.val < R then x (ix2 ⟨r.val, hr⟩ a) else v (Shape.Idx.first hu) := by
  by_cases hr : r.val < R
  · rw [dif_pos hr]
    refine pad_apply_of_inside _ _ _ x v h hu (ix2 r a) (ix2 ⟨r.val, hr⟩ a) (fun ax => ?_)
    match ax with
    | ⟨0, _⟩ => show r.val = 0 + r.val * (0 + 1); omega
    | ⟨1, _⟩ => show a.val = 0 + a.val * (0 + 1); omega
  · rw [dif_neg hr]
    refine pad_apply_of_not_inside _ _ _ x v h hu (ix2 r a) (0 : Fin 2) (fun hin => hr ?_)
    have h3 : (r.val - 0) / (0 + 1) < R := hin.2.2
    omega

/-- A vector padded with `p` entries at the end reads the operand on the operand's positions and the padding value after. -/
theorem pad_tail_apply {n n' : ℕ} (p : ℕ) (x : (⟨1, ![n]⟩ : Shape).Idx → α) {u : Shape} (v : u.Idx → α)
    (h : (⟨1, ![n]⟩ : Shape).Pads (![0] : Fin 1 → Nat) ![p] ![0] ⟨1, ![n']⟩) (hu : 0 < u.numel) (e : Fin n') :
    pad ⟨1, ![n']⟩ ![0] ![p] ![0] x v h hu (ix1 e)
      = if he : e.val < n then x (ix1 ⟨e.val, he⟩) else v (Shape.Idx.first hu) := by
  by_cases he : e.val < n
  · rw [dif_pos he]
    refine pad_apply_of_inside _ _ _ x v h hu (ix1 e) (ix1 ⟨e.val, he⟩) (fun ax => ?_)
    match ax with
    | ⟨0, _⟩ => show e.val = 0 + e.val * (0 + 1); omega
  · rw [dif_neg he]
    refine pad_apply_of_not_inside _ _ _ x v h hu (ix1 e) (0 : Fin 1) (fun hin => he ?_)
    have h3 : (e.val - 0) / (0 + 1) < n := hin.2.2
    omega

end

/-! ## A sum over a range cut in two -/

/-- A sum over `N + M` positions whose terms vanish on the last `M` is the sum over the first `N`. -/
theorem sum_fin_add_of_tail_zero {N M : ℕ} (f : Fin (N + M) → EReal) (hz : ∀ i : Fin M, f (Fin.natAdd N i) = 0) :
    ∑ e, f e = ∑ i : Fin N, f (Fin.castAdd M i) := by
  rw [Fin.sum_univ_add, Finset.sum_eq_zero (fun i _ => hz i), add_zero]

end Cert.KernelIdeal.Val

end
-- ==== Proof.Val.HostKVals.lean ====
/-
  The kernel program's host operations before, between and after its three calls: what each leaves, as a term over what
  it reads, and those terms read at an index (the padded and transposed feature table, the padded id rows).
-/
import proofs.«427921_j16320875725295_2_alg».proof.Proof.Gen.KernelIdeal.Regions
import proofs.«427921_j16320875725295_2_alg».proof.Proof.Val.HostKAux
import Idealize.ShloMosaic.Lib.Pipeline.Value
import Idealize.ShloMosaic.Lib.ValueIdx
import Idealize.ShloMosaic.Lib.ValueLayout
import Idealize.ShloMosaic.Lib.StableHlo.Run
import Idealize.ShloMosaic.Lib.IdealHost
import Idealize.ShloMosaic.PureOps.Ideal.Laws

noncomputable section

namespace Cert.KernelIdeal.Val

open Idealize.ShloMosaic Idealize.ShloMosaic.TcCoe Idealize.ShloMosaic.ValueIdx
open Idealize.SL Idealize.SL.Sem
open Cert.KernelIdeal Cert.KernelIdeal.Gen
open scoped BigOperators

variable (m : (ℓ : Loc nD τ sig) → Buf (Elt Ideal) ℓ) (outs : Outs (F := Ideal))

/-! ## The arguments at their literal types -/

abbrev aH (c : Dev nD) : S50000x128.Idx → EReal := m ((c.tc : Thread nD τ).loc main_arg0)
abbrev aE (c : Dev nD) : S2x800000.Idx → BitVec 32 := m ((c.tc : Thread nD τ).loc main_arg1)
abbrev aW1 (c : Dev nD) : S256x128.Idx → EReal := m ((c.tc : Thread nD τ).loc main_arg2)
abbrev aB1 (c : Dev nD) : S128.Idx → EReal := m ((c.tc : Thread nD τ).loc main_arg3)
abbrev aW2 (c : Dev nD) : S128x128.Idx → EReal := m ((c.tc : Thread nD τ).loc main_arg4)
abbrev aB2 (c : Dev nD) : S128.Idx → EReal := m ((c.tc : Thread nD τ).loc main_arg5)

/-! ## What each host operation leaves, as a term over what it reads -/

theorem c_eq (c : Dev nD) : (V1 m c main_c : S_.Idx → BitVec 32) = constantI S_ 32 0#32 := by
  show StableHlo.after hostOps0 _ (Proc.devRef .tc main_c) = _
  after_results
  all_goals rfl

theorem v0_eq (c : Dev nD) : (V2 m c main_v0 : S50176x128.Idx → EReal)
    = pad S50176x128 ![0, 0] ![176, 0] ![0, 0] (V1 m c main_arg0 : S50000x128.Idx → EReal)
        (sitofp (F := Ideal) .f32 (V1 m c main_c : S_.Idx → BitVec 32)) Facts₀.pads_S50000x128_S50176x128_01760_000 Facts₀.h_S_ := by
  show StableHlo.after hostOps0_1 _ (Proc.devRef .tc main_v0) = _
  after_results
  all_goals rfl

theorem v2_eq (c : Dev nD) : (V3 m c main_v2 : S128x50176.Idx → EReal)
    = transpose S128x50176 [1, 0] (truncf (F := Ideal) .bf16 (V2 m c main_v0 : S50176x128.Idx → EReal) bitsLt_bf16_f32) Facts₀.transposes_S50176x128_S128x50176_1_0 := by
  show StableHlo.after hostOps0_2 _ (Proc.devRef .tc main_v2) = _
  after_results
  all_goals rfl

theorem v4_eq (c : Dev nD) : (V3 m c main_v4 : S800000.Idx → BitVec 32)
    = shapeCast S800000 (extractStridedSlice S1x800000 ![0, 0] (V2 m c main_arg1 : S2x800000.Idx → BitVec 32) Facts₀.slices_S2x800000_S1x800000_0_0) Facts₀.shapeCasts_S1x800000_S800000 := by
  show StableHlo.after hostOps0_2 _ (Proc.devRef .tc main_v4) = _
  after_results
  all_goals rfl

theorem v6_eq (c : Dev nD) : (V3 m c main_v6 : S800000.Idx → BitVec 32)
    = shapeCast S800000 (extractStridedSlice S1x800000 ![1, 0] (V2 m c main_arg1 : S2x800000.Idx → BitVec 32) Facts₀.slices_S2x800000_S1x800000_1_0) Facts₀.shapeCasts_S1x800000_S800000 := by
  show StableHlo.after hostOps0_2 _ (Proc.devRef .tc main_v6) = _
  after_results
  all_goals rfl

theorem c0_eq (c : Dev nD) : (V3 m c main_c_0 : S_.Idx → BitVec 32) = constantI S_ 32 50176#32 := by
  show StableHlo.after hostOps0_2 _ (Proc.devRef .tc main_c_0) = _
  after_results
  all_goals rfl

theorem v7_eq (c : Dev nD) : (V4 m c main_v7 : S802816.Idx → BitVec 32)
    = pad S802816 ![0] ![2816] ![0] (V3 m c main_v4 : S800000.Idx → BitVec 32) (V3 m c main_c_0 : S_.Idx → BitVec 32) Facts₀.pads_S800000_S802816_028160 Facts₀.h_S_ := by
  show StableHlo.after hostOps0_3 _ (Proc.devRef .tc main_v7) = _
  after_results
  all_goals rfl

theorem c1_eq (c : Dev nD) : (V5 m c main_c_1 : S_.Idx → BitVec 32) = constantI S_ 32 50176#32 := by
  show StableHlo.after hostOps0_4 _ (Proc.devRef .tc main_c_1) = _
  after_results
  all_goals rfl

theorem v8_eq (c : Dev nD) : (V6 m c main_v8 : S802816.Idx → BitVec 32)
    = pad S802816 ![0] ![2816] ![0] (V5 m c main_v6 : S800000.Idx → BitVec 32) (V5 m c main_c_1 : S_.Idx → BitVec 32) Facts₀.pads_S800000_S802816_028160 Facts₀.h_S_ := by
  show StableHlo.after hostOps0_5 _ (Proc.devRef .tc main_v8) = _
  after_results
  all_goals rfl

theorem v9_eq (c : Dev nD) : (V7 m c main_v9 : S1x802816.Idx → BitVec 32)
    = shapeCast S1x802816 (V6 m c main_v7 : S802816.Idx → BitVec 32) Facts₀.shapeCasts_S802816_S1x802816 := by
  show StableHlo.after hostOps0_6 _ (Proc.devRef .tc main_v9) = _
  after_results
  all_goals rfl

theorem v10_eq (c : Dev nD) : (V7 m c main_v10 : S1x802816.Idx → BitVec 32)
    = shapeCast S1x802816 (V6 m c main_v8 : S802816.Idx → BitVec 32) Facts₀.shapeCasts_S802816_S1x802816 := by
  show StableHlo.after hostOps0_6 _ (Proc.devRef .tc main_v10) = _
  after_results
  all_goals rfl

/-- The number of edges into each node of the padded range, as the host computes it. -/
abbrev degs (idx : S800000.Idx → BitVec 32) : S50176.Idx → EReal :=
  Host.scatterAdd (F := Ideal) scatter_S50176_S800000x1_S800000_n_0_0_1
    (broadcastInDim S50176 ![] Facts₀.bcast_S_S50176 (constant (F := Ideal) S_ .f32 0x00000000#32))
    (broadcastInDim S800000x1 ![0] Facts₀.bcast_S800000_S800000x1_0 idx)
    (broadcastInDim S800000 ![] Facts₀.bcast_S_S800000 (constant (F := Ideal) S_ .f32 0x3F800000#32))

theorem v19_eq (c : Dev nD) : (V7 m c main_v19 : S1x50176.Idx → EReal)
    = shapeCast S1x50176
        (Host.divf (F := Ideal) (broadcastInDim S50176 ![] Facts₀.bcast_S_S50176 (constant (F := Ideal) S_ .f32 0x3F800000#32))
          (maximumf (F := Ideal) (degs (V6 m c main_v6 : S800000.Idx → BitVec 32))
            (broadcastInDim S50176 ![] Facts₀.bcast_S_S50176 (constant (F := Ideal) S_ .f32 0x3F800000#32))))
        Facts₀.shapeCasts_S50176_S1x50176 := by
  show StableHlo.after hostOps0_6 _ (Proc.devRef .tc main_v19) = _
  after_results
  all_goals rfl

theorem v22_eq (c : Dev nD) : (V10 m outs c main_v22 : S50176x128.Idx → EReal)
    = transpose S50176x128 [1, 0] (V9 m outs c main_v21 : S128x50176.Idx → EReal) Facts₀.transposes_S128x50176_S50176x128_1_0 := by
  show StableHlo.after hostOps2 _ (Proc.devRef .tc main_v22) = _
  after_results
  all_goals rfl

theorem v23_eq (c : Dev nD) : (V10 m outs c main_v23 : S128x128.Idx → EReal)
    = extractStridedSlice S128x128 ![0, 0] (V9 m outs c main_arg2 : S256x128.Idx → EReal) Facts₀.slices_S256x128_S128x128_0_0 := by
  show StableHlo.after hostOps2 _ (Proc.devRef .tc main_v23) = _
  after_results
  all_goals rfl

theorem v24_eq (c : Dev nD) : (V10 m outs c main_v24 : S128x128.Idx → EReal)
    = extractStridedSlice S128x128 ![128, 0] (V9 m outs c main_arg2 : S256x128.Idx → EReal) Facts₀.slices_S256x128_S128x128_128_0 := by
  show StableHlo.after hostOps2 _ (Proc.devRef .tc main_v24) = _
  after_results
  all_goals rfl

theorem v25_eq (c : Dev nD) : (V10 m outs c main_v25 : S1x128.Idx → EReal)
    = shapeCast S1x128 (V9 m outs c main_arg3 : S128.Idx → EReal) Facts₀.shapeCasts_S128_S1x128 := by
  show StableHlo.after hostOps2 _ (Proc.devRef .tc main_v25) = _
  after_results
  all_goals rfl

theorem v26_eq (c : Dev nD) : (V10 m outs c main_v26 : S1x128.Idx → EReal)
    = shapeCast S1x128 (V9 m outs c main_arg5 : S128.Idx → EReal) Facts₀.shapeCasts_S128_S1x128 := by
  show StableHlo.after hostOps2 _ (Proc.devRef .tc main_v26) = _
  after_results
  all_goals rfl

theorem v28_eq (c : Dev nD) : (V12 m outs c main_v28 : S50000x128.Idx → EReal)
    = extractStridedSlice S50000x128 ![0, 0] (V11 m outs c main_v27 : S50176x128.Idx → EReal) Facts₀.slices_S50176x128_S50000x128_0_0 := by
  show StableHlo.after hostOps3 _ (Proc.devRef .tc main_v28) = _
  after_results
  all_goals rfl

/-! ## An argument carried through the items that do not write it -/

theorem arg_V7 (c : Dev nD) (r : Ref sig .tc) (h0 : r ∉ hostOps0_W) (h1 : r ∉ hostOps0_1_W) (h2 : r ∉ hostOps0_2_W)
    (h3 : r ∉ hostOps0_3_W) (h4 : r ∉ hostOps0_4_W) (h5 : r ∉ hostOps0_5_W) (h6 : r ∉ hostOps0_6_W) :
    V7 m c r = V0 m c r :=
  (V7_of m c r h6).trans <| (V6_of m c r h5).trans <| (V5_of m c r h4).trans <| (V4_of m c r h3).trans <|
    (V3_of m c r h2).trans <| (V2_of m c r h1).trans (V1_of m c r h0)

theorem arg_V9 (c : Dev nD) (r : Ref sig .tc) (h0 : r ∉ hostOps0_W) (h1 : r ∉ hostOps0_1_W) (h2 : r ∉ hostOps0_2_W)
    (h3 : r ∉ hostOps0_3_W) (h4 : r ∉ hostOps0_4_W) (h5 : r ∉ hostOps0_5_W) (h6 : r ∉ hostOps0_6_W)
    (h7 : r ∉ ([main_v20] : List (Ref sig .tc))) (h8 : r ∉ ([main_v21] : List (Ref sig .tc))) :
    V9 m outs c r = V0 m c r :=
  (V9_of m outs c r h8).trans <| (V8_of m outs c r h7).trans (arg_V7 m c r h0 h1 h2 h3 h4 h5 h6)

/-! ## The host values read at an index -/

/-- The source row of the edge list, as a vector. -/
theorem v4_at (c : Dev nD) (e : Fin 800000) :
    (V3 m c main_v4 : S800000.Idx → BitVec 32) (ix1 e) = aE m c (ix2 (0 : Fin 2) e) := by
  rw [v4_eq, shapeCast_1a_a_apply, slice2_axis0_eq]
  exact congrFun ((V2_of m c main_arg1 (by decide)).trans (V1_of m c main_arg1 (by decide))) _

/-- The destination row of the edge list, as a vector. -/
theorem v6_at (c : Dev nD) (e : Fin 800000) :
    (V3 m c main_v6 : S800000.Idx → BitVec 32) (ix1 e) = aE m c (ix2 (1 : Fin 2) e) := by
  rw [v6_eq, shapeCast_1a_a_apply, slice2_axis0_eq]
  exact congrFun ((V2_of m c main_arg1 (by decide)).trans (V1_of m c main_arg1 (by decide))) _

/-- The padded source ids: the edge list's on the edges, the sentinel after. -/
theorem src_at (c : Dev nD) (e : Fin 802816) :
    (V7 m c main_v9 : S1x802816.Idx → BitVec 32) (ix2 (0 : Fin 1) e)
      = if he : e.val < 800000 then aE m c (ix2 (0 : Fin 2) ⟨e.val, he⟩) else 50176#32 := by
  rw [v9_eq, shapeCast_a_1a_apply, V6_of m c main_v7 (by decide), V5_of m c main_v7 (by decide), v7_eq, pad_tail_apply]
  by_cases he : e.val < 800000
  · rw [dif_pos he, dif_pos he, v4_at]
  · rw [dif_neg he, dif_neg he, c0_eq]; rfl

/-- The padded destination ids: the edge list's on the edges, the sentinel after. -/
theorem dst_at (c : Dev nD) (e : Fin 802816) :
    (V7 m c main_v10 : S1x802816.Idx → BitVec 32) (ix2 (0 : Fin 1) e)
      = if he : e.val < 800000 then aE m c (ix2 (1 : Fin 2) ⟨e.val, he⟩) else 50176#32 := by
  rw [v10_eq, shapeCast_a_1a_apply, v8_eq, pad_tail_apply, V5_of m c main_v6 (by decide), V4_of m c main_v6 (by decide)]
  by_cases he : e.val < 800000
  · rw [dif_pos he, dif_pos he, v6_at]
  · rw [dif_neg he, dif_neg he, c1_eq]; rfl

/-- The padded feature table: the features on the nodes' rows, zero below. -/
theorem v0_at (c : Dev nD) (r : Fin 50176) (a : Fin 128) :
    (V2 m c main_v0 : S50176x128.Idx → EReal) (ix2 r a)
      = if hr : r.val < 50000 then aH m c (ix2 ⟨r.val, hr⟩ a) else 0 := by
  rw [v0_eq, pad_rows_apply]
  by_cases hr : r.val < 50000
  · rw [dif_pos hr, dif_pos hr]
    exact congrFun (V1_of m c main_arg0 (by decide)) _
  · rw [dif_neg hr, dif_neg hr, c_eq]
    show (((0#32 : BitVec 32).toInt : ℝ) : EReal) = 0
    simp

/-- The transposed padded table. -/
theorem tbl_at (c : Dev nD) (a : Fin 128) (r : Fin 50176) :
    (V7 m c main_v2 : S128x50176.Idx → EReal) (ix2 a r)
      = if hr : r.val < 50000 then aH m c (ix2 ⟨r.val, hr⟩ a) else 0 := by
  rw [V7_of m c main_v2 (by decide), V6_of m c main_v2 (by decide), V5_of m c main_v2 (by decide), V4_of m c main_v2 (by decide),
    v2_eq, transpose_ix2_apply]
  exact v0_at m c r a

end Cert.KernelIdeal.Val

end
-- ==== Proof.Val.HostKMath.lean ====
/-
  The three calls' functions composed, against the layer's function of the arguments: a gathered column is the source
  row the edge names, the aggregated entry is the degree-normalised sum over the edges into the node (the padded edges
  carry a sentinel id that is no node), and the two dense layers read the halves of the first weight matrix.
-/
import proofs.«427921_j16320875725295_2_alg».proof.Proof.Val.Spec
import proofs.«427921_j16320875725295_2_alg».proof.Proof.Val.HostKAux

noncomputable section

namespace Cert.KernelIdeal.Val

open Idealize.ShloMosaic Idealize.ShloMosaic.ValueIdx
open Cert.Spec
open scoped BigOperators

/-- A 32-bit id is a node below the sentinel as a natural number exactly when it is that node as a signed integer. -/
theorem toNat_eq_iff_toInt_eq (w : BitVec 32) (n : ℕ) (hn : n < 50176) : w.toNat = n ↔ w.toInt = (n : ℤ) := by
  have hw := w.isLt
  rw [BitVec.toInt_eq_toNat_cond]
  split <;> omega

/-- The gathered column of an edge is the source row the edge names: the padded table's rows past the nodes are zero,
    and an id that names no column of the padded table names no node either. -/
theorem gathered_eq_srcRow (src : SrcRow.Idx → BitVec 32) (tblT : TblT.Idx → EReal) (h : Feat.Idx → EReal)
    (ei : Edges.Idx → BitVec 32) (a : Fin 128) (e : Fin 802816) (he : e.val < 800000)
    (hsrc : src (ix2 (0 : Fin 1) e) = ei (ix2 (0 : Fin 2) ⟨e.val, he⟩))
    (htbl : ∀ r : Fin 50176, tblT (ix2 a r) = if hr : r.val < 50000 then h (ix2 ⟨r.val, hr⟩ a) else 0) :
    gathered src tblT (ix2 a e) = srcRow h ei ⟨e.val, he⟩ a := by
  unfold gathered srcRow
  show (if h' : (src (ix2 (0 : Fin 1) e)).toNat < 50176 then tblT (ix2 a ⟨(src (ix2 (0 : Fin 1) e)).toNat, h'⟩) else 0) = _
  rw [hsrc]
  by_cases h1 : (ei (ix2 (0 : Fin 2) ⟨e.val, he⟩)).toNat < 50000
  · have h2 : (ei (ix2 (0 : Fin 2) ⟨e.val, he⟩)).toNat < 50176 := by omega
    rw [dif_pos h2, dif_pos h1, htbl, dif_pos h1]
  · rw [dif_neg h1]
    by_cases h2 : (ei (ix2 (0 : Fin 2) ⟨e.val, he⟩)).toNat < 50176
    · rw [dif_pos h2, htbl, dif_neg h1]
    · rw [dif_neg h2]

/-- The aggregated entry of a node: the padded edges carry the sentinel, which is no node, so the sum over the padded
    range is the sum over the edges into the node. -/
theorem scattered_eq_meanIn (dst : SrcRow.Idx → BitVec 32) (g : GathT.Idx → EReal) (rdeg : DegRow.Idx → EReal)
    (h : Feat.Idx → EReal) (ei : Edges.Idx → BitVec 32) (n : Fin 50000) (n' : Fin 50176) (hn : n'.val = n.val) (a : Fin 128)
    (hdst : ∀ e : Fin 802816, dst (ix2 (0 : Fin 1) e)
      = if he : e.val < 800000 then ei (ix2 (1 : Fin 2) ⟨e.val, he⟩) else 50176#32)
    (hg : ∀ (e : Fin 802816) (he : e.val < 800000), g (ix2 a e) = srcRow h ei ⟨e.val, he⟩ a)
    (hr : rdeg (ix2 (0 : Fin 1) n') = Ideal.div 1 (max (indeg ei n.val) 1)) :
    scattered dst g rdeg (ix2 a n') = meanIn h ei n a := by
  unfold scattered meanIn
  show (∑ e ∈ Finset.univ.filter (fun e : Fin 802816 => (dst (ix2 (0 : Fin 1) e)).toNat = n'.val), g (ix2 a e))
      * rdeg (ix2 (0 : Fin 1) n') = _
  rw [hr]
  refine congrArg (fun s => s * Ideal.div 1 (max (indeg ei n.val) 1)) ?_
  unfold into
  rw [Finset.sum_filter, Finset.sum_filter]
  refine (sum_fin_add_of_tail_zero (N := 800000) (M := 2816)
    (fun e => if (dst (ix2 (0 : Fin 1) e)).toNat = n'.val then g (ix2 a e) else 0) (fun i => ?_)).trans ?_
  · have hi : ¬ (Fin.natAdd 800000 i).val < 800000 := by
      show ¬ (800000 + i.val < 800000); omega
    show (if (dst (ix2 (0 : Fin 1) (Fin.natAdd 800000 i))).toNat = n'.val then g (ix2 a (Fin.natAdd 800000 i)) else 0) = 0
    rw [hdst, dif_neg hi, if_neg]
    rw [show (50176#32 : BitVec 32).toNat = 50176 from rfl]
    have := n.isLt
    omega
  · refine Finset.sum_congr rfl fun i _ => ?_
    have hi : (Fin.castAdd 2816 i).val < 800000 := i.isLt
    show (if (dst (ix2 (0 : Fin 1) (Fin.castAdd 2816 i))).toNat = n'.val then g (ix2 a (Fin.castAdd 2816 i)) else 0) = _
    rw [hdst, dif_pos hi, hg _ hi, hn]
    have hiff := toNat_eq_iff_toInt_eq (ei (ix2 (1 : Fin 2) i)) n.val (by have := n.isLt; omega)
    show (if (ei (ix2 (1 : Fin 2) i)).toNat = n.val then srcRow h ei i a else 0)
      = if (ei (ix2 (1 : Fin 2) i)).toInt = (n.val : ℤ) then srcRow h ei i a else 0
    by_cases hc : (ei (ix2 (1 : Fin 2) i)).toNat = n.val
    · rw [if_pos hc, if_pos (hiff.mp hc)]
    · rw [if_neg hc, if_neg (fun h' => hc (hiff.mpr h'))]

/-- The two dense layers over the padded arrays, at a node's row, are the layer's result: the row holds the node's
    features and its normalised neighbourhood sum, the weights are the halves of the first matrix, the biases are rows. -/
theorem dense2_eq_layer (x agg : Tbl.Idx → EReal) (w1x w1a : Sq.Idx → EReal) (b1r : Row.Idx → EReal) (w2 : Sq.Idx → EReal)
    (b2r : Row.Idx → EReal) (h : Feat.Idx → EReal) (ei : Edges.Idx → BitVec 32) (w1 : W1S.Idx → EReal)
    (b1 b2 : Vec128.Idx → EReal) (n : Fin 50000) (n' : Fin 50176) (k : Fin 128)
    (hx : ∀ a : Fin 128, x (ix2 n' a) = h (ix2 n a))
    (hagg : ∀ a : Fin 128, agg (ix2 n' a) = meanIn h ei n a)
    (hw1x : ∀ a k : Fin 128, w1x (ix2 a k) = w1 (ix2 (⟨a.val, by omega⟩ : Fin 256) k))
    (hw1a : ∀ a k : Fin 128, w1a (ix2 a k) = w1 (ix2 (⟨128 + a.val, by omega⟩ : Fin 256) k))
    (hb1 : ∀ k : Fin 128, b1r (ix2 (0 : Fin 1) k) = b1 (ix1 k))
    (hb2 : ∀ k : Fin 128, b2r (ix2 (0 : Fin 1) k) = b2 (ix1 k)) :
    dense2 x agg w1x w1a b1r w2 b2r (ix2 n' k) = layer h ei w1 b1 w2 b2 (ix2 n k) := by
  unfold dense2 layer
  show max ((∑ k' : Fin 128,
      max (((∑ a : Fin 128, x (ix2 n' a) * w1x (ix2 a k')) + (∑ a : Fin 128, agg (ix2 n' a) * w1a (ix2 a k')))
        + b1r (ix2 (0 : Fin 1) k')) 0 * w2 (ix2 k' k)) + b2r (ix2 (0 : Fin 1) k)) 0
    = max ((∑ k' : Fin 128,
      max (((∑ a : Fin 128, h (ix2 n a) * w1 (ix2 (⟨a.val, by omega⟩ : Fin 256) k'))
          + (∑ a : Fin 128, meanIn h ei n a * w1 (ix2 (⟨128 + a.val, by omega⟩ : Fin 256) k')))
        + b1 (ix1 k')) 0 * w2 (ix2 k' k)) + b2 (ix1 k)) 0
  simp only [hx, hagg, hw1x, hw1a, hb1, hb2]

end Cert.KernelIdeal.Val

end
-- ==== Proof.Val.HostK.lean ====
/-
  The kernel program outside its three calls: what the host operations before, between and after the calls compute
  (the padded and transposed feature table, the padded id rows, the reciprocal degrees, the transposed aggregate, the
  halves of the first weight matrix, the bias rows, the final slice), and hence the program's result as the layer
  function of the arguments, once the three calls are known to leave the gathered, aggregated and dense arrays.
-/
import proofs.«427921_j16320875725295_2_alg».proof.Proof.Gen.KernelIdeal.Regions
import proofs.«427921_j16320875725295_2_alg».proof.Proof.Val.Spec
import proofs.«427921_j16320875725295_2_alg».proof.Proof.Val.HostKVals
import proofs.«427921_j16320875725295_2_alg».proof.Proof.Val.HostKMath
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws

noncomputable section

namespace Cert.KernelIdeal.Val

open Idealize.ShloMosaic Idealize.ShloMosaic.TcCoe Idealize.ShloMosaic.ValueIdx
open Idealize.SL Idealize.SL.Sem
open Cert.KernelIdeal Cert.KernelIdeal.Gen
open scoped BigOperators

variable (m : (ℓ : Loc nD τ sig) → Buf (Elt Ideal) ℓ) (outs : Outs (F := Ideal))

/-! ## The reciprocal degrees, the weights and the biases read at an index -/

/-- The column of destination ids the scatter reads. -/
theorem col_at (idx : S800000.Idx → BitVec 32) (e : Fin 800000) :
    broadcastInDim S800000x1 ![0] Facts₀.bcast_S800000_S800000x1_0 idx (ix2 e (0 : Fin 1)) = idx (ix1 e) :=
  broadcastInDim_apply _ _ idx _ (ix1 e) (fun ax => by
    match ax with
    | ⟨0, _⟩ => show e.val = if (800000 : ℕ) = 1 then 0 else e.val; rw [if_neg (by decide)])

/-- The host's degree count at a node: zero plus a one for every edge whose destination id, read signed, is the node. -/
theorem degs_at (idx : S800000.Idx → BitVec 32) (n : Fin 50176) :
    degs idx (ix1 n) = 0 + ∑ e ∈ Finset.univ.filter (fun e : Fin 800000 => (idx (ix1 e)).toInt = (n.val : ℤ)), (1 : EReal) := by
  have e1 : degs idx = Ideal.hostScatterAdd (vecScatterDims 50176 800000 Facts₀.scatter_S50176_S800000x1_S800000_n_0_0_1_wf)
      (broadcastInDim S50176 ![] Facts₀.bcast_S_S50176 (constant (F := Ideal) S_ .f32 0x00000000#32))
      (broadcastInDim S800000x1 ![0] Facts₀.bcast_S800000_S800000x1_0 idx)
      (broadcastInDim S800000 ![] Facts₀.bcast_S_S800000 (constant (F := Ideal) S_ .f32 0x3F800000#32)) := rfl
  rw [e1, scatterAdd_vec_apply, broadcastInDim_scalar_apply, constant_apply, Ideal.ofBits_zero_f32]
  refine congrArg (fun s => (0 : EReal) + s) ?_
  refine Finset.sum_congr (Finset.filter_congr fun e _ => ?_) fun e _ => ?_
  · rw [col_at]
  · rw [broadcastInDim_scalar_apply, constant_apply, Ideal.ofBits_one_f32]

/-- The reciprocal degree row. -/
theorem rdeg_at (c : Dev nD) (n : Fin 50176) :
    (V7 m c main_v19 : S1x50176.Idx → EReal) (ix2 (0 : Fin 1) n)
      = Ideal.div 1 (max (Cert.Spec.indeg (aE m c) n.val) 1) := by
  have hd : degs (V6 m c main_v6 : S800000.Idx → BitVec 32) (ix1 n) = Cert.Spec.indeg (aE m c) n.val := by
    rw [degs_at, zero_add]
    unfold Cert.Spec.indeg Cert.Spec.into
    refine Finset.sum_congr (Finset.filter_congr fun e _ => ?_) fun _ _ => rfl
    rw [V6_of m c main_v6 (by decide), V5_of m c main_v6 (by decide), V4_of m c main_v6 (by decide), v6_at]
  rw [v19_eq, shapeCast_a_1a_apply, hostDivf_apply, maximumf_apply, hd, broadcastInDim_scalar_apply, constant_apply,
    Ideal.ofBits_one_f32]

/-- The node features as the dense layers read them. -/
theorem x_at (c : Dev nD) (r : Fin 50176) (a : Fin 128) :
    (V10 m outs c main_v0 : S50176x128.Idx → EReal) (ix2 r a)
      = if hr : r.val < 50000 then aH m c (ix2 ⟨r.val, hr⟩ a) else 0 := by
  rw [V10_of m outs c main_v0 (by decide), V9_of m outs c main_v0 (by decide), V8_of m outs c main_v0 (by decide),
    V7_of m c main_v0 (by decide), V6_of m c main_v0 (by decide), V5_of m c main_v0 (by decide), V4_of m c main_v0 (by decide),
    V3_of m c main_v0 (by decide)]
  exact v0_at m c r a

/-- The first weight matrix, unchanged up to the dense layers. -/
theorem w1_V9 (c : Dev nD) : (V9 m outs c main_arg2 : S256x128.Idx → EReal) = aW1 m c :=
  arg_V9 m outs c main_arg2 (by decide) (by decide) (by decide) (by decide) (by decide) (by decide) (by decide) (by decide) (by decide)

/-- The upper half of the first weight matrix. -/
theorem w1x_at (c : Dev nD) (a k : Fin 128) :
    (V10 m outs c main_v23 : S128x128.Idx → EReal) (ix2 a k) = aW1 m c (ix2 (⟨a.val, by omega⟩ : Fin 256) k) := by
  rw [v23_eq, slice2_axis0_apply 0 _ _ a k (⟨a.val, by omega⟩ : Fin 256) (Nat.zero_add _).symm, w1_V9]

/-- The lower half of the first weight matrix. -/
theorem w1a_at (c : Dev nD) (a k : Fin 128) :
    (V10 m outs c main_v24 : S128x128.Idx → EReal) (ix2 a k) = aW1 m c (ix2 (⟨128 + a.val, by omega⟩ : Fin 256) k) := by
  rw [v24_eq, slice2_axis0_apply 128 _ _ a k (⟨128 + a.val, by omega⟩ : Fin 256) rfl, w1_V9]

/-- The first bias as a row. -/
theorem b1_at (c : Dev nD) (k : Fin 128) :
    (V10 m outs c main_v25 : S1x128.Idx → EReal) (ix2 (0 : Fin 1) k) = aB1 m c (ix1 k) := by
  rw [v25_eq, shapeCast_a_1a_apply]
  exact congrFun (arg_V9 m outs c main_arg3 (by decide) (by decide) (by decide) (by decide) (by decide) (by decide) (by decide)
    (by decide) (by decide)) _

/-- The second bias as a row. -/
theorem b2_at (c : Dev nD) (k : Fin 128) :
    (V10 m outs c main_v26 : S1x128.Idx → EReal) (ix2 (0 : Fin 1) k) = aB2 m c (ix1 k) := by
  rw [v26_eq, shapeCast_a_1a_apply]
  exact congrFun (arg_V9 m outs c main_arg5 (by decide) (by decide) (by decide) (by decide) (by decide) (by decide) (by decide)
    (by decide) (by decide)) _

/-- The second weight matrix, unchanged. -/
theorem w2_eq (c : Dev nD) : (V10 m outs c main_arg4 : S128x128.Idx → EReal) = aW2 m c :=
  (V10_of m outs c main_arg4 (by decide)).trans
    (arg_V9 m outs c main_arg4 (by decide) (by decide) (by decide) (by decide) (by decide) (by decide) (by decide) (by decide)
      (by decide))

/-! ## The program's result -/

/-- The aggregated features at a node's row: the transposed aggregate is the scattered sum of the gathered columns,
    which are the source rows, times the reciprocal degree. -/
theorem agg_at (c : Dev nD)
    (h8 : (outs 8 main_v20 c : S128x802816.Idx → EReal)
      = Cert.Spec.gathered (V7 m c main_v9 : S1x802816.Idx → BitVec 32) (V7 m c main_v2 : S128x50176.Idx → EReal))
    (h9 : (outs 9 main_v21 c : S128x50176.Idx → EReal)
      = Cert.Spec.scattered (V8 m outs c main_v10 : S1x802816.Idx → BitVec 32) (V8 m outs c main_v20 : S128x802816.Idx → EReal)
          (V8 m outs c main_v19 : S1x50176.Idx → EReal))
    (n : Fin 50000) (hn : n.val < 50176) (a : Fin 128) :
    (V10 m outs c main_v22 : S50176x128.Idx → EReal) (ix2 (⟨n.val, hn⟩ : Fin 50176) a)
      = Cert.Spec.meanIn (aH m c) (aE m c) n a := by
  have e21 : (V9 m outs c main_v21 : S128x50176.Idx → EReal) = (outs 9 main_v21 c : S128x50176.Idx → EReal) :=
    Function.update_self _ _ _
  have e20 : (V8 m outs c main_v20 : S128x802816.Idx → EReal) = (outs 8 main_v20 c : S128x802816.Idx → EReal) :=
    Function.update_self _ _ _
  rw [v22_eq, transpose_ix2_apply, e21, h9]
  refine scattered_eq_meanIn _ _ _ (aH m c) (aE m c) n (⟨n.val, hn⟩ : Fin 50176) rfl a ?_ ?_ ?_
  · intro e
    rw [V8_of m outs c main_v10 (by decide)]
    exact dst_at m c e
  · intro e he
    rw [e20, h8]
    refine gathered_eq_srcRow _ _ (aH m c) (aE m c) a e he ?_ (fun r => tbl_at m c a r)
    rw [src_at, dif_pos he]
  · rw [V8_of m outs c main_v19 (by decide)]
    exact rdeg_at m c (⟨n.val, hn⟩ : Fin 50176)

/-- The program's result, from what the three calls leave. -/
theorem kernel_result (c : Dev nD)
    (h8 : (outs 8 main_v20 c : S128x802816.Idx → EReal)
      = Cert.Spec.gathered (V7 m c main_v9 : S1x802816.Idx → BitVec 32) (V7 m c main_v2 : S128x50176.Idx → EReal))
    (h9 : (outs 9 main_v21 c : S128x50176.Idx → EReal)
      = Cert.Spec.scattered (V8 m outs c main_v10 : S1x802816.Idx → BitVec 32) (V8 m outs c main_v20 : S128x802816.Idx → EReal)
          (V8 m outs c main_v19 : S1x50176.Idx → EReal))
    (h11 : (outs 11 main_v27 c : S50176x128.Idx → EReal)
      = Cert.Spec.dense2 (V10 m outs c main_v0 : S50176x128.Idx → EReal) (V10 m outs c main_v22 : S50176x128.Idx → EReal)
          (V10 m outs c main_v23 : S128x128.Idx → EReal) (V10 m outs c main_v24 : S128x128.Idx → EReal)
          (V10 m outs c main_v25 : S1x128.Idx → EReal) (V10 m outs c main_arg4 : S128x128.Idx → EReal)
          (V10 m outs c main_v26 : S1x128.Idx → EReal)) :
    (V12 m outs c main_v28 : S50000x128.Idx → EReal)
      = Cert.Spec.layer (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5)) := by
  funext j
  obtain ⟨n, k, rfl⟩ : ∃ (n : Fin 50000) (k : Fin 128), j = ix2 n k := ⟨j 0, j 1, eq_ix2 j⟩
  have hn : n.val < 50176 := by have := n.isLt; omega
  have e27 : (V11 m outs c main_v27 : S50176x128.Idx → EReal) = (outs 11 main_v27 c : S50176x128.Idx → EReal) :=
    Function.update_self _ _ _
  rw [v28_eq, slice2_axis0_apply 0 _ _ n k (⟨n.val, hn⟩ : Fin 50176) (Nat.zero_add _).symm, e27, h11, w2_eq]
  refine dense2_eq_layer _ _ _ _ _ _ _ (aH m c) (aE m c) (aW1 m c) (aB1 m c) (aB2 m c) n (⟨n.val, hn⟩ : Fin 50176) k
    (fun a => ?_) (fun a => agg_at m outs c h8 h9 n hn a) (w1x_at m outs c) (w1a_at m outs c) (b1_at m outs c) (b2_at m outs c)
  exact (x_at m outs c (⟨n.val, hn⟩ : Fin 50176) a).trans (dif_pos n.isLt)

end Cert.KernelIdeal.Val

end
-- ==== Proof.LibRowGatherScatter.lean ====
/-
  Rows of a table gathered by, and scattered-and-added at, a column of integer indices, read at one element.

  The table has `N` rows of `C` entries; the indices are an `E × 1` column of machine integers.

  * The gather of rows (what `table[idx]` lowers to: one collapsed axis, one offset axis, the start index naming a
    row) reads, at `(e, k)`, the table's entry `k` of the row the index `e` names — the index read as a signed
    integer and clamped into `[0, N - 1]`.
  * The accumulating scatter of rows (what `segment_sum` / `.at[idx].add` lowers to), at the ideal values, leaves at
    `(i, k)` the operand's entry plus the sum of the updates' entries `k` over the rows `e` whose index, read as a
    signed integer and NOT clamped, is `i`; an index that names no row contributes nowhere.
-/
import Idealize.ShloMosaic.PureOps.Ideal
import Idealize.ShloMosaic.Lib.ValueIdx

noncomputable section

namespace Cert.Gcn

open Idealize.ShloMosaic Idealize.ShloMosaic.ValueIdx
open scoped BigOperators

/-! ## The gather of rows -/

/-- The dimension numbers of a row gather: operand `N × C`, start indices `E × 1`, result `E × C`. -/
abbrev rowGatherDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(e, k)`: entry `k` of the row that index `e` names, read signed and clamped into
    `[0, N - 1]`. -/
theorem gather_rows_apply {α : Type} {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (k : Fin C) :
    Host.gather (rowGatherDims N E C wf) x idx (ix2 e k)
      = x (ix2 ⟨min (idx (ix2 e (0 : Fin 1))).toInt.toNat (N - 1), by omega⟩ k) := by
  unfold Host.gather
  congr 1
  funext a
  refine Fin.ext ?_
  show (rowGatherDims N E C wf).start (ix2 e k) idx a + (rowGatherDims N E C wf).batchCoord (ix2 e k) a
      + (rowGatherDims N E C wf).offCoord (ix2 e k) a = _
  rw [GatherDims.batchCoord_eq_zero _ _ _ List.not_mem_nil]
  match a with
  | ⟨0, _⟩ =>
    rw [GatherDims.offCoord_eq_zero _ _ _ (fun h => ((GatherDims.mem_sKept _ _).mp h).1 (List.mem_singleton.mpr rfl))]
    simp only [Nat.add_zero]
    unfold GatherDims.start
    rw [dif_pos (show (⟨0, by decide⟩ : Fin 2) ∈ (rowGatherDims N E C wf).startIndexMap from List.mem_singleton.mpr rfl)]
    have hsi : (rowGatherDims N E C wf).siIdx (ix2 e k) ⟨List.idxOf (⟨0, by decide⟩ : Fin 2) (rowGatherDims N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowGatherDims N E C wf).start (ix2 e k) idx (1 : Fin 2) + 0
        + (rowGatherDims N E C wf).offCoord (ix2 e k) (1 : Fin 2) = k.val
    have hs : (rowGatherDims N E C wf).start (ix2 e k) idx (1 : Fin 2) = 0 := by
      unfold GatherDims.start
      rw [dif_neg (show (1 : Fin 2) ∉ ([0] : List (Fin 2)) from by decide)]
    have hm : (1 : Fin 2) ∈ (rowGatherDims N E C wf).sKept :=
      (GatherDims.mem_sKept _ _).mpr ⟨show (1 : Fin 2) ∉ ([0] : List (Fin 2)) from by decide, List.not_mem_nil⟩
    rw [hs]
    unfold GatherDims.offCoord
    rw [dif_pos hm]
    simp only [Nat.zero_add]
    rfl

/-! ## The accumulating scatter of rows -/

/-- The dimension numbers of a row scatter: operand `N × C`, scatter indices `E × 1`, updates `E × C`. -/
abbrev rowScatterDims (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

section
variable {N E C w : Nat} (wf : ScatterDims.WF ⟨2, ![N, C]⟩ ⟨2, ![E, 1]⟩ ⟨2, ![E, C]⟩ [1] [0] [0] 1)
  (idx : IVec ⟨2, ![E, 1]⟩ w) (e : Fin E) (k : Fin C)

/-- On the row axis the update `(e, k)` lands at the signed value of index `e`. -/
theorem rowScatter_pos0 :
    (rowScatterDims N E C wf).start (ix2 e k) idx (0 : Fin 2) + ((rowScatterDims N E C wf).window (ix2 e k) (0 : Fin 2) : ℤ)
      = (idx (ix2 e (0 : Fin 1))).toInt := by
  have hw : (rowScatterDims N E C wf).window (ix2 e k) (0 : Fin 2) = 0 := by
    have h0 : (0 : Fin 2) ∉ (rowScatterDims N E C wf).sKept := show (0 : Fin 2) ∉ ([1] : List (Fin 2)) from by decide
    unfold ScatterDims.window
    rw [dif_neg h0]
  rw [hw]
  unfold ScatterDims.start
  rw [dif_pos (show (0 : Fin 2) ∈ ([0] : List (Fin 2)) from by decide)]
  have hsi : (rowScatterDims N E C wf).siIdx (ix2 e k) ⟨List.idxOf (0 : Fin 2) (rowScatterDims N E C wf).scatterDimsToOperandDims,
      List.idxOf_lt_length_iff.2 (show (0 : Fin 2) ∈ ([0] : List (Fin 2)) from by decide)⟩ = ix2 e (0 : Fin 1) := by
    funext b; refine Fin.ext ?_
    match b with
    | ⟨0, _⟩ => rfl
    | ⟨1, _⟩ => rfl
  rw [hsi]
  simp

/-- On the column axis the update `(e, k)` lands at `k`. -/
theorem rowScatter_pos1 :
    (rowScatterDims N E C wf).start (ix2 e k) idx (1 : Fin 2) + ((rowScatterDims N E C wf).window (ix2 e k) (1 : Fin 2) : ℤ)
      = (k.val : ℤ) := by
  have hs : (rowScatterDims N E C wf).start (ix2 e k) idx (1 : Fin 2) = 0 := by
    unfold ScatterDims.start
    rw [dif_neg (show (1 : Fin 2) ∉ ([0] : List (Fin 2)) from by decide)]
  have hw : (rowScatterDims N E C wf).window (ix2 e k) (1 : Fin 2) = k.val := by
    have h1 : (1 : Fin 2) ∈ (rowScatterDims N E C wf).sKept := show (1 : Fin 2) ∈ ([1] : List (Fin 2)) from by decide
    unfold ScatterDims.window
    rw [dif_pos h1]
    rfl
  rw [hs, hw, zero_add]

end

section
variable {N E C w : Nat} (wf : ScatterDims.WF ⟨2, ![N, C]⟩ ⟨2, ![E, 1]⟩ ⟨2, ![E, C]⟩ [1] [0] [0] 1)
  (idx : IVec ⟨2, ![E, 1]⟩ w)

/-- The update `(e, b)` lands on `(i, k)` exactly when index `e`, read signed, is `i` and `b = k`. -/
theorem rowScatter_resultIdx (e : Fin E) (b : Fin C) (i : Fin N) (k : Fin C) :
    (rowScatterDims N E C wf).resultIdx? (ix2 e b) idx = some (ix2 i k)
      ↔ (idx (ix2 e (0 : Fin 1))).toInt = (i.val : ℤ) ∧ b = k := by
  have p0 := rowScatter_pos0 wf idx e b
  have p1 := rowScatter_pos1 wf idx e b
  unfold ScatterDims.resultIdx?
  constructor
  · intro h
    split at h
    · rename_i hb
      have hf := Option.some.inj h
      have h0 : ((rowScatterDims N E C wf).start (ix2 e b) idx (0 : Fin 2)
          + ((rowScatterDims N E C wf).window (ix2 e b) (0 : Fin 2) : ℤ)).toNat = i.val :=
        congrArg (fun f => (f (0 : Fin 2)).val) hf
      have h1 : ((rowScatterDims N E C wf).start (ix2 e b) idx (1 : Fin 2)
          + ((rowScatterDims N E C wf).window (ix2 e b) (1 : Fin 2) : ℤ)).toNat = k.val :=
        congrArg (fun f => (f (1 : Fin 2)).val) hf
      have b0 := (hb (0 : Fin 2)).1
      rw [p0] at h0 b0
      rw [p1] at h1
      exact ⟨by omega, Fin.ext (by omega)⟩
    · exact absurd h (by simp)
  · rintro ⟨h0, rfl⟩
    have hb : ∀ a : Fin 2, 0 ≤ (rowScatterDims N E C wf).start (ix2 e b) idx a + ((rowScatterDims N E C wf).window (ix2 e b) a : ℤ)
        ∧ (rowScatterDims N E C wf).start (ix2 e b) idx a + ((rowScatterDims N E C wf).window (ix2 e b) a : ℤ)
          < (((⟨2, ![N, C]⟩ : Shape).size a : ℕ) : ℤ) := by
      intro a
      match a with
      | ⟨0, _⟩ =>
        show 0 ≤ (rowScatterDims N E C wf).start (ix2 e b) idx (0 : Fin 2) + ((rowScatterDims N E C wf).window (ix2 e b) (0 : Fin 2) : ℤ)
          ∧ (rowScatterDims N E C wf).start (ix2 e b) idx (0 : Fin 2) + ((rowScatterDims N E C wf).window (ix2 e b) (0 : Fin 2) : ℤ) < ((N : ℕ) : ℤ)
        rw [p0, h0]
        exact ⟨by omega, by exact_mod_cast i.isLt⟩
      | ⟨1, _⟩ =>
        show 0 ≤ (rowScatterDims N E C wf).start (ix2 e b) idx (1 : Fin 2) + ((rowScatterDims N E C wf).window (ix2 e b) (1 : Fin 2) : ℤ)
          ∧ (rowScatterDims N E C wf).start (ix2 e b) idx (1 : Fin 2) + ((rowScatterDims N E C wf).window (ix2 e b) (1 : Fin 2) : ℤ) < ((C : ℕ) : ℤ)
        rw [p1]
        exact ⟨by omega, by exact_mod_cast b.isLt⟩
    rw [dif_pos hb]
    congr 1
    funext a
    refine Fin.ext ?_
    match a with
    | ⟨0, _⟩ =>
      show ((rowScatterDims N E C wf).start (ix2 e b) idx (0 : Fin 2) + ((rowScatterDims N E C wf).window (ix2 e b) (0 : Fin 2) : ℤ)).toNat = i.val
      rw [p0, h0]; simp
    | ⟨1, _⟩ =>
      show ((rowScatterDims N E C wf).start (ix2 e b) idx (1 : Fin 2) + ((rowScatterDims N E C wf).window (ix2 e b) (1 : Fin 2) : ℤ)).toNat = b.val
      rw [p1]; simp

/-- THE ACCUMULATING ROW SCATTER READ AT `(i, k)`, at the ideal values: the operand's entry plus the sum of the
    updates' entries `k` over the rows `e` whose index, read signed, is `i`. -/
theorem scatterAdd_rows_apply (x : (⟨2, ![N, C]⟩ : Shape).Idx → EReal) (upd : (⟨2, ![E, C]⟩ : Shape).Idx → EReal)
    (i : Fin N) (k : Fin C) :
    Ideal.hostScatterAdd (rowScatterDims N E C wf) x idx upd (ix2 i k)
      = x (ix2 i k) + ∑ e ∈ Finset.univ.filter (fun e : Fin E => (idx (ix2 e (0 : Fin 1))).toInt = (i.val : ℤ)), upd (ix2 e k) := by
  unfold Ideal.hostScatterAdd
  congr 1
  rw [Finset.sum_filter, sum_idx2, Finset.sum_filter]
  refine Finset.sum_congr rfl fun e _ => ?_
  simp only [rowScatter_resultIdx wf idx e _ i k]
  by_cases h : (idx (ix2 e (0 : Fin 1))).toInt = (i.val : ℤ)
  · simp [h]
  · simp [h]

end

end Cert.Gcn

end
-- ==== Proof.LibVecScatter.lean ====
/-
  An accumulating scatter of scalars along one axis, read at one element.

  The operand has `N` entries; the indices are an `E × 1` column of machine integers; the updates are `E` scalars.
  At the ideal values the scatter leaves at `i` the operand's entry plus the sum of the updates over the positions
  `e` whose index, read as a signed integer and NOT clamped, is `i`; an index that names no entry contributes nowhere.
-/
import Idealize.ShloMosaic.PureOps.Ideal
import Idealize.ShloMosaic.Lib.ValueIdx

noncomputable section

namespace Cert.Gcn

open Idealize.ShloMosaic Idealize.ShloMosaic.ValueIdx
open scoped BigOperators

/-- A rank-1 index set is its one coordinate's range, so a sum over it is the sum over the coordinate. -/
theorem sum_ix1 {M : Type*} [AddCommMonoid M] {n : Nat} (f : (⟨1, ![n]⟩ : Shape).Idx → M) :
    ∑ i, f i = ∑ a : Fin n, f (ix1 a) := by
  let eqv : (⟨1, ![n]⟩ : Shape).Idx ≃ Fin n :=
    { toFun := fun i => i 0, invFun := fun a => ix1 a, left_inv := fun i => (eq_ix1 i).symm, right_inv := fun _ => rfl }
  rw [← Equiv.sum_comp eqv.symm f]
  rfl

/-- The dimension numbers of a scatter of scalars: operand `N`, scatter indices `E × 1`, updates `E`. -/
abbrev vecScatterDims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

section
variable {N E w : Nat} (wf : ScatterDims.WF ⟨1, ![N]⟩ ⟨2, ![E, 1]⟩ ⟨1, ![E]⟩ [] [0] [0] 1)
  (idx : IVec ⟨2, ![E, 1]⟩ w)

/-- Update `e` lands at the signed value of index `e`. -/
theorem vecScatter_pos (e : Fin E) :
    (vecScatterDims N E wf).start (ix1 e) idx (0 : Fin 1) + ((vecScatterDims N E wf).window (ix1 e) (0 : Fin 1) : ℤ)
      = (idx (ix2 e (0 : Fin 1))).toInt := by
  have hw : (vecScatterDims N E wf).window (ix1 e) (0 : Fin 1) = 0 := by
    have h0 : (0 : Fin 1) ∉ (vecScatterDims N E wf).sKept := show (0 : Fin 1) ∉ ([] : List (Fin 1)) from List.not_mem_nil
    unfold ScatterDims.window
    rw [dif_neg h0]
  rw [hw]
  unfold ScatterDims.start
  rw [dif_pos (show (0 : Fin 1) ∈ ([0] : List (Fin 1)) from by decide)]
  have hsi : (vecScatterDims N E wf).siIdx (ix1 e) ⟨List.idxOf (0 : Fin 1) (vecScatterDims N E wf).scatterDimsToOperandDims,
      List.idxOf_lt_length_iff.2 (show (0 : Fin 1) ∈ ([0] : List (Fin 1)) from by decide)⟩ = ix2 e (0 : Fin 1) := by
    funext b; refine Fin.ext ?_
    match b with
    | ⟨0, _⟩ => rfl
    | ⟨1, _⟩ => rfl
  rw [hsi]
  simp

/-- Update `e` lands on element `i` exactly when index `e`, read signed, is `i`. -/
theorem vecScatter_resultIdx (e : Fin E) (i : Fin N) :
    (vecScatterDims N E wf).resultIdx? (ix1 e) idx = some (ix1 i) ↔ (idx (ix2 e (0 : Fin 1))).toInt = (i.val : ℤ) := by
  have p0 := vecScatter_pos wf idx e
  unfold ScatterDims.resultIdx?
  constructor
  · intro h
    split at h
    · rename_i hb
      have hf := Option.some.inj h
      have h0 : ((vecScatterDims N E wf).start (ix1 e) idx (0 : Fin 1)
          + ((vecScatterDims N E wf).window (ix1 e) (0 : Fin 1) : ℤ)).toNat = i.val :=
        congrArg (fun f => (f (0 : Fin 1)).val) hf
      have b0 := (hb (0 : Fin 1)).1
      rw [p0] at h0 b0
      omega
    · exact absurd h (by simp)
  · intro h0
    have hb : ∀ a : Fin 1, 0 ≤ (vecScatterDims N E wf).start (ix1 e) idx a + ((vecScatterDims N E wf).window (ix1 e) a : ℤ)
        ∧ (vecScatterDims N E wf).start (ix1 e) idx a + ((vecScatterDims N E wf).window (ix1 e) a : ℤ)
          < (((⟨1, ![N]⟩ : Shape).size a : ℕ) : ℤ) := by
      intro a
      match a with
      | ⟨0, _⟩ =>
        show 0 ≤ (vecScatterDims N E wf).start (ix1 e) idx (0 : Fin 1) + ((vecScatterDims N E wf).window (ix1 e) (0 : Fin 1) : ℤ)
          ∧ (vecScatterDims N E wf).start (ix1 e) idx (0 : Fin 1) + ((vecScatterDims N E wf).window (ix1 e) (0 : Fin 1) : ℤ) < ((N : ℕ) : ℤ)
        rw [p0, h0]
        exact ⟨by omega, by exact_mod_cast i.isLt⟩
    rw [dif_pos hb]
    congr 1
    funext a
    refine Fin.ext ?_
    match a with
    | ⟨0, _⟩ =>
      show ((vecScatterDims N E wf).start (ix1 e) idx (0 : Fin 1) + ((vecScatterDims N E wf).window (ix1 e) (0 : Fin 1) : ℤ)).toNat = i.val
      rw [p0, h0]; simp

/-- THE ACCUMULATING SCATTER OF SCALARS READ AT `i`, at the ideal values: the operand's element plus the sum of the
    updates over the positions `e` whose index, read signed, is `i`. -/
theorem scatterAdd_vec_apply (x : (⟨1, ![N]⟩ : Shape).Idx → EReal) (upd : (⟨1, ![E]⟩ : Shape).Idx → EReal) (i : Fin N) :
    Ideal.hostScatterAdd (vecScatterDims N E wf) x idx upd (ix1 i)
      = x (ix1 i) + ∑ e ∈ Finset.univ.filter (fun e : Fin E => (idx (ix2 e (0 : Fin 1))).toInt = (i.val : ℤ)), upd (ix1 e) := by
  unfold Ideal.hostScatterAdd
  congr 1
  rw [Finset.sum_filter, sum_ix1, Finset.sum_filter]
  refine Finset.sum_congr rfl fun e _ => ?_
  simp only [vecScatter_resultIdx wf idx e i]

end

end Cert.Gcn

end
-- ==== Proof.Val.Ref.lean ====
/-
  The reference program's result as the layer function of its arguments, when every source id names a row: the row
  gather reads the named row (no wrap, no clamp in range), the two accumulating scatters sum over the edges into a
  node, the quotient by the clamped degree is the product with its reciprocal, the joined 256 columns split into the
  node's own 128 and the neighbourhood's 128.
-/
import proofs.«427921_j16320875725295_2_alg».proof.Proof.Gen.ReferenceIdeal.Read
import proofs.«427921_j16320875725295_2_alg».proof.Proof.Val.Spec
import proofs.«427921_j16320875725295_2_alg».proof.Proof.LibRowGatherScatter
import proofs.«427921_j16320875725295_2_alg».proof.Proof.LibVecScatter
import Idealize.ShloMosaic.Lib.Pipeline.Value
import Idealize.ShloMosaic.Lib.ValueIdx
import Idealize.ShloMosaic.Lib.ValueLayout
import Idealize.ShloMosaic.PureOps.Ideal.Laws
import Idealize.ShloMosaic.Lib.IdealHost

noncomputable section

namespace Cert.ReferenceIdeal.RefVal

open Idealize.ShloMosaic Idealize.ShloMosaic.TcCoe Idealize.ShloMosaic.ValueIdx
open Cert.ReferenceIdeal Cert.ReferenceIdeal.Gen
open scoped BigOperators

open Cert.ReferenceIdeal.Read

/-! ## The integer side: the source and destination ids as the reference reads them -/

/-- A word that is not negative as a signed integer is left alone by the wrap "if negative, add the row count". -/
theorem wrap_nonneg (s : BitVec 32) (h : 0 ≤ s.toInt) :
    Scalar.select (IntOp.cmpi .slt s 0#32) (IntOp.addi s 50000#32) s = s := by
  have hs : s.slt 0#32 = false := by
    simp only [BitVec.slt, BitVec.toInt_zero, decide_eq_false_iff_not, not_lt]
    exact h
  unfold Scalar.select IntOp.cmpi
  simp only [hs, BitVec.ofBool_false]
  rw [if_neg (by decide)]

/-- Row 0 of the edge array, flattened: entry `e` is the source id of edge `e`. -/
theorem v1_read (x1 : S2x800000.Idx → BitVec 32) (e : Fin 800000) :
    val_main_v1 (F := Ideal) x1 (ix1 e) = x1 (ix2 (0 : Fin 2) e) := by
  rw [val_main_v1_apply, val_main_v0_apply]
  congr 1
  funext a
  match a with
  | ⟨0, _⟩ => rfl
  | ⟨1, _⟩ => exact Fin.ext (by show e.val % 800000 = e.val; have := e.isLt; omega)

/-- Row 1 of the edge array, flattened: entry `e` is the destination id of edge `e`. -/
theorem v3_read (x1 : S2x800000.Idx → BitVec 32) (e : Fin 800000) :
    val_main_v3 (F := Ideal) x1 (ix1 e) = x1 (ix2 (1 : Fin 2) e) := by
  rw [val_main_v3_apply, val_main_v2_apply]
  congr 1
  funext a
  match a with
  | ⟨0, _⟩ => rfl
  | ⟨1, _⟩ => exact Fin.ext (by show e.val % 800000 = e.val; have := e.isLt; omega)

/-- The column of gather indices at edge `e` is the source id itself when that id is not negative. -/
theorem v9_read (x1 : S2x800000.Idx → BitVec 32) (e : Fin 800000) (h : 0 ≤ (x1 (ix2 (0 : Fin 2) e)).toInt) :
    val_main_v9 (F := Ideal) x1 (ix2 e (0 : Fin 1)) = x1 (ix2 (0 : Fin 2) e) := by
  have hi : idx_main_v9 (ix2 e (0 : Fin 1)) = ix1 e := by
    funext a; match a with | ⟨0, _⟩ => rfl
  rw [val_main_v9_apply, hi, val_main_v8_apply, val_main_v5_apply, val_main_v7_apply, val_main_v4_apply,
    val_main_c_apply, val_main_v6_apply, val_main_c_0_apply, v1_read]
  exact wrap_nonneg _ h

/-- The column of scatter indices of the row scatter at edge `e` is the destination id. -/
theorem v12_read (x1 : S2x800000.Idx → BitVec 32) (e : Fin 800000) :
    val_main_v12 (F := Ideal) x1 (ix2 e (0 : Fin 1)) = x1 (ix2 (1 : Fin 2) e) := by
  have hi : idx_main_v12 (ix2 e (0 : Fin 1)) = ix1 e := by
    funext a; match a with | ⟨0, _⟩ => rfl
  rw [val_main_v12_apply, hi, v3_read]

/-- The column of scatter indices of the degree scatter at edge `e` is the destination id. -/
theorem v16_read (x1 : S2x800000.Idx → BitVec 32) (e : Fin 800000) :
    val_main_v16 (F := Ideal) x1 (ix2 e (0 : Fin 1)) = x1 (ix2 (1 : Fin 2) e) := by
  have hi : idx_main_v16 (ix2 e (0 : Fin 1)) = ix1 e := by
    funext a; match a with | ⟨0, _⟩ => rfl
  rw [val_main_v16_apply, hi, v3_read]

/-- A 32-bit word whose signed value is not negative has that value as its unsigned value. -/
theorem toInt_eq_toNat_of_nonneg (s : BitVec 32) (h : 0 ≤ s.toInt) : s.toInt = (s.toNat : ℤ) := by
  have hc := BitVec.toInt_eq_toNat_cond s
  have hl := s.isLt
  split at hc <;> omega

/-! ## The gather: the row a source id in range names -/

/-- The gathered row of edge `e` is the feature row its source id names: no wrap, and the clamp into
    `[0, 49999]` does nothing to an id in range. -/
theorem v10_read (x0 : S50000x128.Idx → EReal) (x1 : S2x800000.Idx → BitVec 32) (e : Fin 800000) (k : Fin 128)
    (h : 0 ≤ (x1 (ix2 (0 : Fin 2) e)).toInt ∧ (x1 (ix2 (0 : Fin 2) e)).toInt < 50000) :
    val_main_v10 (F := Ideal) x0 x1 (ix2 e k) = Cert.Spec.srcRow x0 x1 e k := by
  have hn := toInt_eq_toNat_of_nonneg _ h.1
  have hlt : (x1 (ix2 (0 : Fin 2) e)).toNat < 50000 := by omega
  unfold val_main_v10 Cert.Spec.srcRow
  rw [dif_pos hlt]
  refine (Cert.Gcn.gather_rows_apply (N := 50000) (E := 800000) (C := 128) (by decide)
    Facts₀.gather_S50000x128_S800000x1_S800000x128_1_0_n_n_0_1_1128_wf x0 (val_main_v9 (F := Ideal) x1) e k).trans ?_
  refine congrArg (fun r : Fin 50000 => x0 (ix2 r k)) (Fin.ext ?_)
  show min (val_main_v9 (F := Ideal) x1 (ix2 e (0 : Fin 1))).toInt.toNat (50000 - 1) = (x1 (ix2 (0 : Fin 2) e)).toNat
  rw [v9_read x1 e h.1]
  omega

/-! ## The two scatters of the reference -/

/-- At the ideal values the host's accumulating scatter is the exact sum. -/
theorem hostScatterAdd_eq {s si u : Shape} {φ : FTy} {w : Nat} (d : ScatterDims s si u) (x : FVec Ideal s φ)
    (idx : IVec si w) (upd : FVec Ideal u φ) :
    Host.scatterAdd d x idx upd = Ideal.hostScatterAdd d x idx upd := rfl

/-- The row scatter's dimension numbers are those of a scatter of rows by a column of indices. -/
theorem rowScatter_rec : scatter_S50000x128_S800000x1_S800000x128_1_0_0_1
    = Cert.Gcn.rowScatterDims 50000 800000 128 Facts₀.scatter_S50000x128_S800000x1_S800000x128_1_0_0_1_wf := rfl

/-- Entry `(n, k)` of the scattered rows: the source rows of the edges into node `n`, summed. -/
theorem v13_read (x0 : S50000x128.Idx → EReal) (x1 : S2x800000.Idx → BitVec 32)
    (hsrc : ∀ e : Fin 800000, 0 ≤ (x1 (ix2 (0 : Fin 2) e)).toInt ∧ (x1 (ix2 (0 : Fin 2) e)).toInt < 50000)
    (n : Fin 50000) (k : Fin 128) :
    val_main_v13 (F := Ideal) x0 x1 (ix2 n k) = ∑ e ∈ Cert.Spec.into x1 n.val, Cert.Spec.srcRow x0 x1 e k := by
  unfold val_main_v13
  rw [hostScatterAdd_eq, rowScatter_rec, Cert.Gcn.scatterAdd_rows_apply, val_main_v11_apply, val_main_cst_apply,
    Ideal.ofBits_def, Ideal.ofBits_zero_f32, zero_add]
  refine Finset.sum_congr ?_ (fun e _ => v10_read x0 x1 e k (hsrc e))
  unfold Cert.Spec.into
  exact Finset.filter_congr fun e _ => by rw [v12_read]

/-- The degree scatter's dimension numbers are those of a scatter of scalars by a column of indices. -/
theorem vecScatter_rec : scatter_S50000_S800000x1_S800000_n_0_0_1
    = Cert.Gcn.vecScatterDims 50000 800000 Facts₀.scatter_S50000_S800000x1_S800000_n_0_0_1_wf := rfl

/-- Entry `n` of the scattered ones: the number of edges into node `n`, as a sum of ones. -/
theorem v17_read (x1 : S2x800000.Idx → BitVec 32) (n : Fin 50000) :
    val_main_v17 (F := Ideal) x1 (ix1 n) = Cert.Spec.indeg x1 n.val := by
  unfold val_main_v17
  rw [hostScatterAdd_eq, vecScatter_rec, Cert.Gcn.scatterAdd_vec_apply, val_main_v15_apply,
    val_main_cst_2_apply, Ideal.ofBits_def, Ideal.ofBits_zero_f32, zero_add]
  unfold Cert.Spec.indeg
  refine Finset.sum_congr ?_ (fun e _ => ?_)
  · unfold Cert.Spec.into
    exact Finset.filter_congr fun e _ => by rw [v16_read]
  · rw [val_main_v14_apply, val_main_cst_1_apply, Ideal.ofBits_def, Ideal.ofBits_one_f32]

/-! ## The clamped degree and the quotient -/

/-- The clamped degree of node `n`, the same along the row. -/
theorem v21_read (x1 : S2x800000.Idx → BitVec 32) (n : Fin 50000) (a : Fin 128) :
    val_main_v21 (F := Ideal) x1 (ix2 n a) = max (Cert.Spec.indeg x1 n.val) 1 := by
  have h1 : idx_main_v20 (idx_main_v21 (ix2 n a)) = ix1 n := by
    funext b; match b with | ⟨0, _⟩ => rfl
  rw [val_main_v21_apply, val_main_v20_apply, h1, val_main_v19_apply, Ideal.maximumf_def, v17_read,
    val_main_v18_apply, val_main_cst_3_apply, Ideal.ofBits_def, Ideal.ofBits_one_f32]

/-- A degree clamped below by one is not zero. -/
theorem clamp_ne_zero (x : EReal) : max x 1 ≠ 0 :=
  (lt_of_lt_of_le zero_lt_one (le_max_right x 1)).ne'

/-- Entry `(n, a)` of the normalised neighbourhood sum. -/
theorem v22_read (x0 : S50000x128.Idx → EReal) (x1 : S2x800000.Idx → BitVec 32)
    (hsrc : ∀ e : Fin 800000, 0 ≤ (x1 (ix2 (0 : Fin 2) e)).toInt ∧ (x1 (ix2 (0 : Fin 2) e)).toInt < 50000)
    (n : Fin 50000) (a : Fin 128) :
    val_main_v22 (F := Ideal) x0 x1 (ix2 n a) = Cert.Spec.meanIn x0 x1 n a := by
  rw [val_main_v22_apply, Ideal.hostDivf_def, v13_read x0 x1 hsrc, v21_read]
  unfold Cert.Spec.meanIn
  exact (Ideal.mul_one_div (clamp_ne_zero _)).symm

/-! ## The joined columns: the node's own 128, then the neighbourhood's 128 -/

/-- A joined column below 128 is the node's own feature. -/
theorem v23_left (x0 : S50000x128.Idx → EReal) (x1 : S2x800000.Idx → BitVec 32) (n : Fin 50000) (a : Fin 128) :
    val_main_v23 (F := Ideal) x0 x1 (ix2 n (⟨a.val, by omega⟩ : Fin 256)) = x0 (ix2 n a) := by
  unfold val_main_v23
  exact concatenate_pair_apply_left _ x0 (val_main_v22 (F := Ideal) x0 x1)
    Facts₀.concatenates_S50000x128_S50000x128_S50000x256_d1 _ rfl (ix2 n a)
    (fun b => match b with | ⟨0, _⟩ => rfl | ⟨1, _⟩ => rfl)

/-- A joined column from 128 on is the normalised neighbourhood sum. -/
theorem v23_right (x0 : S50000x128.Idx → EReal) (x1 : S2x800000.Idx → BitVec 32)
    (hsrc : ∀ e : Fin 800000, 0 ≤ (x1 (ix2 (0 : Fin 2) e)).toInt ∧ (x1 (ix2 (0 : Fin 2) e)).toInt < 50000)
    (n : Fin 50000) (a : Fin 128) :
    val_main_v23 (F := Ideal) x0 x1 (ix2 n (⟨128 + a.val, by omega⟩ : Fin 256)) = Cert.Spec.meanIn x0 x1 n a := by
  unfold val_main_v23
  refine (concatenate_pair_apply_right _ x0 (val_main_v22 (F := Ideal) x0 x1)
    Facts₀.concatenates_S50000x128_S50000x128_S50000x256_d1 _ rfl rfl (ix2 n a)
    (fun b hb => match b, hb with
      | ⟨0, _⟩, _ => rfl
      | ⟨1, _⟩, hb => absurd rfl hb)
    (by show a.val + 128 = 128 + a.val; omega)).trans ?_
  exact v22_read x0 x1 hsrc n a

/-- A sum over 256 columns is the sum over the first 128 plus the sum over the last 128. -/
theorem sum_split_256 (f : Fin 256 → EReal) :
    ∑ c : Fin 256, f c = (∑ a : Fin 128, f ⟨a.val, by omega⟩) + ∑ a : Fin 128, f ⟨128 + a.val, by omega⟩ :=
  Fin.sum_univ_add (a := 128) (b := 128) f

/-! ## The two dense layers -/

/-- The first product at `(n, k)`: the node's features through the upper half of the first weight matrix plus the
    normalised neighbourhood sum through the lower half. -/
theorem v24_read (x0 : S50000x128.Idx → EReal) (x1 : S2x800000.Idx → BitVec 32) (x2 : S256x128.Idx → EReal)
    (hsrc : ∀ e : Fin 800000, 0 ≤ (x1 (ix2 (0 : Fin 2) e)).toInt ∧ (x1 (ix2 (0 : Fin 2) e)).toInt < 50000)
    (n : Fin 50000) (k : Fin 128) :
    val_main_v24 (F := Ideal) x0 x1 x2 (ix2 n k)
      = (∑ a : Fin 128, x0 (ix2 n a) * x2 (ix2 (⟨a.val, by omega⟩ : Fin 256) k))
        + ∑ a : Fin 128, Cert.Spec.meanIn x0 x1 n a * x2 (ix2 (⟨128 + a.val, by omega⟩ : Fin 256) k) := by
  have hl : ∀ c : Fin 256, lidx_main_v24 (ix2 n k) c = ix2 n c := fun c => by
    funext b; match b with | ⟨0, _⟩ => rfl | ⟨1, _⟩ => rfl
  have hr : ∀ c : Fin 256, ridx_main_v24 (ix2 n k) c = ix2 c k := fun c => by
    funext b; match b with | ⟨0, _⟩ => rfl | ⟨1, _⟩ => rfl
  rw [val_main_v24_apply]
  simp only [hl, hr]
  rw [sum_split_256]
  refine congrArg₂ (· + ·) ?_ ?_
  · exact Finset.sum_congr rfl fun a _ => by rw [v23_left]
  · exact Finset.sum_congr rfl fun a _ => by rw [v23_right x0 x1 hsrc]

/-- A bias broadcast down the rows reads the bias at the column. -/
theorem v26_read (x3 : S128.Idx → EReal) (n : Fin 50000) (k : Fin 128) :
    val_main_v26 (F := Ideal) x3 (ix2 n k) = x3 (ix1 k) := by
  rw [val_main_v26_apply, val_main_v25_apply]
  congr 1
  funext b; match b with | ⟨0, _⟩ => rfl

/-- The second bias likewise. -/
theorem v31_read (x5 : S128.Idx → EReal) (n : Fin 50000) (k : Fin 128) :
    val_main_v31 (F := Ideal) x5 (ix2 n k) = x5 (ix1 k) := by
  rw [val_main_v31_apply, val_main_v30_apply]
  congr 1
  funext b; match b with | ⟨0, _⟩ => rfl

/-- The first layer's output at `(n, k)`: (own + neighbourhood) + bias, rectified. -/
theorem v28_read (x0 : S50000x128.Idx → EReal) (x1 : S2x800000.Idx → BitVec 32) (x2 : S256x128.Idx → EReal)
    (x3 : S128.Idx → EReal)
    (hsrc : ∀ e : Fin 800000, 0 ≤ (x1 (ix2 (0 : Fin 2) e)).toInt ∧ (x1 (ix2 (0 : Fin 2) e)).toInt < 50000)
    (n : Fin 50000) (k : Fin 128) :
    val_main_v28 (F := Ideal) x0 x1 x2 x3 (ix2 n k)
      = max (((∑ a : Fin 128, x0 (ix2 n a) * x2 (ix2 (⟨a.val, by omega⟩ : Fin 256) k))
          + ∑ a : Fin 128, Cert.Spec.meanIn x0 x1 n a * x2 (ix2 (⟨128 + a.val, by omega⟩ : Fin 256) k))
        + x3 (ix1 k)) 0 := by
  rw [val_main_v28_apply, Ideal.maximumf_def, val_main_v27_apply, Ideal.addf_def, v24_read x0 x1 x2 hsrc, v26_read,
    val_main_call0_v0_apply, val_main_call0_cst_apply, Ideal.ofBits_def, Ideal.ofBits_zero_f32]

/-- The layer function at `(n, j)`, written out. -/
theorem layer_at (h : S50000x128.Idx → EReal) (ei : S2x800000.Idx → BitVec 32) (w1 : S256x128.Idx → EReal)
    (b1 : S128.Idx → EReal) (w2 : S128x128.Idx → EReal) (b2 : S128.Idx → EReal) (n : Fin 50000) (j : Fin 128) :
    Cert.Spec.layer h ei w1 b1 w2 b2 (ix2 n j)
      = max ((∑ k : Fin 128,
          max (((∑ a : Fin 128, h (ix2 n a) * w1 (ix2 (⟨a.val, by omega⟩ : Fin 256) k))
              + (∑ a : Fin 128, Cert.Spec.meanIn h ei n a * w1 (ix2 (⟨128 + a.val, by omega⟩ : Fin 256) k)))
            + b1 (ix1 k)) 0 * w2 (ix2 k j)) + b2 (ix1 j)) 0 := rfl

/-- The reference's result is the layer function, when every source id is in `[0, 50000)`. -/
theorem ref_result (x0 : S50000x128.Idx → EReal) (x1 : S2x800000.Idx → BitVec 32) (x2 : S256x128.Idx → EReal)
    (x3 : S128.Idx → EReal) (x4 : S128x128.Idx → EReal) (x5 : S128.Idx → EReal)
    (hsrc : ∀ e : Fin 800000, 0 ≤ (x1 (ix2 (0 : Fin 2) e)).toInt ∧ (x1 (ix2 (0 : Fin 2) e)).toInt < 50000) :
    Cert.ReferenceIdeal.Read.val_main_v33 (F := Ideal) x0 x1 x2 x3 x4 x5 = Cert.Spec.layer x0 x1 x2 x3 x4 x5 := by
  funext i
  obtain ⟨n, j, rfl⟩ : ∃ (n : Fin 50000) (j : Fin 128), i = ix2 n j := ⟨i 0, i 1, eq_ix2 i⟩
  have hl : ∀ c : Fin 128, lidx_main_v29 (ix2 n j) c = ix2 n c := fun c => by
    funext b; match b with | ⟨0, _⟩ => rfl | ⟨1, _⟩ => rfl
  have hr : ∀ c : Fin 128, ridx_main_v29 (ix2 n j) c = ix2 c j := fun c => by
    funext b; match b with | ⟨0, _⟩ => rfl | ⟨1, _⟩ => rfl
  rw [layer_at, val_main_v33_apply, Ideal.maximumf_def, val_main_v32_apply, Ideal.addf_def, val_main_v29_apply,
    v31_read, val_main_call1_v0_apply, val_main_call1_cst_apply, Ideal.ofBits_def, Ideal.ofBits_zero_f32]
  simp only [hl, hr, v28_read x0 x1 x2 x3 hsrc]

end Cert.ReferenceIdeal.RefVal

end
-- ==== Proof.Val.Pre.lean ====
/-
  The precondition read at an edge: every source id, as a signed integer, lies in `[0, 50000)`.
-/
import proofs.«427921_j16320875725295_2_alg».proof.Proof.Gen.Pre_finite_inputs
import Idealize.ShloMosaic.Lib.ValueIdx
import Idealize.ShloMosaic.Lib.ReduceAll
import Idealize.ShloMosaic.Lib.StableHlo.Predicate

noncomputable section

namespace Cert.Pre_finite_inputs.Decode

open Idealize.ShloMosaic Idealize.ShloMosaic.ValueIdx
open Cert.Pre_finite_inputs Cert.Pre_finite_inputs.Gen

/-- The scalar shape has one index. -/
instance subsingleton_S_ : Subsingleton S_.Idx := ⟨fun a b => funext fun d => d.elim0⟩

/-- Row 0 of the edge table, flattened, read at edge `e`: the slice keeps row 0 and every column, and the
    reshape of a one-row rectangle to a vector keeps the row-major position, which is the column. -/
theorem src_read (x1 : S2x800000.Idx → BitVec 32) (hs : S2x800000.Slices ![0, 0] S1x800000)
    (hc : S1x800000.ShapeCasts S800000) (e : Fin 800000) :
    shapeCast S800000 (extractStridedSlice S1x800000 ![0, 0] x1 hs) hc (ix1 e) = x1 (ix2 (0 : Fin 2) e) := by
  have h1 : shapeCast S800000 (extractStridedSlice S1x800000 ![0, 0] x1 hs) hc (ix1 e)
      = extractStridedSlice S1x800000 ![0, 0] x1 hs (ix2 (0 : Fin 1) e) := by
    unfold shapeCast
    refine congrArg _ (Shape.reshapeEquiv_eq_of_rowMajor hc ?_)
    rw [Shape.rowMajor_val_one, Shape.rowMajor_val_two]
    show (0 : Nat) * 800000 + e.val = e.val
    omega
  rw [h1]
  unfold extractStridedSlice
  refine congrArg x1 (funext fun a => Fin.ext ?_)
  match a with
  | ⟨0, _⟩ => rfl
  | ⟨1, _⟩ => show 0 + e.val = e.val; omega

/-- Every source id is in range, from the precondition. -/
theorem src_range (x0 : S50000x128.Idx → EReal) (x1 : S2x800000.Idx → BitVec 32) (x2 : S256x128.Idx → EReal)
    (x3 : S128.Idx → EReal) (x4 : S128x128.Idx → EReal) (x5 : S128.Idx → EReal)
    (h : Cert.Pre_finite_inputs.fn (F := Ideal) x0 x1 x2 x3 x4 x5 = fun _ => 1#1) :
    ∀ e : Fin 800000, 0 ≤ (x1 (ix2 (0 : Fin 2) e)).toInt ∧ (x1 (ix2 (0 : Fin 2) e)).toInt < 50000 := by
  intro e
  -- the predicate's one word is the conjunction of six tests; the last is the range test over all edges
  have h0 := congrFun h ValueIdx.ix0
  dsimp only [fn, fn_part1] at h0
  have h1 := (IntOp.andi_eq_one.1 h0).2
  -- a reduction by "and" into one word that is 1 met a 1 at every edge
  have h2 := Host.reduce_andi_all _ _ _ _ _ h1 (ix1 e)
  obtain ⟨ha, hb⟩ := IntOp.andi_eq_one.1 h2
  -- the two signed compares at edge e, against the broadcast literals 0 and 50000
  have ha' := IntOp.cmpi_sge.1 ha
  have hb' := IntOp.cmpi_slt.1 hb
  rw [src_read] at ha' hb'
  refine ⟨?_, ?_⟩
  · have : (0#32 : BitVec 32).toInt = 0 := by decide
    exact this ▸ ha'
  · have : (50000#32 : BitVec 32).toInt = 50000 := by decide
    exact this ▸ hb'

end Cert.Pre_finite_inputs.Decode

end
-- ==== Proof.lean ====
/-
  The certificate of a graph layer: per edge the source node's feature row is gathered, the rows are summed into their
  destination nodes and divided by the in-degree (at least one), and two dense layers with a rectifier follow, the first
  reading the node's own features beside the normalised neighbourhood sum.

  The kernel does the gather and the scatter as products with indicator matrices ("node id = edge id"), block by block,
  an accumulator carried across the blocks of the contracted axis; over the extended reals a product with an indicator
  keeps exactly the matching terms of a sum, so both programs compute the same layer function of the arguments
  (`Cert.Spec.layer`) wherever every source id names a row — the one thing the precondition adds to finiteness: outside
  it the reference clamps the id to a row while the kernel's indicator matches nothing.

  The frames of the two kernel programs come from the run of their segments (host stretches and the three calls, each
  call by its proof data and body obligation); the reference's frame and value from its generated run.
-/
import proofs.«427921_j16320875725295_2_alg».proof.Defs
import proofs.«427921_j16320875725295_2_alg».proof.Proof.Gen.Kernel
import proofs.«427921_j16320875725295_2_alg».proof.Proof.Gen.Kernel.Skeleton
import proofs.«427921_j16320875725295_2_alg».proof.Proof.Gen.Kernel.Launch
import proofs.«427921_j16320875725295_2_alg».proof.Proof.Gen.Kernel.Regions
import proofs.«427921_j16320875725295_2_alg».proof.Proof.Gen.Kernel.Points
import proofs.«427921_j16320875725295_2_alg».proof.Proof.Gen.KernelIdeal
import proofs.«427921_j16320875725295_2_alg».proof.Proof.Gen.KernelIdeal.Skeleton
import proofs.«427921_j16320875725295_2_alg».proof.Proof.Gen.KernelIdeal.Launch
import proofs.«427921_j16320875725295_2_alg».proof.Proof.Gen.KernelIdeal.Regions
import proofs.«427921_j16320875725295_2_alg».proof.Proof.Gen.KernelIdeal.Points
import proofs.«427921_j16320875725295_2_alg».proof.Proof.Gen.ReferenceIdeal
import proofs.«427921_j16320875725295_2_alg».proof.Proof.Gen.Pre_finite_inputs
import proofs.«427921_j16320875725295_2_alg».proof.Proof.Gen.ReferenceIdeal.Run
import proofs.«427921_j16320875725295_2_alg».proof.Proof.Gen.ReferenceIdeal.Read
import proofs.«427921_j16320875725295_2_alg».proof.Proof.K.Launch
import proofs.«427921_j16320875725295_2_alg».proof.Proof.KI.Launch
import proofs.«427921_j16320875725295_2_alg».proof.Proof.Val.Gather
import proofs.«427921_j16320875725295_2_alg».proof.Proof.Val.Scatter
import proofs.«427921_j16320875725295_2_alg».proof.Proof.Val.Mlp
import proofs.«427921_j16320875725295_2_alg».proof.Proof.Val.HostK
import proofs.«427921_j16320875725295_2_alg».proof.Proof.Val.Ref
import proofs.«427921_j16320875725295_2_alg».proof.Proof.Val.Pre
import Idealize.ShloMosaic.Adequacy
import Idealize.ShloMosaic.Init

noncomputable section

namespace Cert.Proof

open Idealize.ShloMosaic Idealize.ShloMosaic.TcCoe Idealize.SL.Sem

/-! ## The kernel's value -/

section KernelValue

open Cert.KernelIdeal Cert.KernelIdeal.Gen Cert.KernelIdeal.Hand

/-- The idealized kernel program's result buffer ends at the layer function of its arguments: the three calls leave the
    gathered, the aggregated and the dense arrays, and the host stretches around them do the rest. -/
theorem kernel_value (m : (ℓ : Loc nD τ sig) → Buf (Elt Ideal) ℓ) (c : Dev nD) :
    (V12 m (outsH m) c main_v28 : S50000x128.Idx → EReal)
      = Cert.Spec.layer (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5)) := by
  refine Cert.KernelIdeal.Val.kernel_result m (outsH m) c ?_ ?_ ?_
  · rw [outs8_eq m c]
    exact Cert.KernelIdeal.Val.final0 (ent0 m) c (dat0 (ent0 m) c) (A_eq0 (ent0 m) c) (after0_2 (ent0 m) c)
  · rw [outs9_eq m c]
    exact Cert.KernelIdeal.Val.final1 (ent1 m) c (dat1 (ent1 m) c) (A_eq1 (ent1 m) c) (after1_3 (ent1 m) c)
  · rw [outs11_eq m c]
    exact Cert.KernelIdeal.Val.final2 (ent2 m) c (dat2 (ent2 m) c) (A_eq2 (ent2 m) c) (after2_7 (ent2 m) c)

end KernelValue

/-! ## The claims -/

theorem frame_k : Cert.frame_Kernel (hKernel := Cert.Kernel.Gen.facts) (hPre_finite_inputs := Cert.Pre_finite_inputs.Gen.facts) :=
  fun m ρ _ => (θ_run Cert.Kernel.defs _ _).mono (fun _ h c => (h c).2) (Cert.Kernel.Hand.run_val (F := Bits) m ρ)

theorem frame_ki : Cert.frame_KernelIdeal (hKernelIdeal := Cert.KernelIdeal.Gen.facts) (hPre_finite_inputs := Cert.Pre_finite_inputs.Gen.facts) :=
  fun m ρ _ => (θ_run Cert.KernelIdeal.defs _ _).mono (fun _ h c => (h c).2) (Cert.KernelIdeal.Hand.run_val (F := Ideal) m ρ)

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Both idealized programs end at the layer function of the (agreeing) arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.Spec.layer (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono (fun _ h c => ⟨(h c).1.trans (kernel_value m c), (h c).2⟩)
      (Cert.KernelIdeal.Hand.run_val (F := Ideal) m ρ)
  · refine (θ_run Cert.ReferenceIdeal.defs _ _).mono (fun _ h c => ⟨(h c).1.trans ?_, (h c).2⟩)
      (Cert.ReferenceIdeal.Value.run (F := Ideal) m' ρ')
    obtain ⟨e0, e1, e2, e3, e4, e5⟩ := hagree c
    rw [Cert.ReferenceIdeal.Read.val_main_v33_eq, e0, e1, e2, e3, e4, e5]
    exact Cert.ReferenceIdeal.RefVal.ref_result _ _ _ _ _ _
      (Cert.Pre_finite_inputs.Decode.src_range _ _ _ _ _ _ (hpre c))

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
